-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S800000 : Shape := ⟨1, ![800000]⟩
abbrev S100000 : Shape := ⟨1, ![100000]⟩
abbrev S3x64x64 : Shape := ⟨3, ![3, 64, 64]⟩
abbrev S3x64 : Shape := ⟨2, ![3, 64]⟩
abbrev S64x10 : Shape := ⟨2, ![64, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S3x64 .f32) (main_arg10 : FVec F S64x10 .f32) (main_arg11 : FVec F S10 .f32) (main_v33 : IVec S_ 1) : IVec S_ 1 :=
  let main_v34 : FVec F S64x10 .f32 := Host.absf main_arg10
  let main_cst_12 : FVec F S_ .f32 := constant S_ .f32 0x7F800000#32
  let main_v35 : FVec F S64x10 .f32 := broadcastInDim S64x10 ![] bcast_S_S64x10 main_cst_12
  let main_v36 : IVec S64x10 1 := cmpf .olt main_v34 main_v35
  let main_c_13 : IVec S_ 1 := constantI S_ 1 1#1
  let main_v37 : IVec S_ 1 := (fun x v => Host.reduce IntOp.andi x v reducesTo_S64x10_S_d0_1 h_S_) main_v36 main_c_13
  let main_v38 : IVec S_ 1 := andi main_v33 main_v37
  let main_v39 : FVec F S10 .f32 := Host.absf main_arg11
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_cst_16 : FVec F S_ .f32 := constant S_ .f32 0x00000000#32
  let main_v44 : FVec F S3x64 .f32 := broadcastInDim S3x64 ![] bcast_S_S3x64 main_cst_16
  let main_v45 : IVec S3x64 1 := cmpf .oge main_arg9 main_v44
  let main_c_17 : IVec S_ 1 := constantI S_ 1 1#1
  let main_v46 : IVec S_ 1 := (fun x v => Host.reduce IntOp.andi x v reducesTo_S3x64_S_d0_1 h_S_) main_v45 main_c_17
  let main_v47 : IVec S_ 1 := andi main_v43 main_v46
  main_v47

def fn_part1 {F : FTy → Type} [FloatOps F] (main_arg7 : FVec F S3x64 .f32) (main_arg8 : FVec F S3x64 .f32) (main_arg9 : FVec F S3x64 .f32) (main_arg10 : FVec F S64x10 .f32) (main_arg11 : FVec F S10 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64 .f32 := Host.absf main_arg7
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64 .f32 := Host.absf main_arg8
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64 .f32 := Host.absf main_arg9
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : IVec S800000 32) (main_arg2 : IVec S800000 32) (main_arg3 : IVec S100000 32) (main_arg4 : FVec F S3x64x64 .f32) (main_arg5 : FVec F S3x64 .f32) (main_arg6 : FVec F S3x64 .f32) (main_arg7 : FVec F S3x64 .f32) (main_arg8 : FVec F S3x64 .f32) (main_arg9 : FVec F S3x64 .f32) (main_arg10 : FVec F S64x10 .f32) (main_arg11 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg4
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg5
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64 .f32 := Host.absf main_arg6
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg7 main_arg8 main_arg9 main_arg10 main_arg11 main_v13 main_v16
-- ==== Kernel.lean ====
abbrev S100000x64 : Shape := ⟨2, ![100000, 64]⟩
abbrev S800000 : Shape := ⟨1, ![800000]⟩
abbrev S100000 : Shape := ⟨1, ![100000]⟩
abbrev S3x64x64 : Shape := ⟨3, ![3, 64, 64]⟩
abbrev S3x64 : Shape := ⟨2, ![3, 64]⟩
abbrev S64x10 : Shape := ⟨2, ![64, 10]⟩
abbrev S10 : Shape := ⟨1, ![10]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S10000x64 : Shape := ⟨2, ![10000, 64]⟩
abbrev S100000x10 : Shape := ⟨2, ![100000, 10]⟩
abbrev S1x10 : Shape := ⟨2, ![1, 10]⟩
abbrev S100000x1 : Shape := ⟨2, ![100000, 1]⟩
abbrev S500x64 : Shape := ⟨2, ![500, 64]⟩
abbrev S500x10 : Shape := ⟨2, ![500, 10]⟩

abbrev nBuf : Space → Nat
  | .hbm => 147
  | .vmem => 30
  | .smem => 0
  | _ => 0

abbrev hbmTy0_0 (i : Nat) : BufTy := match i % 128 with
  | 0 => ⟨S100000x64, .f32⟩
  | 1 => ⟨S800000, .i32⟩
  | 2 => ⟨S800000, .i32⟩
  | 3 => ⟨S100000, .i32⟩
  | 4 => ⟨S3x64x64, .f32⟩
  | 5 => ⟨S3x64, .f32⟩
  | 6 => ⟨S3x64, .f32⟩
  | 7 => ⟨S3x64, .f32⟩
  | 8 => ⟨S3x64, .f32⟩
  | 9 => ⟨S3x64, .f32⟩
  | 10 => ⟨S64x10, .f32⟩
  | 11 => ⟨S10, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x64, .f32⟩
  | 21 => ⟨S_, .f32⟩
  | 22 => ⟨S100000x64, .f32⟩
  | 23 => ⟨S800000x1, .i32⟩
  | 24 => ⟨S100000x64, .f32⟩
  | 25 => ⟨S1x64x64, .f32⟩
  | 26 => ⟨S64x64, .f32⟩
  | 27 => ⟨S1x64, .f32⟩
  | 28 => ⟨S64, .f32⟩
  | 29 => ⟨S1x64, .f32⟩
  | 30 => ⟨S64, .f32⟩
  | 31 => ⟨S1x64, .f32⟩
  | 32 => ⟨S64, .f32⟩
  | 33 => ⟨S1x64, .f32⟩
  | 34 => ⟨S64, .f32⟩
  | 35 => ⟨S1x64, .f32⟩
  | 36 => ⟨S64, .f32⟩
  | 37 => ⟨S1x64, .f32⟩
  | 38 => ⟨S1x64, .f32⟩
  | 39 => ⟨S1x64, .f32⟩
  | 40 => ⟨S1x64, .f32⟩
  | 41 => ⟨S1x64, .f32⟩
  | 42 => ⟨S100000x64, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x64, .f32⟩
  | 52 => ⟨S_, .f32⟩
  | 53 => ⟨S100000x64, .f32⟩
  | 54 => ⟨S800000x1, .i32⟩
  | 55 => ⟨S100000x64, .f32⟩
  | 56 => ⟨S1x64x64, .f32⟩
  | 57 => ⟨S64x64, .f32⟩
  | 58 => ⟨S1x64, .f32⟩
  | 59 => ⟨S64, .f32⟩
  | 60 => ⟨S1x64, .f32⟩
  | 61 => ⟨S64, .f32⟩
  | 62 => ⟨S1x64, .f32⟩
  | 63 => ⟨S64, .f32⟩
  | 64 => ⟨S1x64, .f32⟩
  | 65 => ⟨S64, .f32⟩
  | 66 => ⟨S1x64, .f32⟩
  | 67 => ⟨S64, .f32⟩
  | 68 => ⟨S1x64, .f32⟩
  | 69 => ⟨S1x64, .f32⟩
  | 70 => ⟨S1x64, .f32⟩
  | 71 => ⟨S1x64, .f32⟩
  | 72 => ⟨S1x64, .f32⟩
  | 73 => ⟨S100000x64, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x64, .f32⟩
  | 83 => ⟨S_, .f32⟩
  | 84 => ⟨S100000x64, .f32⟩
  | 85 => ⟨S800000x1, .i32⟩
  | 86 => ⟨S100000x64, .f32⟩
  | 87 => ⟨S1x64x64, .f32⟩
  | 88 => ⟨S64x64, .f32⟩
  | 89 => ⟨S1x64, .f32⟩
  | 90 => ⟨S64, .f32⟩
  | 91 => ⟨S1x64, .f32⟩
  | 92 => ⟨S64, .f32⟩
  | 93 => ⟨S1x64, .f32⟩
  | 94 => ⟨S64, .f32⟩
  | 95 => ⟨S1x64, .f32⟩
  | 96 => ⟨S64, .f32⟩
  | 97 => ⟨S1x64, .f32⟩
  | 98 => ⟨S64, .f32⟩
  | 99 => ⟨S1x64, .f32⟩
  | 100 => ⟨S1x64, .f32⟩
  | 101 => ⟨S1x64, .f32⟩
  | 102 => ⟨S1x64, .f32⟩
  | 103 => ⟨S1x64, .f32⟩
  | 104 => ⟨S100000x64, .f32⟩
  | 105 => ⟨S100000x10, .f32⟩
  | 106 => ⟨S1x10, .f32⟩
  | 107 => ⟨S100000x10, .f32⟩
  | 108 => ⟨S100000x10, .f32⟩
  | 109 => ⟨S_, .f32⟩
  | 110 => ⟨S100000, .f32⟩
  | 111 => ⟨S_, .f32⟩
  | 112 => ⟨S100000, .f32⟩
  | 113 => ⟨S100000, .f32⟩
  | 114 => ⟨S100000x1, .f32⟩
  | 115 => ⟨S100000x10, .f32⟩
  | 116 => ⟨S100000x10, .f32⟩
  | 117 => ⟨S100000x10, .f32⟩
  | 118 => ⟨S_, .f32⟩
  | 119 => ⟨S100000, .f32⟩
  | 120 => ⟨S100000x1, .f32⟩
  | 121 => ⟨S100000x1, .f32⟩
  | 122 => ⟨S100000x10, .f32⟩
  | 123 => ⟨S100000x10, .f32⟩
  | 124 => ⟨S100000x10, .f32⟩
  | 125 => ⟨S100000x10, .f32⟩
  | 126 => ⟨S_, .f32⟩
  | 127 => ⟨S100000, .f32⟩
  | _ => ⟨S100000x64, .f32⟩

abbrev hbmTy0_1 (i : Nat) : BufTy := match i % 128 with
  | 0 => ⟨S100000, .f32⟩
  | 1 => ⟨S_, .f32⟩
  | 2 => ⟨S_, .f32⟩
  | 3 => ⟨S100000, .f32⟩
  | 4 => ⟨S100000, .f32⟩
  | 5 => ⟨S_, .f32⟩
  | 6 => ⟨S100000, .f32⟩
  | 7 => ⟨S100000, .f32⟩
  | 8 => ⟨S100000x1, .f32⟩
  | 9 => ⟨S100000x64, .f32⟩
  | 10 => ⟨S100000x64, .f32⟩
  | 11 => ⟨S_, .f32⟩
  | 12 => ⟨S500x64, .f32⟩
  | 13 => ⟨S100000x1, .i32⟩
  | 14 => ⟨S500x64, .f32⟩
  | 15 => ⟨S500x10, .f32⟩
  | 16 => ⟨S1x10, .f32⟩
  | 17 => ⟨S500x10, .f32⟩
  | 18 => ⟨S500x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_1 : Ref sig .tc := ⟨.hbm, 43, rfl⟩
abbrev main_v28 : Ref sig .tc := ⟨.hbm, 44, rfl⟩
abbrev main_v29 : Ref sig .tc := ⟨.hbm, 45, rfl⟩
abbrev main_c_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_4 : Ref sig .tc := ⟨.hbm, 74, rfl⟩
abbrev main_v56 : Ref sig .tc := ⟨.hbm, 75, rfl⟩
abbrev main_v57 : Ref sig .tc := ⟨.hbm, 76, rfl⟩
abbrev main_c_5 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_6 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_call0_cst : Ref sig .tc := ⟨.hbm, 109, rfl⟩
abbrev main_call0_v0 : Ref sig .tc := ⟨.hbm, 110, rfl⟩
abbrev main_call0_cst_0 : Ref sig .tc := ⟨.hbm, 111, rfl⟩
abbrev main_call0_v1 : Ref sig .tc := ⟨.hbm, 112, rfl⟩
abbrev main_call0_v2 : Ref sig .tc := ⟨.hbm, 113, rfl⟩
abbrev main_call0_v3 : Ref sig .tc := ⟨.hbm, 114, rfl⟩
abbrev main_call0_v4 : Ref sig .tc := ⟨.hbm, 115, rfl⟩
abbrev main_call0_v5 : Ref sig .tc := ⟨.hbm, 116, rfl⟩
abbrev main_call0_v6 : Ref sig .tc := ⟨.hbm, 117, rfl⟩
abbrev main_call0_cst_1 : Ref sig .tc := ⟨.hbm, 118, rfl⟩
abbrev main_call0_v7 : Ref sig .tc := ⟨.hbm, 119, rfl⟩
abbrev main_call0_v8 : Ref sig .tc := ⟨.hbm, 120, rfl⟩
abbrev main_call0_v9 : Ref sig .tc := ⟨.hbm, 121, rfl⟩
abbrev main_call0_v10 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_7 : Ref sig .tc := ⟨.hbm, 126, rfl⟩
abbrev main_v91 : Ref sig .tc := ⟨.hbm, 127, rfl⟩
abbrev main_v92 : Ref sig .tc := ⟨.hbm, 128, rfl⟩
abbrev main_cst_8 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_9 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_10 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  reducesTo_S100000_S_d0 : S100000.ReducesTo [0] S_
  bcast_S100000x1_S100000x64_0_1 : S100000x1.BroadcastsInDim S100000x64 (![0, 1] : Fin 2 → Fin S100000x64.rank)
  bcast_S_S500x64 : S_.BroadcastsInDim S500x64 (![] : Fin 0 → Fin S500x64.rank)
  bcast_S1x10_S500x10_0_1 : S1x10.BroadcastsInDim S500x10 (![0, 1] : Fin 2 → Fin S500x10.rank)
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S10000x64_S64x64_S10000x64_1_0_0_1_n_n_wf : DotDims.WF S10000x64 S64x64 S10000x64 [1] [0] [0] [1] [] []
  dot_S100000x64_S64x10_S100000x10_1_0_0_1_n_n_wf : DotDims.WF S100000x64 S64x10 S100000x10 [1] [0] [0] [1] [] []
  scatter_S500x64_S100000x1_S100000x64_1_0_0_1_wf : ScatterDims.WF S500x64 S100000x1 S100000x64 [1] [0] [0] 1
  dot_S500x64_S64x10_S500x10_1_0_0_1_n_n_wf : DotDims.WF S500x64 S64x10 S500x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S100000x64.size a
  hwx0_7 : ∀ i : grid0.Coords, EltTy.bits .f32 = 32 ∨ (Rect.block (s := S100000x64) S10000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S100000x64.size a
  hwx1_7 : ∀ i : grid1.Coords, EltTy.bits .f32 = 32 ∨ (Rect.block (s := S100000x64) S10000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x64.size a ≤ S100000x64.size a
  hwx2_7 : ∀ i : grid2.Coords, EltTy.bits .f32 = 32 ∨ (Rect.block (s := S100000x64) S10000x64.size (cc2_transform_7 i) (hinb2_7 i)).WholeWords (EltTy.packing .f32)

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf
def scatter_S500x64_S100000x1_S100000x64_1_0_0_1 : ScatterDims S500x64 S100000x1 S100000x64 where
  updateWindowDims := [1]
  insertedWindowDims := [0]
  scatterDimsToOperandDims := [0]
  indexVectorDim := 1
  wf := scatter_S500x64_S100000x1_S100000x64_1_0_0_1_wf
def dot_S500x64_S64x10_S500x10_1_0_0_1_n_n : DotDims S500x64 S64x10 S500x10 where
  lhsContracting := [1]
  rhsContracting := [0]
  lhsNonContracting := [0]
  rhsNonContracting := [1]
  lhsBatch := []
  rhsBatch := []
  wf := dot_S500x64_S64x10_S500x10_1_0_0_1_n_n_wf

abbrev win0_0 : Pipeline.Window sig grid0 :=
  Pipeline.Window.ofSpec (Memref.whole main_v9) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S10000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v37) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v55) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v65) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v78) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v79) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v80) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v81) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v82) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v83) S10000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x64 : Shape := ⟨2, ![100000, 64]⟩
abbrev S800000 : Shape := ⟨1, ![800000]⟩
abbrev S100000 : Shape := ⟨1, ![100000]⟩
abbrev S3x64x64 : Shape := ⟨3, ![3, 64, 64]⟩
abbrev S3x64 : Shape := ⟨2, ![3, 64]⟩
abbrev S64x10 : Shape := ⟨2, ![64, 10]⟩
abbrev S10 : Shape := ⟨1, ![10]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S100000x10 : Shape := ⟨2, ![100000, 10]⟩
abbrev S1x10 : Shape := ⟨2, ![1, 10]⟩
abbrev S100000x1 : Shape := ⟨2, ![100000, 1]⟩
abbrev S500x64 : Shape := ⟨2, ![500, 64]⟩
abbrev S500x10 : Shape := ⟨2, ![500, 10]⟩

abbrev nBuf : Space → Nat
  | .hbm => 228
  | .vmem => 0
  | .smem => 0
  | _ => 0

abbrev hbmTy0_0 (i : Nat) : BufTy := match i % 128 with
  | 0 => ⟨S100000x64, .f32⟩
  | 1 => ⟨S800000, .i32⟩
  | 2 => ⟨S800000, .i32⟩
  | 3 => ⟨S100000, .i32⟩
  | 4 => ⟨S3x64x64, .f32⟩
  | 5 => ⟨S3x64, .f32⟩
  | 6 => ⟨S3x64, .f32⟩
  | 7 => ⟨S3x64, .f32⟩
  | 8 => ⟨S3x64, .f32⟩
  | 9 => ⟨S3x64, .f32⟩
  | 10 => ⟨S64x10, .f32⟩
  | 11 => ⟨S10, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x64, .f32⟩
  | 21 => ⟨S_, .f32⟩
  | 22 => ⟨S100000x64, .f32⟩
  | 23 => ⟨S800000x1, .i32⟩
  | 24 => ⟨S100000x64, .f32⟩
  | 25 => ⟨S1x64x64, .f32⟩
  | 26 => ⟨S64x64, .f32⟩
  | 27 => ⟨S100000x64, .f32⟩
  | 28 => ⟨S1x64, .f32⟩
  | 29 => ⟨S64, .f32⟩
  | 30 => ⟨S1x64, .f32⟩
  | 31 => ⟨S100000x64, .f32⟩
  | 32 => ⟨S100000x64, .f32⟩
  | 33 => ⟨S1x64, .f32⟩
  | 34 => ⟨S64, .f32⟩
  | 35 => ⟨S1x64, .f32⟩
  | 36 => ⟨S100000x64, .f32⟩
  | 37 => ⟨S100000x64, .f32⟩
  | 38 => ⟨S1x64, .f32⟩
  | 39 => ⟨S64, .f32⟩
  | 40 => ⟨S1x64, .f32⟩
  | 41 => ⟨S64, .f32⟩
  | 42 => ⟨S_, .f32⟩
  | 43 => ⟨S64, .f32⟩
  | 44 => ⟨S64, .f32⟩
  | 45 => ⟨S64, .f32⟩
  | 46 => ⟨S64, .f32⟩
  | 47 => ⟨S1x64, .f32⟩
  | 48 => ⟨S100000x64, .f32⟩
  | 49 => ⟨S100000x64, .f32⟩
  | 50 => ⟨S1x64, .f32⟩
  | 51 => ⟨S64, .f32⟩
  | 52 => ⟨S1x64, .f32⟩
  | 53 => ⟨S100000x64, .f32⟩
  | 54 => ⟨S100000x64, .f32⟩
  | 55 => ⟨S_, .f32⟩
  | 56 => ⟨S100000x64, .f32⟩
  | 57 => ⟨S100000x64, .i1⟩
  | 58 => ⟨S_, .f32⟩
  | 59 => ⟨S100000x64, .f32⟩
  | 60 => ⟨S100000x64, .i1⟩
  | 61 => ⟨S_, .f32⟩
  | 62 => ⟨S_, .f32⟩
  | 63 => ⟨S100000x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x64, .f32⟩
  | 79 => ⟨S_, .f32⟩
  | 80 => ⟨S100000x64, .f32⟩
  | 81 => ⟨S800000x1, .i32⟩
  | 82 => ⟨S100000x64, .f32⟩
  | 83 => ⟨S1x64x64, .f32⟩
  | 84 => ⟨S64x64, .f32⟩
  | 85 => ⟨S100000x64, .f32⟩
  | 86 => ⟨S1x64, .f32⟩
  | 87 => ⟨S64, .f32⟩
  | 88 => ⟨S1x64, .f32⟩
  | 89 => ⟨S100000x64, .f32⟩
  | 90 => ⟨S100000x64, .f32⟩
  | 91 => ⟨S1x64, .f32⟩
  | 92 => ⟨S64, .f32⟩
  | 93 => ⟨S1x64, .f32⟩
  | 94 => ⟨S100000x64, .f32⟩
  | 95 => ⟨S100000x64, .f32⟩
  | 96 => ⟨S1x64, .f32⟩
  | 97 => ⟨S64, .f32⟩
  | 98 => ⟨S1x64, .f32⟩
  | 99 => ⟨S64, .f32⟩
  | 100 => ⟨S_, .f32⟩
  | 101 => ⟨S64, .f32⟩
  | 102 => ⟨S64, .f32⟩
  | 103 => ⟨S64, .f32⟩
  | 104 => ⟨S64, .f32⟩
  | 105 => ⟨S1x64, .f32⟩
  | 106 => ⟨S100000x64, .f32⟩
  | 107 => ⟨S100000x64, .f32⟩
  | 108 => ⟨S1x64, .f32⟩
  | 109 => ⟨S64, .f32⟩
  | 110 => ⟨S1x64, .f32⟩
  | 111 => ⟨S100000x64, .f32⟩
  | 112 => ⟨S100000x64, .f32⟩
  | 113 => ⟨S_, .f32⟩
  | 114 => ⟨S100000x64, .f32⟩
  | 115 => ⟨S100000x64, .i1⟩
  | 116 => ⟨S_, .f32⟩
  | 117 => ⟨S100000x64, .f32⟩
  | 118 => ⟨S100000x64, .i1⟩
  | 119 => ⟨S_, .f32⟩
  | 120 => ⟨S_, .f32⟩
  | 121 => ⟨S100000x64, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S100000x64, .f32⟩
  | _ => ⟨S100000x64, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x64, .f32⟩
  | 9 => ⟨S_, .f32⟩
  | 10 => ⟨S100000x64, .f32⟩
  | 11 => ⟨S800000x1, .i32⟩
  | 12 => ⟨S100000x64, .f32⟩
  | 13 => ⟨S1x64x64, .f32⟩
  | 14 => ⟨S64x64, .f32⟩
  | 15 => ⟨S100000x64, .f32⟩
  | 16 => ⟨S1x64, .f32⟩
  | 17 => ⟨S64, .f32⟩
  | 18 => ⟨S1x64, .f32⟩
  | 19 => ⟨S100000x64, .f32⟩
  | 20 => ⟨S100000x64, .f32⟩
  | 21 => ⟨S1x64, .f32⟩
  | 22 => ⟨S64, .f32⟩
  | 23 => ⟨S1x64, .f32⟩
  | 24 => ⟨S100000x64, .f32⟩
  | 25 => ⟨S100000x64, .f32⟩
  | 26 => ⟨S1x64, .f32⟩
  | 27 => ⟨S64, .f32⟩
  | 28 => ⟨S1x64, .f32⟩
  | 29 => ⟨S64, .f32⟩
  | 30 => ⟨S_, .f32⟩
  | 31 => ⟨S64, .f32⟩
  | 32 => ⟨S64, .f32⟩
  | 33 => ⟨S64, .f32⟩
  | 34 => ⟨S64, .f32⟩
  | 35 => ⟨S1x64, .f32⟩
  | 36 => ⟨S100000x64, .f32⟩
  | 37 => ⟨S100000x64, .f32⟩
  | 38 => ⟨S1x64, .f32⟩
  | 39 => ⟨S64, .f32⟩
  | 40 => ⟨S1x64, .f32⟩
  | 41 => ⟨S100000x64, .f32⟩
  | 42 => ⟨S100000x64, .f32⟩
  | 43 => ⟨S_, .f32⟩
  | 44 => ⟨S100000x64, .f32⟩
  | 45 => ⟨S100000x64, .i1⟩
  | 46 => ⟨S_, .f32⟩
  | 47 => ⟨S100000x64, .f32⟩
  | 48 => ⟨S100000x64, .i1⟩
  | 49 => ⟨S_, .f32⟩
  | 50 => ⟨S_, .f32⟩
  | 51 => ⟨S100000x64, .f32⟩
  | 52 => ⟨S100000x64, .f32⟩
  | 53 => ⟨S100000x64, .f32⟩
  | 54 => ⟨S_, .f32⟩
  | 55 => ⟨S100000x64, .f32⟩
  | 56 => ⟨S100000x64, .f32⟩
  | 57 => ⟨S100000x64, .f32⟩
  | 58 => ⟨S100000x10, .f32⟩
  | 59 => ⟨S1x10, .f32⟩
  | 60 => ⟨S100000x10, .f32⟩
  | 61 => ⟨S100000x10, .f32⟩
  | 62 => ⟨S_, .f32⟩
  | 63 => ⟨S100000, .f32⟩
  | 64 => ⟨S_, .f32⟩
  | 65 => ⟨S100000, .f32⟩
  | 66 => ⟨S100000, .f32⟩
  | 67 => ⟨S100000x1, .f32⟩
  | 68 => ⟨S100000x10, .f32⟩
  | 69 => ⟨S100000x10, .f32⟩
  | 70 => ⟨S100000x10, .f32⟩
  | 71 => ⟨S_, .f32⟩
  | 72 => ⟨S100000, .f32⟩
  | 73 => ⟨S100000x1, .f32⟩
  | 74 => ⟨S100000x1, .f32⟩
  | 75 => ⟨S100000x10, .f32⟩
  | 76 => ⟨S100000x10, .f32⟩
  | 77 => ⟨S100000x10, .f32⟩
  | 78 => ⟨S100000x10, .f32⟩
  | 79 => ⟨S_, .f32⟩
  | 80 => ⟨S100000, .f32⟩
  | 81 => ⟨S100000, .f32⟩
  | 82 => ⟨S_, .f32⟩
  | 83 => ⟨S_, .f32⟩
  | 84 => ⟨S100000, .f32⟩
  | 85 => ⟨S100000, .f32⟩
  | 86 => ⟨S_, .f32⟩
  | 87 => ⟨S100000, .f32⟩
  | 88 => ⟨S100000, .f32⟩
  | 89 => ⟨S100000x1, .f32⟩
  | 90 => ⟨S100000x64, .f32⟩
  | 91 => ⟨S100000x64, .f32⟩
  | 92 => ⟨S_, .f32⟩
  | 93 => ⟨S500x64, .f32⟩
  | 94 => ⟨S100000x1, .i32⟩
  | 95 => ⟨S500x64, .f32⟩
  | 96 => ⟨S500x10, .f32⟩
  | 97 => ⟨S1x10, .f32⟩
  | 98 => ⟨S500x10, .f32⟩
  | 99 => ⟨S500x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_1 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call0_cst : Ref sig .tc := ⟨.hbm, 55, rfl⟩
abbrev main_call0_v0 : Ref sig .tc := ⟨.hbm, 56, rfl⟩
abbrev main_call0_v1 : Ref sig .tc := ⟨.hbm, 57, rfl⟩
abbrev main_call0_cst_0 : Ref sig .tc := ⟨.hbm, 58, rfl⟩
abbrev main_call0_v2 : Ref sig .tc := ⟨.hbm, 59, rfl⟩
abbrev main_call0_v3 : Ref sig .tc := ⟨.hbm, 60, rfl⟩
abbrev main_call0_cst_1 : Ref sig .tc := ⟨.hbm, 61, rfl⟩
abbrev main_call0_call0_v0 : Ref sig .tc := ⟨.hbm, 62, rfl⟩
abbrev main_call0_call0_v1 : Ref sig .tc := ⟨.hbm, 63, rfl⟩
abbrev main_call0_v4 : Ref sig .tc := ⟨.hbm, 64, rfl⟩
abbrev main_call0_v5 : Ref sig .tc := ⟨.hbm, 65, rfl⟩
abbrev main_call0_cst_2 : Ref sig .tc := ⟨.hbm, 66, rfl⟩
abbrev main_call0_v6 : Ref sig .tc := ⟨.hbm, 67, rfl⟩
abbrev main_call0_v7 : Ref sig .tc := ⟨.hbm, 68, rfl⟩
abbrev main_v39 : Ref sig .tc := ⟨.hbm, 69, rfl⟩
abbrev main_c_2 : Ref sig .tc := ⟨.hbm, 70, rfl⟩
abbrev main_v40 : Ref sig .tc := ⟨.hbm, 71, rfl⟩
abbrev main_v41 : Ref sig .tc := ⟨.hbm, 72, rfl⟩
abbrev main_c_3 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_4 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_5 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_call1_cst : Ref sig .tc := ⟨.hbm, 113, rfl⟩
abbrev main_call1_v0 : Ref sig .tc := ⟨.hbm, 114, rfl⟩
abbrev main_call1_v1 : Ref sig .tc := ⟨.hbm, 115, rfl⟩
abbrev main_call1_cst_0 : Ref sig .tc := ⟨.hbm, 116, rfl⟩
abbrev main_call1_v2 : Ref sig .tc := ⟨.hbm, 117, rfl⟩
abbrev main_call1_v3 : Ref sig .tc := ⟨.hbm, 118, rfl⟩
abbrev main_call1_cst_1 : Ref sig .tc := ⟨.hbm, 119, rfl⟩
abbrev main_call1_call0_v0 : Ref sig .tc := ⟨.hbm, 120, rfl⟩
abbrev main_call1_call0_v1 : Ref sig .tc := ⟨.hbm, 121, rfl⟩
abbrev main_call1_v4 : Ref sig .tc := ⟨.hbm, 122, rfl⟩
abbrev main_call1_v5 : Ref sig .tc := ⟨.hbm, 123, rfl⟩
abbrev main_call1_cst_2 : Ref sig .tc := ⟨.hbm, 124, rfl⟩
abbrev main_call1_v6 : Ref sig .tc := ⟨.hbm, 125, rfl⟩
abbrev main_call1_v7 : Ref sig .tc := ⟨.hbm, 126, rfl⟩
abbrev main_v79 : Ref sig .tc := ⟨.hbm, 127, rfl⟩
abbrev main_c_6 : Ref sig .tc := ⟨.hbm, 128, rfl⟩
abbrev main_v80 : Ref sig .tc := ⟨.hbm, 129, rfl⟩
abbrev main_v81 : Ref sig .tc := ⟨.hbm, 130, rfl⟩
abbrev main_c_7 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_cst_8 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_cst_9 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_call2_cst : Ref sig .tc := ⟨.hbm, 171, rfl⟩
abbrev main_call2_v0 : Ref sig .tc := ⟨.hbm, 172, rfl⟩
abbrev main_call2_v1 : Ref sig .tc := ⟨.hbm, 173, rfl⟩
abbrev main_call2_cst_0 : Ref sig .tc := ⟨.hbm, 174, rfl⟩
abbrev main_call2_v2 : Ref sig .tc := ⟨.hbm, 175, rfl⟩
abbrev main_call2_v3 : Ref sig .tc := ⟨.hbm, 176, rfl⟩
abbrev main_call2_cst_1 : Ref sig .tc := ⟨.hbm, 177, rfl⟩
abbrev main_call2_call0_v0 : Ref sig .tc := ⟨.hbm, 178, rfl⟩
abbrev main_call2_call0_v1 : Ref sig .tc := ⟨.hbm, 179, rfl⟩
abbrev main_call2_v4 : Ref sig .tc := ⟨.hbm, 180, rfl⟩
abbrev main_call2_v5 : Ref sig .tc := ⟨.hbm, 181, rfl⟩
abbrev main_call2_cst_2 : Ref sig .tc := ⟨.hbm, 182, rfl⟩
abbrev main_call2_v6 : Ref sig .tc := ⟨.hbm, 183, rfl⟩
abbrev main_call2_v7 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_call3_cst : Ref sig .tc := ⟨.hbm, 190, rfl⟩
abbrev main_call3_v0 : Ref sig .tc := ⟨.hbm, 191, rfl⟩
abbrev main_call3_cst_0 : Ref sig .tc := ⟨.hbm, 192, rfl⟩
abbrev main_call3_v1 : Ref sig .tc := ⟨.hbm, 193, rfl⟩
abbrev main_call3_v2 : Ref sig .tc := ⟨.hbm, 194, rfl⟩
abbrev main_call3_v3 : Ref sig .tc := ⟨.hbm, 195, rfl⟩
abbrev main_call3_v4 : Ref sig .tc := ⟨.hbm, 196, rfl⟩
abbrev main_call3_v5 : Ref sig .tc := ⟨.hbm, 197, rfl⟩
abbrev main_call3_v6 : Ref sig .tc := ⟨.hbm, 198, rfl⟩
abbrev main_call3_cst_1 : Ref sig .tc := ⟨.hbm, 199, rfl⟩
abbrev main_call3_v7 : Ref sig .tc := ⟨.hbm, 200, rfl⟩
abbrev main_call3_v8 : Ref sig .tc := ⟨.hbm, 201, rfl⟩
abbrev main_call3_v9 : Ref sig .tc := ⟨.hbm, 202, rfl⟩
abbrev main_call3_v10 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_cst_10 : Ref sig .tc := ⟨.hbm, 207, rfl⟩
abbrev main_v127 : Ref sig .tc := ⟨.hbm, 208, rfl⟩
abbrev main_v128 : Ref sig .tc := ⟨.hbm, 209, rfl⟩
abbrev main_cst_11 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_cst_12 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_cst_13 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  reducesTo_S100000_S_d0 : S100000.ReducesTo [0] S_
  bcast_S100000x1_S100000x64_0_1 : S100000x1.BroadcastsInDim S100000x64 (![0, 1] : Fin 2 → Fin S100000x64.rank)
  bcast_S_S500x64 : S_.BroadcastsInDim S500x64 (![] : Fin 0 → Fin S500x64.rank)
  bcast_S1x10_S500x10_0_1 : S1x10.BroadcastsInDim S500x10 (![0, 1] : Fin 2 → Fin S500x10.rank)
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S100000x64_S64x64_S100000x64_1_0_0_1_n_n_wf : DotDims.WF S100000x64 S64x64 S100000x64 [1] [0] [0] [1] [] []
  dot_S100000x64_S64x10_S100000x10_1_0_0_1_n_n_wf : DotDims.WF S100000x64 S64x10 S100000x10 [1] [0] [0] [1] [] []
  scatter_S500x64_S100000x1_S100000x64_1_0_0_1_wf : ScatterDims.WF S500x64 S100000x1 S100000x64 [1] [0] [0] 1
  dot_S500x64_S64x10_S500x10_1_0_0_1_n_n_wf : DotDims.WF S500x64 S64x10 S500x10 [1] [0] [0] [1] [] []

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf
def scatter_S500x64_S100000x1_S100000x64_1_0_0_1 : ScatterDims S500x64 S100000x1 S100000x64 where
  updateWindowDims := [1]
  insertedWindowDims := [0]
  scatterDimsToOperandDims := [0]
  indexVectorDim := 1
  wf := scatter_S500x64_S100000x1_S100000x64_1_0_0_1_wf
def dot_S500x64_S64x10_S500x10_1_0_0_1_n_n : DotDims S500x64 S64x10 S500x10 where
  lhsContracting := [1]
  rhsContracting := [0]
  lhsNonContracting := [0]
  rhsNonContracting := [1]
  lhsBatch := []
  rhsBatch := []
  wf := dot_S500x64_S64x10_S500x10_1_0_0_1_n_n_wf

class Facts : Prop extends Facts₀ where

variable [Facts]
-- ==== Proof.Spec.lean ====
/-
  The network both programs compute, as pure functions of the argument arrays over the extended reals.

  One graph-convolution layer sends node features `h` to `elu ((A h · W + b − μ) · (γ · (σ² + ε)^(-1/2)) + β)`, where
  `A h` adds, at every destination node, the feature rows of the sources of its incoming edges (`agg`); three
  layers follow one another, each with its own slice of the stacked parameters; the head (`head`) turns the last
  features into per-node class logits, weighs every node by one minus its normalised entropy, adds the weighted
  features per graph and classifies the sums.
-/
import proofs.«410813_j45140106281501_4_alg».proof.KernelIdeal
import proofs.«410813_j45140106281501_4_alg».proof.Proof.Gen.KernelIdeal
import Idealize.ShloMosaic.PureOps.Ideal
import Idealize.ShloMosaic.Lib.ValueIdx

noncomputable section

namespace Cert.Bridge

open Idealize.ShloMosaic Idealize.ShloMosaic.ValueIdx Cert.KernelIdeal Cert.KernelIdeal.Facts₀ Cert.KernelIdeal.Facts
open scoped BigOperators

/-- Neighbour aggregation: row `n` of the result is the sum of the rows `h[src e]` over the edges `e` with
    `dst e = n` (a negative source index counted from the end, as jnp indexing does). -/
def agg (h : FVec Ideal S100000x64 .f32) (src dst : IVec S800000 32) : FVec Ideal S100000x64 .f32 :=
  Host.scatterAdd scatter_S100000x64_S800000x1_S800000x64_1_0_0_1
    (broadcastInDim S100000x64 ![] bcast_S_S100000x64 (constant S_ .f32 0x00000000#32))
    (broadcastInDim S800000x1 ![0] bcast_S800000_S800000x1_0 dst)
    (Host.gather gather_S100000x64_S800000x1_S800000x64_1_0_n_n_0_1_164 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 100000#32))) src)))

/-- Layer `l`'s row of a stacked `[3, 64]` parameter, as a vector of 64. -/
def row0 (p : FVec Ideal S3x64 .f32) : FVec Ideal S64 .f32 :=
  shapeCast S64 (extractStridedSlice S1x64 ![0, 0] p slices_S3x64_S1x64_0_0) shapeCasts_S1x64_S64
def row1 (p : FVec Ideal S3x64 .f32) : FVec Ideal S64 .f32 :=
  shapeCast S64 (extractStridedSlice S1x64 ![1, 0] p slices_S3x64_S1x64_1_0) shapeCasts_S1x64_S64
def row2 (p : FVec Ideal S3x64 .f32) : FVec Ideal S64 .f32 :=
  shapeCast S64 (extractStridedSlice S1x64 ![2, 0] p slices_S3x64_S1x64_2_0) shapeCasts_S1x64_S64

/-- Layer `l`'s `[64, 64]` weight matrix out of the stacked `[3, 64, 64]`. -/
def mat0 (w : FVec Ideal S3x64x64 .f32) : FVec Ideal S64x64 .f32 :=
  shapeCast S64x64 (extractStridedSlice S1x64x64 ![0, 0, 0] w slices_S3x64x64_S1x64x64_0_0_0) shapeCasts_S1x64x64_S64x64
def mat1 (w : FVec Ideal S3x64x64 .f32) : FVec Ideal S64x64 .f32 :=
  shapeCast S64x64 (extractStridedSlice S1x64x64 ![1, 0, 0] w slices_S3x64x64_S1x64x64_1_0_0) shapeCasts_S1x64x64_S64x64
def mat2 (w : FVec Ideal S3x64x64 .f32) : FVec Ideal S64x64 .f32 :=
  shapeCast S64x64 (extractStridedSlice S1x64x64 ![2, 0, 0] w slices_S3x64x64_S1x64x64_2_0_0) shapeCasts_S1x64x64_S64x64

/-- A vector of 64 as a `[1, 64]` row. -/
def asRow (p : FVec Ideal S64 .f32) : FVec Ideal S1x64 .f32 := shapeCast S1x64 p shapeCasts_S64_S1x64

/-- The batch-norm epsilon both programs carry (the f32 nearest 1e-5). -/
def eps : EReal := Ideal.ofBits .f32 0x3727C5AC#32

/-- The exponential linear unit: `z` for `z > 0`, `e^z − 1` otherwise. -/
def elu (z : EReal) : EReal := if 0 < z then z else Ideal.exp z - 1

/-- What a layer feeds its activation at node `r`, feature `q`. -/
def preact (a : FVec Ideal S100000x64 .f32) (W : FVec Ideal S64x64 .f32) (b g be mu var : FVec Ideal S64 .f32)
    (r : Fin 100000) (q : Fin 64) : EReal :=
  ((∑ k : Fin 64, a (ix2 r k) * W (ix2 k q)) + b (ix1 q) - mu (ix1 q)) * (g (ix1 q) * Ideal.rsqrt (var (ix1 q) + eps))
    + be (ix1 q)

/-- One layer after the aggregation: linear map, batch normalisation by the running statistics, activation. -/
def layer (a : FVec Ideal S100000x64 .f32) (W : FVec Ideal S64x64 .f32) (b g be mu var : FVec Ideal S64 .f32) :
    FVec Ideal S100000x64 .f32 :=
  fun i => elu (preact a W b g be mu var (i 0) (i 1))

/-- Class logits of every node: `h · Wc + bc`. -/
def logits (h : FVec Ideal S100000x64 .f32) (Wc : FVec Ideal S64x10 .f32) (bc : FVec Ideal S10 .f32) : FVec Ideal S100000x10 .f32 :=
  addf (Host.dotGeneral dot_S100000x64_S64x10_S100000x10_1_0_0_1_n_n none h Wc)
    (broadcastInDim S100000x10 ![0, 1] bcast_S1x10_S100000x10_0_1 (broadcastInDim S1x10 ![1] bcast_S10_S1x10_1 bc))

/-- Logits shifted by their row maximum (the first half of the log-softmax). -/
def shifted (x : FVec Ideal S100000x10 .f32) : FVec Ideal S100000x10 .f32 :=
  subf x (broadcastInDim S100000x10 ![0, 1] bcast_S100000x1_S100000x10_0_1 (broadcastInDim S100000x1 ![0] bcast_S100000_S100000x1_0
    (maximumf (broadcastInDim S100000 ![] bcast_S_S100000 (constant S_ .f32 0xFF800000#32))
      (Host.reduce FloatOps.maximumf x (constant S_ .f32 0xFF800000#32) reducesTo_S100000x10_S100000_d1 h_S_))))

/-- Row-wise log-softmax: the shifted logits minus the logarithm of the row sum of their exponentials. -/
def logSoftmax (x : FVec Ideal S100000x10 .f32) : FVec Ideal S100000x10 .f32 :=
  subf (shifted x) (broadcastInDim S100000x10 ![0, 1] bcast_S100000x1_S100000x10_0_1
    (Host.log (broadcastInDim S100000x1 ![0] bcast_S100000_S100000x1_0
      (Host.reduceAdd (Host.exp (shifted x)) (constant S_ .f32 0x00000000#32) reducesTo_S100000x10_S100000_d1 h_S_))))

/-- Per-node entropy `−Σ p log p` of the class distribution with log-probabilities `lp`. -/
def entropy (lp : FVec Ideal S100000x10 .f32) : FVec Ideal S100000 .f32 :=
  Host.negf (Host.reduceAdd (mulf (Host.exp lp) lp) (constant S_ .f32 0x00000000#32) reducesTo_S100000x10_S100000_d1 h_S_)

/-- Node weights: one minus the entropy over the largest entropy of any node. -/
def weights (e : FVec Ideal S100000 .f32) : FVec Ideal S100000 .f32 :=
  subf (broadcastInDim S100000 ![] bcast_S_S100000 (constant S_ .f32 0x3F800000#32))
    (Host.divf e (broadcastInDim S100000 ![] bcast_S_S100000
      (Host.reduce FloatOps.maximumf e (constant S_ .f32 0xFF800000#32) reducesTo_S100000_S_d0 h_S_)))

/-- Weighted per-graph sum of the node features, classified: `(Σ_{n in graph} λ n · h n) · Wc + bc`. -/
def pooled (lam : FVec Ideal S100000 .f32) (h : FVec Ideal S100000x64 .f32) (n2g : IVec S100000 32)
    (Wc : FVec Ideal S64x10 .f32) (bc : FVec Ideal S10 .f32) : FVec Ideal S500x10 .f32 :=
  addf (Host.dotGeneral dot_S500x64_S64x10_S500x10_1_0_0_1_n_n none
      (Host.scatterAdd scatter_S500x64_S100000x1_S100000x64_1_0_0_1
        (broadcastInDim S500x64 ![] bcast_S_S500x64 (constant S_ .f32 0x00000000#32))
        (broadcastInDim S100000x1 ![0] bcast_S100000_S100000x1_0 n2g)
        (mulf (broadcastInDim S100000x64 ![0, 1] bcast_S100000x1_S100000x64_0_1
          (broadcastInDim S100000x1 ![0] bcast_S100000_S100000x1_0 lam)) h)) Wc)
    (broadcastInDim S500x10 ![0, 1] bcast_S1x10_S500x10_0_1 (broadcastInDim S1x10 ![1] bcast_S10_S1x10_1 bc))

/-- The head of the network on the last layer's features. -/
def head (h : FVec Ideal S100000x64 .f32) (n2g : IVec S100000 32) (Wc : FVec Ideal S64x10 .f32) (bc : FVec Ideal S10 .f32) :
    FVec Ideal S500x10 .f32 :=
  pooled (weights (entropy (logSoftmax (logits h Wc bc)))) h n2g Wc bc

/-- The whole network over a given layer function `L` (both programs have this shape; they differ in how a layer is
    computed). -/
def netWith (L : FVec Ideal S100000x64 .f32 → FVec Ideal S64x64 .f32 → FVec Ideal S64 .f32 → FVec Ideal S64 .f32 →
      FVec Ideal S64 .f32 → FVec Ideal S64 .f32 → FVec Ideal S64 .f32 → FVec Ideal S100000x64 .f32)
    (x : FVec Ideal S100000x64 .f32) (src dst : IVec S800000 32) (n2g : IVec S100000 32) (Ws : FVec Ideal S3x64x64 .f32)
    (bs gs bes mus vars : FVec Ideal S3x64 .f32) (Wc : FVec Ideal S64x10 .f32) (bc : FVec Ideal S10 .f32) : FVec Ideal S500x10 .f32 :=
  head (L (agg (L (agg (L (agg x src dst) (mat0 Ws) (row0 bs) (row0 gs) (row0 bes) (row0 mus) (row0 vars)) src dst)
      (mat1 Ws) (row1 bs) (row1 gs) (row1 bes) (row1 mus) (row1 vars)) src dst)
      (mat2 Ws) (row2 bs) (row2 gs) (row2 bes) (row2 mus) (row2 vars)) n2g Wc bc

end Cert.Bridge

end
-- ==== Proof.KernelPayload.lean ====
/-
  The value the layer kernel's body stores, entry by entry: at row `p` and feature `q` of its block of 10000 nodes the
  body's product of the feature block with the weight matrix is the sum over the 64 input features, the five parameter
  rows are read at feature `q`, and the closing select between `z` and `e^z − 1` on the bit of `z > 0` is the
  exponential linear unit; so the stored entry is the layer's formula on the block's row. The three launches run one and
  the same body. With it, the small facts every launch's passage from blocks to the array uses: the zero offsets of a
  whole-block access, equality of blocks entry by entry, and a vector of 64 laid as a row read at a feature.
-/
import proofs.«410813_j45140106281501_4_alg».proof.Proof.Gen.KernelIdeal.Frame
import proofs.«410813_j45140106281501_4_alg».proof.Proof.Spec
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.TcCoe Idealize.SL.Sem Cert.KernelIdeal Cert.KernelIdeal.Gen Cert.Bridge
open Idealize.ShloMosaic.ValueIdx
open scoped BigOperators

/-! ## The body's stored value at an entry -/

/-- The block product at an entry: row `p` of the feature block against column `q` of the weight matrix. -/
theorem blockProduct_apply (x0 : FVec Ideal S10000x64 .f32) (x1 : FVec Ideal S64x64 .f32) (p : Fin 10000) (q : Fin 64) :
    matmul dot_S10000x64_S64x64_S10000x64_1_0_0_1_n_n none x0 x1 (constant (F := Ideal) S10000x64 .f32 0x00000000#32) (ix2 p q)
      = ∑ k : Fin 64, x0 (ix2 p k) * x1 (ix2 k q) := by
  show FloatOps.matmul _ none x0 x1 _ (ix2 p q) = _
  rw [Ideal.matmul_constant_zero_apply,
    ← Equiv.sum_comp (contrEquiv1 dot_S10000x64_S64x64_S10000x64_1_0_0_1_n_n 64 rfl rfl).symm]
  refine Finset.sum_congr rfl fun c _ => ?_
  have c2 := contrEquiv1_symm_val dot_S10000x64_S64x64_S10000x64_1_0_0_1_n_n 64 rfl rfl c
  have l2 : dot_S10000x64_S64x64_S10000x64_1_0_0_1_n_n.lhsIdx (ix2 p q) ((contrEquiv1 _ 64 rfl rfl).symm c) = ix2 p c := by
    funext ax; apply Fin.ext
    match ax with
    | ⟨0, _⟩ => simp [DotDims.lhsIdx, dot_S10000x64_S64x64_S10000x64_1_0_0_1_n_n]; rfl
    | ⟨1, _⟩ => simp [DotDims.lhsIdx, dot_S10000x64_S64x64_S10000x64_1_0_0_1_n_n]; exact c2
  have r2 : dot_S10000x64_S64x64_S10000x64_1_0_0_1_n_n.rhsIdx (ix2 p q) ((contrEquiv1 _ 64 rfl rfl).symm c) = ix2 c q := by
    funext ax; apply Fin.ext
    match ax with
    | ⟨0, _⟩ => simp [DotDims.rhsIdx, dot_S10000x64_S64x64_S10000x64_1_0_0_1_n_n]; exact c2
    | ⟨1, _⟩ => simp [DotDims.rhsIdx, dot_S10000x64_S64x64_S10000x64_1_0_0_1_n_n]; rfl
  rw [l2, r2]

/-- The word `0x3F800000` is the real one. -/
theorem ofBits_one_f32 : Ideal.ofBits .f32 0x3F800000#32 = 1 := by
  simp [Ideal.ofBits, Ideal.ieee, -EReal.coe_mul]; norm_num

/-- The select between `z` and `e^z − 1` on the bit of `z > 0` is the exponential linear unit. -/
theorem select_elu (z : EReal) :
    Scalar.select (Ideal.cmp .ogt z 0) z (Ideal.exp z - 1) = elu z := by
  unfold elu
  by_cases hz : 0 < z
  · rw [if_pos hz]
    have : Ideal.cmp .ogt z 0 = 1#1 := by simp [Ideal.cmp, hz]
    rw [this, select_one]
  · rw [if_neg hz]
    have : Ideal.cmp .ogt z 0 = 0#1 := by simp [Ideal.cmp, hz]
    rw [this, select_zero]

/-- The exponential of a vector, entry by entry. -/
theorem exp_at {s : Shape} (a : FVec Ideal s .f32) (i : s.Idx) : exp a i = Ideal.exp (a i) := rfl
/-- The reciprocal square root of a vector, entry by entry. -/
theorem rsqrt_at {s : Shape} (a : FVec Ideal s .f32) (i : s.Idx) : rsqrt a i = Ideal.rsqrt (a i) := rfl

/-- The body's stored value at row `p`, feature `q` of its block: the layer's formula on the block's row and the
    parameter rows. -/
theorem pay0_apply (x0 : Vec Ideal S10000x64 .f32) (x1 : Vec Ideal S64x64 .f32) (xb xvar xmu xg xbe : Vec Ideal S1x64 .f32)
    (p : Fin 10000) (q : Fin 64) :
    k0_pay1 (F := Ideal) x0 x1 xb xvar xmu xg xbe (ix2 p q)
      = elu (((∑ k : Fin 64, x0 (ix2 p k) * x1 (ix2 k q)) + xb (ix2 (0 : Fin 1) q) - xmu (ix2 (0 : Fin 1) q))
          * (xg (ix2 (0 : Fin 1) q) * Ideal.rsqrt (xvar (ix2 (0 : Fin 1) q) + eps)) + xbe (ix2 (0 : Fin 1) q)) := by
  unfold k0_pay1
  simp only [shapeCast_self, select_apply, cmpf_apply, subf_apply, addf_apply, mulf_apply, broadcast_apply,
    broadcastTo_1b_ab_apply, blockProduct_apply, exp_at, rsqrt_at]
  have e0 : (FloatOps.ofBits .f32 0#32 : Ideal .f32) = (0 : EReal) := Ideal.ofBits_zero_f32
  have e1 : (FloatOps.ofBits .f32 1065353216#32 : Ideal .f32) = (1 : EReal) := ofBits_one_f32
  rw [e0, e1]
  exact select_elu _

/-- The three launches run one and the same body. -/
theorem pay1_apply (x0 : Vec Ideal S10000x64 .f32) (x1 : Vec Ideal S64x64 .f32) (xb xvar xmu xg xbe : Vec Ideal S1x64 .f32)
    (p : Fin 10000) (q : Fin 64) :
    k1_pay1 (F := Ideal) x0 x1 xb xvar xmu xg xbe (ix2 p q)
      = elu (((∑ k : Fin 64, x0 (ix2 p k) * x1 (ix2 k q)) + xb (ix2 (0 : Fin 1) q) - xmu (ix2 (0 : Fin 1) q))
          * (xg (ix2 (0 : Fin 1) q) * Ideal.rsqrt (xvar (ix2 (0 : Fin 1) q) + eps)) + xbe (ix2 (0 : Fin 1) q)) :=
  pay0_apply x0 x1 xb xvar xmu xg xbe p q

theorem pay2_apply (x0 : Vec Ideal S10000x64 .f32) (x1 : Vec Ideal S64x64 .f32) (xb xvar xmu xg xbe : Vec Ideal S1x64 .f32)
    (p : Fin 10000) (q : Fin 64) :
    k2_pay1 (F := Ideal) x0 x1 xb xvar xmu xg xbe (ix2 p q)
      = elu (((∑ k : Fin 64, x0 (ix2 p k) * x1 (ix2 k q)) + xb (ix2 (0 : Fin 1) q) - xmu (ix2 (0 : Fin 1) q))
          * (xg (ix2 (0 : Fin 1) q) * Ideal.rsqrt (xvar (ix2 (0 : Fin 1) q) + eps)) + xbe (ix2 (0 : Fin 1) q)) :=
  pay0_apply x0 x1 xb xvar xmu xg xbe p q

/-! ## Small facts for the passage from blocks to the array -/

/-- The zero offsets of a whole-block access, as a constant function. -/
theorem zeroOffsets : (![0, 0] : Fin 2 → Nat) = fun _ => 0 := funext fun a => by fin_cases a <;> rfl

/-- Two functions on a block's entries agree when they agree at every row and feature. -/
theorem block_ext {X Y : S10000x64.Idx → EReal} (h : ∀ (p : Fin 10000) (q : Fin 64), X (ix2 p q) = Y (ix2 p q)) : X = Y :=
  funext fun j => by rw [eq_ix2 j]; exact h _ _

/-- A vector of 64 laid as a row, read at feature `q`. -/
theorem asRow_at (v : FVec Ideal S64 .f32) (q : Fin 64) : asRow v (ix2 (0 : Fin 1) q) = v (ix1 q) :=
  shapeCast_a_1a_apply v shapeCasts_S64_S1x64 0 q

end Cert.KernelIdeal.Hand

end
-- ==== Proof.KernelRegion.lean ====
/-
  What one launch of the layer kernel leaves in its output array: over the ten row blocks of 10000 nodes the body
  computes, of the block of aggregated features and the whole parameter arrays, the layer's value at the block's rows;
  the blocks tile the array, so the array ends at the layer function of the whole inputs.
-/
import proofs.«410813_j45140106281501_4_alg».proof.Proof.Gen.KernelIdeal.Frame
import proofs.«410813_j45140106281501_4_alg».proof.Proof.Spec
import proofs.«410813_j45140106281501_4_alg».proof.Proof.KernelPayload
import Idealize.ShloMosaic.Lib.Pipeline.Value

noncomputable section

namespace Cert.KernelIdeal.Hand

open Idealize.ShloMosaic Idealize.ShloMosaic.TcCoe Idealize.SL.Sem Cert.KernelIdeal Cert.KernelIdeal.Gen Cert.Bridge
open Idealize.ShloMosaic.Pipeline (Dat)

section Blocks

open Idealize.ShloMosaic.ValueIdx
open scoped BigOperators

/-! ## Region 0: from the blocks to the array -/

/-- The index maps over the ten points: the feature and output windows move down the rows one block per point; the
    weight matrix and the five parameter rows stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

section Region0
variable (V : (c : Dev nD) → (b : Ref sig .tc) → Buf (Elt Ideal) ((c : Thread nD τ).loc b)) (c : Dev nD)

/-- The feature block at point `t`, row `p`: row `10000 t + p` of the feature array. -/
theorem feat0_at (t : Fin cfg0.N) (p : Fin 10000) (k : Fin 64) (r : Fin 100000) (hr : r.val = t.val * 10000 + p.val) :
    iblk0 V c 0 t (ix2 p k) = V c main_v9 (ix2 r k) := by
  obtain ⟨e0, e1, -⟩ := idx_facts0 t
  show V c main_v9 (((cfg0.win 0).blk t).view.emb (ix2 p k)) = V c main_v9 (ix2 r k)
  refine congrArg (V c main_v9) (funext fun a => Fin.ext ?_)
  match a with
  | ⟨0, _⟩ => show win0_0.index t (0 : Fin 2) * 10000 + 1 * p.val = r.val; omega
  | ⟨1, _⟩ => show win0_0.index t (1 : Fin 2) * 64 + 1 * k.val = k.val; omega

/-- The weight block at any point is the whole weight matrix. -/
theorem weight0_at (t : Fin cfg0.N) (k q : Fin 64) : iblk0 V c 1 t (ix2 k q) = V c main_v11 (ix2 k q) := by
  obtain ⟨-, -, e0, e1, -⟩ := idx_facts0 t
  show V c main_v11 (((cfg0.win 1).blk t).view.emb (ix2 k q)) = V c main_v11 (ix2 k q)
  refine congrArg (V c main_v11) (funext fun a => Fin.ext ?_)
  match a with
  | ⟨0, _⟩ => show win0_1.index t (0 : Fin 2) * 64 + 1 * k.val = k.val; omega
  | ⟨1, _⟩ => show win0_1.index t (1 : Fin 2) * 64 + 1 * q.val = q.val; omega

/-- The bias block at any point is the whole bias row. -/
theorem bias0_at (t : Fin cfg0.N) (q : Fin 64) : iblk0 V c 2 t (ix2 (0 : Fin 1) q) = V c main_v22 (ix2 (0 : Fin 1) q) := by
  obtain ⟨-, -, -, -, e0, e1, -⟩ := idx_facts0 t
  show V c main_v22 (((cfg0.win 2).blk t).view.emb (ix2 (0 : Fin 1) q)) = V c main_v22 (ix2 (0 : Fin 1) q)
  refine congrArg (V c main_v22) (funext fun a => Fin.ext ?_)
  match a with
  | ⟨0, _⟩ => show win0_2.index t (0 : Fin 2) * 1 + 1 * 0 = 0; omega
  | ⟨1, _⟩ => show win0_2.index t (1 : Fin 2) * 64 + 1 * q.val = q.val; omega

/-- The scale block at any point is the whole scale row. -/
theorem scale0_at (t : Fin cfg0.N) (q : Fin 64) : iblk0 V c 3 t (ix2 (0 : Fin 1) q) = V c main_v23 (ix2 (0 : Fin 1) q) := by
  obtain ⟨-, -, -, -, -, -, e0, e1, -⟩ := idx_facts0 t
  show V c main_v23 (((cfg0.win 3).blk t).view.emb (ix2 (0 : Fin 1) q)) = V c main_v23 (ix2 (0 : Fin 1) q)
  refine congrArg (V c main_v23) (funext fun a => Fin.ext ?_)
  match a with
  | ⟨0, _⟩ => show win0_3.index t (0 : Fin 2) * 1 + 1 * 0 = 0; omega
  | ⟨1, _⟩ => show win0_3.index t (1 : Fin 2) * 64 + 1 * q.val = q.val; omega

/-- The shift block at any point is the whole shift row. -/
theorem shift0_at (t : Fin cfg0.N) (q : Fin 64) : iblk0 V c 4 t (ix2 (0 : Fin 1) q) = V c main_v24 (ix2 (0 : Fin 1) q) := by
  obtain ⟨-, -, -, -, -, -, -, -, e0, e1, -⟩ := idx_facts0 t
  show V c main_v24 (((cfg0.win 4).blk t).view.emb (ix2 (0 : Fin 1) q)) = V c main_v24 (ix2 (0 : Fin 1) q)
  refine congrArg (V c main_v24) (funext fun a => Fin.ext ?_)
  match a with
  | ⟨0, _⟩ => show win0_4.index t (0 : Fin 2) * 1 + 1 * 0 = 0; omega
  | ⟨1, _⟩ => show win0_4.index t (1 : Fin 2) * 64 + 1 * q.val = q.val; omega

/-- The mean block at any point is the whole mean row. -/
theorem mean0_at (t : Fin cfg0.N) (q : Fin 64) : iblk0 V c 5 t (ix2 (0 : Fin 1) q) = V c main_v25 (ix2 (0 : Fin 1) q) := by
  obtain ⟨-, -, -, -, -, -, -, -, -, -, e0, e1, -⟩ := idx_facts0 t
  show V c main_v25 (((cfg0.win 5).blk t).view.emb (ix2 (0 : Fin 1) q)) = V c main_v25 (ix2 (0 : Fin 1) q)
  refine congrArg (V c main_v25) (funext fun a => Fin.ext ?_)
  match a with
  | ⟨0, _⟩ => show win0_5.index t (0 : Fin 2) * 1 + 1 * 0 = 0; omega
  | ⟨1, _⟩ => show win0_5.index t (1 : Fin 2) * 64 + 1 * q.val = q.val; omega

/-- The variance block at any point is the whole variance row. -/
theorem variance0_at (t : Fin cfg0.N) (q : Fin 64) : iblk0 V c 6 t (ix2 (0 : Fin 1) q) = V c main_v26 (ix2 (0 : Fin 1) q) := by
  obtain ⟨-, -, -, -, -, -, -, -, -, -, -, -, e0, e1, -⟩ := idx_facts0 t
  show V c main_v26 (((cfg0.win 6).blk t).view.emb (ix2 (0 : Fin 1) q)) = V c main_v26 (ix2 (0 : Fin 1) q)
  refine congrArg (V c main_v26) (funext fun a => Fin.ext ?_)
  match a with
  | ⟨0, _⟩ => show win0_6.index t (0 : Fin 2) * 1 + 1 * 0 = 0; omega
  | ⟨1, _⟩ => show win0_6.index t (1 : Fin 2) * 64 + 1 * q.val = q.val; omega

/-- What point `t` writes back is block `t` of the layer function of the whole inputs. -/
theorem flushed0_eq (a : FVec Ideal S100000x64 .f32) (W : FVec Ideal S64x64 .f32) (b g be mu var : FVec Ideal S64 .f32)
    (h0 : V c main_v9 = a) (h1 : V c main_v11 = W) (h2 : V c main_v22 = asRow b) (h3 : V c main_v23 = asRow g)
    (h4 : V c main_v24 = asRow be) (h5 : V c main_v25 = asRow mu) (h6 : V c main_v26 = asRow var) (t : Fin cfg0.N) :
    (dat0 (F := Ideal) V c).flushed 7 t = ((cfg0.win 7).blk t).view.read (Elt Ideal) (layer a W b g be mu var) := by
  show (cfg0.win 7).cut (grid0.coords t) ((dat0 V c).after 7 t) = _
  rw [after0_7]
  unfold out0_7
  rw [View.canon_unit_zero zeroOffsets]
  simp only [View.ld_unit_zero (S := S10000x64) zeroOffsets, View.ld_unit_zero (S := S64x64) zeroOffsets,
    View.ld_unit_zero (S := S1x64) zeroOffsets]
  refine block_ext fun p q => ?_
  refine (pay0_apply (iblk0 V c 0 t) (iblk0 V c 1 t) (iblk0 V c 2 t) (iblk0 V c 6 t) (iblk0 V c 5 t) (iblk0 V c 3 t) (iblk0 V c 4 t) p q).trans ?_
  have ht : t.val < grid0.N := t.isLt
  rw [N_0] at ht
  obtain ⟨-, -, -, -, -, -, -, -, -, -, -, -, -, -, e0, e1⟩ := idx_facts0 t
  have hp : p.val < 10000 := p.isLt
  let r : Fin 100000 := ⟨t.val * 10000 + p.val, by omega⟩
  have hemb : ((cfg0.win 7).blk t).view.emb (ix2 p q) = (ix2 r q : S100000x64.Idx) := by
    funext ax; apply Fin.ext
    match ax with
    | ⟨0, _⟩ => show win0_7.index t (0 : Fin 2) * 10000 + 1 * p.val = t.val * 10000 + p.val; omega
    | ⟨1, _⟩ => show win0_7.index t (1 : Fin 2) * 64 + 1 * q.val = q.val; omega
  show _ = layer a W b g be mu var (((cfg0.win 7).blk t).view.emb (ix2 p q))
  rw [hemb]
  show _ = elu (preact a W b g be mu var r q)
  unfold preact
  have f0 : ∀ k : Fin 64, iblk0 V c 0 t (ix2 p k) = a (ix2 r k) := fun k =>
    (feat0_at V c t p k r rfl).trans (congrFun h0 _)
  have f1 : ∀ k : Fin 64, iblk0 V c 1 t (ix2 k q) = W (ix2 k q) := fun k =>
    (weight0_at V c t k q).trans (congrFun h1 _)
  have f2 : iblk0 V c 2 t (ix2 (0 : Fin 1) q) = b (ix1 q) :=
    (bias0_at V c t q).trans ((congrFun h2 _).trans (asRow_at b q))
  have f3 : iblk0 V c 3 t (ix2 (0 : Fin 1) q) = g (ix1 q) :=
    (scale0_at V c t q).trans ((congrFun h3 _).trans (asRow_at g q))
  have f4 : iblk0 V c 4 t (ix2 (0 : Fin 1) q) = be (ix1 q) :=
    (shift0_at V c t q).trans ((congrFun h4 _).trans (asRow_at be q))
  have f5 : iblk0 V c 5 t (ix2 (0 : Fin 1) q) = mu (ix1 q) :=
    (mean0_at V c t q).trans ((congrFun h5 _).trans (asRow_at mu q))
  have f6 : iblk0 V c 6 t (ix2 (0 : Fin 1) q) = var (ix1 q) :=
    (variance0_at V c t q).trans ((congrFun h6 _).trans (asRow_at var q))
  simp only [f0, f1, f2, f3, f4, f5, f6]

/-- An index of the output array is in point `t`'s block iff each coordinate is in the block's range on its axis. -/
theorem mem_blk0 (t : Fin cfg0.N) (i : S100000x64.Idx) :
    i ∈ ((cfg0.win 7).blk t).view.set ↔ ∀ a : Fin 2, win0_7.index t a * S10000x64.size a ≤ (i a).val ∧ (i a).val < win0_7.index t a * S10000x64.size a + S10000x64.size a := by
  show i ∈ ((View.whole main_v27).slice (win0_7.rect t)).set ↔ _
  rw [View.set_slice_whole, Rect.mem_set_unit]
  exact Iff.rfl

/-- The ten row blocks tile the output array: row `r` is in the block of point `r / 10000`. -/
theorem cover0 (i : S100000x64.Idx) : ∃ t : Fin cfg0.N, (cfg0.win 7).flush t = true ∧ i ∈ ((cfg0.win 7).blk t).view.set := by
  have hi0 : (i 0).val < 100000 := (i 0).isLt
  have hi1 : (i 1).val < 64 := (i 1).isLt
  have hN : grid0.N = 10 := N_0
  let t : Fin cfg0.N := ⟨(i 0).val / 10000, by show (i 0).val / 10000 < grid0.N; omega⟩
  obtain ⟨-, -, -, -, -, -, -, -, -, -, -, -, -, -, e0, e1⟩ := idx_facts0 t
  have e0' : win0_7.index t (0 : Fin 2) = (i 0).val / 10000 := e0
  refine ⟨t, flush0_7 t, ?_⟩
  rw [mem_blk0]
  intro a
  match a with
  | ⟨0, _⟩ => show win0_7.index t (0 : Fin 2) * 10000 ≤ (i 0).val ∧ (i 0).val < win0_7.index t (0 : Fin 2) * 10000 + 10000; omega
  | ⟨1, _⟩ => show win0_7.index t (1 : Fin 2) * 64 ≤ (i 1).val ∧ (i 1).val < win0_7.index t (1 : Fin 2) * 64 + 64; omega

end Region0

/-! ## Region 1: from the blocks to the array -/

/-- The index maps over the ten points: the feature and output windows move down the rows one block per point; the
    weight matrix and the five parameter rows stay. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

section Region1
variable (V : (c : Dev nD) → (b : Ref sig .tc) → Buf (Elt Ideal) ((c : Thread nD τ).loc b)) (c : Dev nD)

/-- The feature block at point `t`, row `p`: row `10000 t + p` of the feature array. -/
theorem feat1_at (t : Fin cfg1.N) (p : Fin 10000) (k : Fin 64) (r : Fin 100000) (hr : r.val = t.val * 10000 + p.val) :
    iblk1 V c 0 t (ix2 p k) = V c main_v37 (ix2 r k) := by
  obtain ⟨e0, e1, -⟩ := idx_facts1 t
  show V c main_v37 (((cfg1.win 0).blk t).view.emb (ix2 p k)) = V c main_v37 (ix2 r k)
  refine congrArg (V c main_v37) (funext fun a => Fin.ext ?_)
  match a with
  | ⟨0, _⟩ => show win1_0.index t (0 : Fin 2) * 10000 + 1 * p.val = r.val; omega
  | ⟨1, _⟩ => show win1_0.index t (1 : Fin 2) * 64 + 1 * k.val = k.val; omega

/-- The weight block at any point is the whole weight matrix. -/
theorem weight1_at (t : Fin cfg1.N) (k q : Fin 64) : iblk1 V c 1 t (ix2 k q) = V c main_v39 (ix2 k q) := by
  obtain ⟨-, -, e0, e1, -⟩ := idx_facts1 t
  show V c main_v39 (((cfg1.win 1).blk t).view.emb (ix2 k q)) = V c main_v39 (ix2 k q)
  refine congrArg (V c main_v39) (funext fun a => Fin.ext ?_)
  match a with
  | ⟨0, _⟩ => show win1_1.index t (0 : Fin 2) * 64 + 1 * k.val = k.val; omega
  | ⟨1, _⟩ => show win1_1.index t (1 : Fin 2) * 64 + 1 * q.val = q.val; omega

/-- The bias block at any point is the whole bias row. -/
theorem bias1_at (t : Fin cfg1.N) (q : Fin 64) : iblk1 V c 2 t (ix2 (0 : Fin 1) q) = V c main_v50 (ix2 (0 : Fin 1) q) := by
  obtain ⟨-, -, -, -, e0, e1, -⟩ := idx_facts1 t
  show V c main_v50 (((cfg1.win 2).blk t).view.emb (ix2 (0 : Fin 1) q)) = V c main_v50 (ix2 (0 : Fin 1) q)
  refine congrArg (V c main_v50) (funext fun a => Fin.ext ?_)
  match a with
  | ⟨0, _⟩ => show win1_2.index t (0 : Fin 2) * 1 + 1 * 0 = 0; omega
  | ⟨1, _⟩ => show win1_2.index t (1 : Fin 2) * 64 + 1 * q.val = q.val; omega

/-- The scale block at any point is the whole scale row. -/
theorem scale1_at (t : Fin cfg1.N) (q : Fin 64) : iblk1 V c 3 t (ix2 (0 : Fin 1) q) = V c main_v51 (ix2 (0 : Fin 1) q) := by
  obtain ⟨-, -, -, -, -, -, e0, e1, -⟩ := idx_facts1 t
  show V c main_v51 (((cfg1.win 3).blk t).view.emb (ix2 (0 : Fin 1) q)) = V c main_v51 (ix2 (0 : Fin 1) q)
  refine congrArg (V c main_v51) (funext fun a => Fin.ext ?_)
  match a with
  | ⟨0, _⟩ => show win1_3.index t (0 : Fin 2) * 1 + 1 * 0 = 0; omega
  | ⟨1, _⟩ => show win1_3.index t (1 : Fin 2) * 64 + 1 * q.val = q.val; omega

/-- The shift block at any point is the whole shift row. -/
theorem shift1_at (t : Fin cfg1.N) (q : Fin 64) : iblk1 V c 4 t (ix2 (0 : Fin 1) q) = V c main_v52 (ix2 (0 : Fin 1) q) := by
  obtain ⟨-, -, -, -, -, -, -, -, e0, e1, -⟩ := idx_facts1 t
  show V c main_v52 (((cfg1.win 4).blk t).view.emb (ix2 (0 : Fin 1) q)) = V c main_v52 (ix2 (0 : Fin 1) q)
  refine congrArg (V c main_v52) (funext fun a => Fin.ext ?_)
  match a with
  | ⟨0, _⟩ => show win1_4.index t (0 : Fin 2) * 1 + 1 * 0 = 0; omega
  | ⟨1, _⟩ => show win1_4.index t (1 : Fin 2) * 64 + 1 * q.val = q.val; omega

/-- The mean block at any point is the whole mean row. -/
theorem mean1_at (t : Fin cfg1.N) (q : Fin 64) : iblk1 V c 5 t (ix2 (0 : Fin 1) q) = V c main_v53 (ix2 (0 : Fin 1) q) := by
  obtain ⟨-, -, -, -, -, -, -, -, -, -, e0, e1, -⟩ := idx_facts1 t
  show V c main_v53 (((cfg1.win 5).blk t).view.emb (ix2 (0 : Fin 1) q)) = V c main_v53 (ix2 (0 : Fin 1) q)
  refine congrArg (V c main_v53) (funext fun a => Fin.ext ?_)
  match a with
  | ⟨0, _⟩ => show win1_5.index t (0 : Fin 2) * 1 + 1 * 0 = 0; omega
  | ⟨1, _⟩ => show win1_5.index t (1 : Fin 2) * 64 + 1 * q.val = q.val; omega

/-- The variance block at any point is the whole variance row. -/
theorem variance1_at (t : Fin cfg1.N) (q : Fin 64) : iblk1 V c 6 t (ix2 (0 : Fin 1) q) = V c main_v54 (ix2 (0 : Fin 1) q) := by
  obtain ⟨-, -, -, -, -, -, -, -, -, -, -, -, e0, e1, -⟩ := idx_facts1 t
  show V c main_v54 (((cfg1.win 6).blk t).view.emb (ix2 (0 : Fin 1) q)) = V c main_v54 (ix2 (0 : Fin 1) q)
  refine congrArg (V c main_v54) (funext fun a => Fin.ext ?_)
  match a with
  | ⟨0, _⟩ => show win1_6.index t (0 : Fin 2) * 1 + 1 * 0 = 0; omega
  | ⟨1, _⟩ => show win1_6.index t (1 : Fin 2) * 64 + 1 * q.val = q.val; omega

/-- What point `t` writes back is block `t` of the layer function of the whole inputs. -/
theorem flushed1_eq (a : FVec Ideal S100000x64 .f32) (W : FVec Ideal S64x64 .f32) (b g be mu var : FVec Ideal S64 .f32)
    (h0 : V c main_v37 = a) (h1 : V c main_v39 = W) (h2 : V c main_v50 = asRow b) (h3 : V c main_v51 = asRow g)
    (h4 : V c main_v52 = asRow be) (h5 : V c main_v53 = asRow mu) (h6 : V c main_v54 = asRow var) (t : Fin cfg1.N) :
    (dat1 (F := Ideal) V c).flushed 7 t = ((cfg1.win 7).blk t).view.read (Elt Ideal) (layer a W b g be mu var) := by
  show (cfg1.win 7).cut (grid1.coords t) ((dat1 V c).after 7 t) = _
  rw [after1_7]
  unfold out1_7
  rw [View.canon_unit_zero zeroOffsets]
  simp only [View.ld_unit_zero (S := S10000x64) zeroOffsets, View.ld_unit_zero (S := S64x64) zeroOffsets,
    View.ld_unit_zero (S := S1x64) zeroOffsets]
  refine block_ext fun p q => ?_
  refine (pay1_apply (iblk1 V c 0 t) (iblk1 V c 1 t) (iblk1 V c 2 t) (iblk1 V c 6 t) (iblk1 V c 5 t) (iblk1 V c 3 t) (iblk1 V c 4 t) p q).trans ?_
  have ht : t.val < grid1.N := t.isLt
  rw [N_1] at ht
  obtain ⟨-, -, -, -, -, -, -, -, -, -, -, -, -, -, e0, e1⟩ := idx_facts1 t
  have hp : p.val < 10000 := p.isLt
  let r : Fin 100000 := ⟨t.val * 10000 + p.val, by omega⟩
  have hemb : ((cfg1.win 7).blk t).view.emb (ix2 p q) = (ix2 r q : S100000x64.Idx) := by
    funext ax; apply Fin.ext
    match ax with
    | ⟨0, _⟩ => show win1_7.index t (0 : Fin 2) * 10000 + 1 * p.val = t.val * 10000 + p.val; omega
    | ⟨1, _⟩ => show win1_7.index t (1 : Fin 2) * 64 + 1 * q.val = q.val; omega
  show _ = layer a W b g be mu var (((cfg1.win 7).blk t).view.emb (ix2 p q))
  rw [hemb]
  show _ = elu (preact a W b g be mu var r q)
  unfold preact
  have f0 : ∀ k : Fin 64, iblk1 V c 0 t (ix2 p k) = a (ix2 r k) := fun k =>
    (feat1_at V c t p k r rfl).trans (congrFun h0 _)
  have f1 : ∀ k : Fin 64, iblk1 V c 1 t (ix2 k q) = W (ix2 k q) := fun k =>
    (weight1_at V c t k q).trans (congrFun h1 _)
  have f2 : iblk1 V c 2 t (ix2 (0 : Fin 1) q) = b (ix1 q) :=
    (bias1_at V c t q).trans ((congrFun h2 _).trans (asRow_at b q))
  have f3 : iblk1 V c 3 t (ix2 (0 : Fin 1) q) = g (ix1 q) :=
    (scale1_at V c t q).trans ((congrFun h3 _).trans (asRow_at g q))
  have f4 : iblk1 V c 4 t (ix2 (0 : Fin 1) q) = be (ix1 q) :=
    (shift1_at V c t q).trans ((congrFun h4 _).trans (asRow_at be q))
  have f5 : iblk1 V c 5 t (ix2 (0 : Fin 1) q) = mu (ix1 q) :=
    (mean1_at V c t q).trans ((congrFun h5 _).trans (asRow_at mu q))
  have f6 : iblk1 V c 6 t (ix2 (0 : Fin 1) q) = var (ix1 q) :=
    (variance1_at V c t q).trans ((congrFun h6 _).trans (asRow_at var q))
  simp only [f0, f1, f2, f3, f4, f5, f6]

/-- An index of the output array is in point `t`'s block iff each coordinate is in the block's range on its axis. -/
theorem mem_blk1 (t : Fin cfg1.N) (i : S100000x64.Idx) :
    i ∈ ((cfg1.win 7).blk t).view.set ↔ ∀ a : Fin 2, win1_7.index t a * S10000x64.size a ≤ (i a).val ∧ (i a).val < win1_7.index t a * S10000x64.size a + S10000x64.size a := by
  show i ∈ ((View.whole main_v55).slice (win1_7.rect t)).set ↔ _
  rw [View.set_slice_whole, Rect.mem_set_unit]
  exact Iff.rfl

/-- The ten row blocks tile the output array: row `r` is in the block of point `r / 10000`. -/
theorem cover1 (i : S100000x64.Idx) : ∃ t : Fin cfg1.N, (cfg1.win 7).flush t = true ∧ i ∈ ((cfg1.win 7).blk t).view.set := by
  have hi0 : (i 0).val < 100000 := (i 0).isLt
  have hi1 : (i 1).val < 64 := (i 1).isLt
  have hN : grid1.N = 10 := N_1
  let t : Fin cfg1.N := ⟨(i 0).val / 10000, by show (i 0).val / 10000 < grid1.N; omega⟩
  obtain ⟨-, -, -, -, -, -, -, -, -, -, -, -, -, -, e0, e1⟩ := idx_facts1 t
  have e0' : win1_7.index t (0 : Fin 2) = (i 0).val / 10000 := e0
  refine ⟨t, flush1_7 t, ?_⟩
  rw [mem_blk1]
  intro a
  match a with
  | ⟨0, _⟩ => show win1_7.index t (0 : Fin 2) * 10000 ≤ (i 0).val ∧ (i 0).val < win1_7.index t (0 : Fin 2) * 10000 + 10000; omega
  | ⟨1, _⟩ => show win1_7.index t (1 : Fin 2) * 64 ≤ (i 1).val ∧ (i 1).val < win1_7.index t (1 : Fin 2) * 64 + 64; omega

end Region1

/-! ## Region 2: from the blocks to the array -/

/-- The index maps over the ten points: the feature and output windows move down the rows one block per point; the
    weight matrix and the five parameter rows stay. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

section Region2
variable (V : (c : Dev nD) → (b : Ref sig .tc) → Buf (Elt Ideal) ((c : Thread nD τ).loc b)) (c : Dev nD)

/-- The feature block at point `t`, row `p`: row `10000 t + p` of the feature array. -/
theorem feat2_at (t : Fin cfg2.N) (p : Fin 10000) (k : Fin 64) (r : Fin 100000) (hr : r.val = t.val * 10000 + p.val) :
    iblk2 V c 0 t (ix2 p k) = V c main_v65 (ix2 r k) := by
  obtain ⟨e0, e1, -⟩ := idx_facts2 t
  show V c main_v65 (((cfg2.win 0).blk t).view.emb (ix2 p k)) = V c main_v65 (ix2 r k)
  refine congrArg (V c main_v65) (funext fun a => Fin.ext ?_)
  match a with
  | ⟨0, _⟩ => show win2_0.index t (0 : Fin 2) * 10000 + 1 * p.val = r.val; omega
  | ⟨1, _⟩ => show win2_0.index t (1 : Fin 2) * 64 + 1 * k.val = k.val; omega

/-- The weight block at any point is the whole weight matrix. -/
theorem weight2_at (t : Fin cfg2.N) (k q : Fin 64) : iblk2 V c 1 t (ix2 k q) = V c main_v67 (ix2 k q) := by
  obtain ⟨-, -, e0, e1, -⟩ := idx_facts2 t
  show V c main_v67 (((cfg2.win 1).blk t).view.emb (ix2 k q)) = V c main_v67 (ix2 k q)
  refine congrArg (V c main_v67) (funext fun a => Fin.ext ?_)
  match a with
  | ⟨0, _⟩ => show win2_1.index t (0 : Fin 2) * 64 + 1 * k.val = k.val; omega
  | ⟨1, _⟩ => show win2_1.index t (1 : Fin 2) * 64 + 1 * q.val = q.val; omega

/-- The bias block at any point is the whole bias row. -/
theorem bias2_at (t : Fin cfg2.N) (q : Fin 64) : iblk2 V c 2 t (ix2 (0 : Fin 1) q) = V c main_v78 (ix2 (0 : Fin 1) q) := by
  obtain ⟨-, -, -, -, e0, e1, -⟩ := idx_facts2 t
  show V c main_v78 (((cfg2.win 2).blk t).view.emb (ix2 (0 : Fin 1) q)) = V c main_v78 (ix2 (0 : Fin 1) q)
  refine congrArg (V c main_v78) (funext fun a => Fin.ext ?_)
  match a with
  | ⟨0, _⟩ => show win2_2.index t (0 : Fin 2) * 1 + 1 * 0 = 0; omega
  | ⟨1, _⟩ => show win2_2.index t (1 : Fin 2) * 64 + 1 * q.val = q.val; omega

/-- The scale block at any point is the whole scale row. -/
theorem scale2_at (t : Fin cfg2.N) (q : Fin 64) : iblk2 V c 3 t (ix2 (0 : Fin 1) q) = V c main_v79 (ix2 (0 : Fin 1) q) := by
  obtain ⟨-, -, -, -, -, -, e0, e1, -⟩ := idx_facts2 t
  show V c main_v79 (((cfg2.win 3).blk t).view.emb (ix2 (0 : Fin 1) q)) = V c main_v79 (ix2 (0 : Fin 1) q)
  refine congrArg (V c main_v79) (funext fun a => Fin.ext ?_)
  match a with
  | ⟨0, _⟩ => show win2_3.index t (0 : Fin 2) * 1 + 1 * 0 = 0; omega
  | ⟨1, _⟩ => show win2_3.index t (1 : Fin 2) * 64 + 1 * q.val = q.val; omega

/-- The shift block at any point is the whole shift row. -/
theorem shift2_at (t : Fin cfg2.N) (q : Fin 64) : iblk2 V c 4 t (ix2 (0 : Fin 1) q) = V c main_v80 (ix2 (0 : Fin 1) q) := by
  obtain ⟨-, -, -, -, -, -, -, -, e0, e1, -⟩ := idx_facts2 t
  show V c main_v80 (((cfg2.win 4).blk t).view.emb (ix2 (0 : Fin 1) q)) = V c main_v80 (ix2 (0 : Fin 1) q)
  refine congrArg (V c main_v80) (funext fun a => Fin.ext ?_)
  match a with
  | ⟨0, _⟩ => show win2_4.index t (0 : Fin 2) * 1 + 1 * 0 = 0; omega
  | ⟨1, _⟩ => show win2_4.index t (1 : Fin 2) * 64 + 1 * q.val = q.val; omega

/-- The mean block at any point is the whole mean row. -/
theorem mean2_at (t : Fin cfg2.N) (q : Fin 64) : iblk2 V c 5 t (ix2 (0 : Fin 1) q) = V c main_v81 (ix2 (0 : Fin 1) q) := by
  obtain ⟨-, -, -, -, -, -, -, -, -, -, e0, e1, -⟩ := idx_facts2 t
  show V c main_v81 (((cfg2.win 5).blk t).view.emb (ix2 (0 : Fin 1) q)) = V c main_v81 (ix2 (0 : Fin 1) q)
  refine congrArg (V c main_v81) (funext fun a => Fin.ext ?_)
  match a with
  | ⟨0, _⟩ => show win2_5.index t (0 : Fin 2) * 1 + 1 * 0 = 0; omega
  | ⟨1, _⟩ => show win2_5.index t (1 : Fin 2) * 64 + 1 * q.val = q.val; omega

/-- The variance block at any point is the whole variance row. -/
theorem variance2_at (t : Fin cfg2.N) (q : Fin 64) : iblk2 V c 6 t (ix2 (0 : Fin 1) q) = V c main_v82 (ix2 (0 : Fin 1) q) := by
  obtain ⟨-, -, -, -, -, -, -, -, -, -, -, -, e0, e1, -⟩ := idx_facts2 t
  show V c main_v82 (((cfg2.win 6).blk t).view.emb (ix2 (0 : Fin 1) q)) = V c main_v82 (ix2 (0 : Fin 1) q)
  refine congrArg (V c main_v82) (funext fun a => Fin.ext ?_)
  match a with
  | ⟨0, _⟩ => show win2_6.index t (0 : Fin 2) * 1 + 1 * 0 = 0; omega
  | ⟨1, _⟩ => show win2_6.index t (1 : Fin 2) * 64 + 1 * q.val = q.val; omega

/-- What point `t` writes back is block `t` of the layer function of the whole inputs. -/
theorem flushed2_eq (a : FVec Ideal S100000x64 .f32) (W : FVec Ideal S64x64 .f32) (b g be mu var : FVec Ideal S64 .f32)
    (h0 : V c main_v65 = a) (h1 : V c main_v67 = W) (h2 : V c main_v78 = asRow b) (h3 : V c main_v79 = asRow g)
    (h4 : V c main_v80 = asRow be) (h5 : V c main_v81 = asRow mu) (h6 : V c main_v82 = asRow var) (t : Fin cfg2.N) :
    (dat2 (F := Ideal) V c).flushed 7 t = ((cfg2.win 7).blk t).view.read (Elt Ideal) (layer a W b g be mu var) := by
  show (cfg2.win 7).cut (grid2.coords t) ((dat2 V c).after 7 t) = _
  rw [after2_7]
  unfold out2_7
  rw [View.canon_unit_zero zeroOffsets]
  simp only [View.ld_unit_zero (S := S10000x64) zeroOffsets, View.ld_unit_zero (S := S64x64) zeroOffsets,
    View.ld_unit_zero (S := S1x64) zeroOffsets]
  refine block_ext fun p q => ?_
  refine (pay2_apply (iblk2 V c 0 t) (iblk2 V c 1 t) (iblk2 V c 2 t) (iblk2 V c 6 t) (iblk2 V c 5 t) (iblk2 V c 3 t) (iblk2 V c 4 t) p q).trans ?_
  have ht : t.val < grid2.N := t.isLt
  rw [N_2] at ht
  obtain ⟨-, -, -, -, -, -, -, -, -, -, -, -, -, -, e0, e1⟩ := idx_facts2 t
  have hp : p.val < 10000 := p.isLt
  let r : Fin 100000 := ⟨t.val * 10000 + p.val, by omega⟩
  have hemb : ((cfg2.win 7).blk t).view.emb (ix2 p q) = (ix2 r q : S100000x64.Idx) := by
    funext ax; apply Fin.ext
    match ax with
    | ⟨0, _⟩ => show win2_7.index t (0 : Fin 2) * 10000 + 1 * p.val = t.val * 10000 + p.val; omega
    | ⟨1, _⟩ => show win2_7.index t (1 : Fin 2) * 64 + 1 * q.val = q.val; omega
  show _ = layer a W b g be mu var (((cfg2.win 7).blk t).view.emb (ix2 p q))
  rw [hemb]
  show _ = elu (preact a W b g be mu var r q)
  unfold preact
  have f0 : ∀ k : Fin 64, iblk2 V c 0 t (ix2 p k) = a (ix2 r k) := fun k =>
    (feat2_at V c t p k r rfl).trans (congrFun h0 _)
  have f1 : ∀ k : Fin 64, iblk2 V c 1 t (ix2 k q) = W (ix2 k q) := fun k =>
    (weight2_at V c t k q).trans (congrFun h1 _)
  have f2 : iblk2 V c 2 t (ix2 (0 : Fin 1) q) = b (ix1 q) :=
    (bias2_at V c t q).trans ((congrFun h2 _).trans (asRow_at b q))
  have f3 : iblk2 V c 3 t (ix2 (0 : Fin 1) q) = g (ix1 q) :=
    (scale2_at V c t q).trans ((congrFun h3 _).trans (asRow_at g q))
  have f4 : iblk2 V c 4 t (ix2 (0 : Fin 1) q) = be (ix1 q) :=
    (shift2_at V c t q).trans ((congrFun h4 _).trans (asRow_at be q))
  have f5 : iblk2 V c 5 t (ix2 (0 : Fin 1) q) = mu (ix1 q) :=
    (mean2_at V c t q).trans ((congrFun h5 _).trans (asRow_at mu q))
  have f6 : iblk2 V c 6 t (ix2 (0 : Fin 1) q) = var (ix1 q) :=
    (variance2_at V c t q).trans ((congrFun h6 _).trans (asRow_at var q))
  simp only [f0, f1, f2, f3, f4, f5, f6]

/-- An index of the output array is in point `t`'s block iff each coordinate is in the block's range on its axis. -/
theorem mem_blk2 (t : Fin cfg2.N) (i : S100000x64.Idx) :
    i ∈ ((cfg2.win 7).blk t).view.set ↔ ∀ a : Fin 2, win2_7.index t a * S10000x64.size a ≤ (i a).val ∧ (i a).val < win2_7.index t a * S10000x64.size a + S10000x64.size a := by
  show i ∈ ((View.whole main_v83).slice (win2_7.rect t)).set ↔ _
  rw [View.set_slice_whole, Rect.mem_set_unit]
  exact Iff.rfl

/-- The ten row blocks tile the output array: row `r` is in the block of point `r / 10000`. -/
theorem cover2 (i : S100000x64.Idx) : ∃ t : Fin cfg2.N, (cfg2.win 7).flush t = true ∧ i ∈ ((cfg2.win 7).blk t).view.set := by
  have hi0 : (i 0).val < 100000 := (i 0).isLt
  have hi1 : (i 1).val < 64 := (i 1).isLt
  have hN : grid2.N = 10 := N_2
  let t : Fin cfg2.N := ⟨(i 0).val / 10000, by show (i 0).val / 10000 < grid2.N; omega⟩
  obtain ⟨-, -, -, -, -, -, -, -, -, -, -, -, -, -, e0, e1⟩ := idx_facts2 t
  have e0' : win2_7.index t (0 : Fin 2) = (i 0).val / 10000 := e0
  refine ⟨t, flush2_7 t, ?_⟩
  rw [mem_blk2]
  intro a
  match a with
  | ⟨0, _⟩ => show win2_7.index t (0 : Fin 2) * 10000 ≤ (i 0).val ∧ (i 0).val < win2_7.index t (0 : Fin 2) * 10000 + 10000; omega
  | ⟨1, _⟩ => show win2_7.index t (1 : Fin 2) * 64 ≤ (i 1).val ∧ (i 1).val < win2_7.index t (1 : Fin 2) * 64 + 64; omega

end Region2

end Blocks

/-! ## The three launches -/

theorem region0 (V : (c : Dev nD) → (b : Ref sig .tc) → Buf (Elt Ideal) ((c : Thread nD τ).loc b)) (c : Dev nD)
    (a : FVec Ideal S100000x64 .f32) (W : FVec Ideal S64x64 .f32) (b g be mu var : FVec Ideal S64 .f32)
    (h0 : V c main_v9 = a) (h1 : V c main_v11 = W) (h2 : V c main_v22 = asRow b) (h3 : V c main_v23 = asRow g)
    (h4 : V c main_v24 = asRow be) (h5 : V c main_v25 = asRow mu) (h6 : V c main_v26 = asRow var) :
    (dat0 (F := Ideal) V c).arrAt 7 cfg0.N = layer a W b g be mu var :=
  (dat0 (F := Ideal) V c).arrAt_eq_of_cover 7 (layer a W b g be mu var)
    (fun t _ => flushed0_eq V c a W b g be mu var h0 h1 h2 h3 h4 h5 h6 t) cover0

theorem region1 (V : (c : Dev nD) → (b : Ref sig .tc) → Buf (Elt Ideal) ((c : Thread nD τ).loc b)) (c : Dev nD)
    (a : FVec Ideal S100000x64 .f32) (W : FVec Ideal S64x64 .f32) (b g be mu var : FVec Ideal S64 .f32)
    (h0 : V c main_v37 = a) (h1 : V c main_v39 = W) (h2 : V c main_v50 = asRow b) (h3 : V c main_v51 = asRow g)
    (h4 : V c main_v52 = asRow be) (h5 : V c main_v53 = asRow mu) (h6 : V c main_v54 = asRow var) :
    (dat1 (F := Ideal) V c).arrAt 7 cfg1.N = layer a W b g be mu var :=
  (dat1 (F := Ideal) V c).arrAt_eq_of_cover 7 (layer a W b g be mu var)
    (fun t _ => flushed1_eq V c a W b g be mu var h0 h1 h2 h3 h4 h5 h6 t) cover1

theorem region2 (V : (c : Dev nD) → (b : Ref sig .tc) → Buf (Elt Ideal) ((c : Thread nD τ).loc b)) (c : Dev nD)
    (a : FVec Ideal S100000x64 .f32) (W : FVec Ideal S64x64 .f32) (b g be mu var : FVec Ideal S64 .f32)
    (h0 : V c main_v65 = a) (h1 : V c main_v67 = W) (h2 : V c main_v78 = asRow b) (h3 : V c main_v79 = asRow g)
    (h4 : V c main_v80 = asRow be) (h5 : V c main_v81 = asRow mu) (h6 : V c main_v82 = asRow var) :
    (dat2 (F := Ideal) V c).arrAt 7 cfg2.N = layer a W b g be mu var :=
  (dat2 (F := Ideal) V c).arrAt_eq_of_cover 7 (layer a W b g be mu var)
    (fun t _ => flushed2_eq V c a W b g be mu var h0 h1 h2 h3 h4 h5 h6 t) cover2

end Cert.KernelIdeal.Hand

end
-- ==== Proof.KernelValue.lean ====
/-
  What the kernel program leaves in its result buffer, read back through the segments of its main function: each
  stretch of host operations computes, of the buffers it finds, the neighbour aggregation and the layer's slices of
  the stacked parameters (before a layer kernel) or the classification head (after the last); each layer kernel leaves
  the layer function of its inputs in its output array; no stretch and no kernel writes an argument array. Chained from
  the launch memory, the result buffer holds the network's value at the launch arguments.
-/
import proofs.«410813_j45140106281501_4_alg».proof.Proof.Gen.KernelIdeal.Frame
import proofs.«410813_j45140106281501_4_alg».proof.Proof.KernelRegion
import proofs.«410813_j45140106281501_4_alg».proof.Proof.Spec
import Idealize.ShloMosaic.Lib.StableHlo.Run

noncomputable section

namespace Cert.KernelIdeal.Hand

open Idealize.ShloMosaic Idealize.ShloMosaic.TcCoe Idealize.SL.Sem Idealize.ShloMosaic.StableHlo Cert.KernelIdeal Cert.KernelIdeal.Gen Cert.Bridge

/-- A value moved along an equation of types and back is the value. -/
theorem cast_cast_id {α β : Sort _} (h : β = α) (h' : α = β) (v : α) : cast h (cast h' v) = v := by
  cases h'; rfl

/-! ## What each stretch of host operations computes, of the contents it starts from -/

section Stretches

variable (U : Valuation τ sig (Elt Ideal))

set_option maxHeartbeats 2000000 in
/-- Before layer 0: the aggregated features. -/
theorem hostOps0_agg : StableHlo.after (hostOps0 (F := Ideal)) U (Proc.devRef .tc main_v9)
    = agg (U (Proc.devRef .tc main_arg0)) (U (Proc.devRef .tc main_arg1)) (U (Proc.devRef .tc main_arg2)) := by
  after_results; rfl
set_option maxHeartbeats 2000000 in
/-- Before layer 0: the layer's weight matrix. -/
theorem hostOps0_mat : StableHlo.after (hostOps0 (F := Ideal)) U (Proc.devRef .tc main_v11)
    = mat0 (U (Proc.devRef .tc main_arg4)) := by
  after_results; rfl
set_option maxHeartbeats 2000000 in
/-- Before layer 0: the layer's bias, as a row. -/
theorem hostOps0_row0 : StableHlo.after (hostOps0 (F := Ideal)) U (Proc.devRef .tc main_v22)
    = asRow (row0 (U (Proc.devRef .tc main_arg5))) := by
  after_results; rfl
set_option maxHeartbeats 2000000 in
/-- Before layer 0: the layer's batch-norm scale, as a row. -/
theorem hostOps0_row1 : StableHlo.after (hostOps0 (F := Ideal)) U (Proc.devRef .tc main_v23)
    = asRow (row0 (U (Proc.devRef .tc main_arg6))) := by
  after_results; rfl
set_option maxHeartbeats 2000000 in
/-- Before layer 0: the layer's batch-norm shift, as a row. -/
theorem hostOps0_row2 : StableHlo.after (hostOps0 (F := Ideal)) U (Proc.devRef .tc main_v24)
    = asRow (row0 (U (Proc.devRef .tc main_arg7))) := by
  after_results; rfl
set_option maxHeartbeats 2000000 in
/-- Before layer 0: the layer's running mean, as a row. -/
theorem hostOps0_row3 : StableHlo.after (hostOps0 (F := Ideal)) U (Proc.devRef .tc main_v25)
    = asRow (row0 (U (Proc.devRef .tc main_arg8))) := by
  after_results; rfl
set_option maxHeartbeats 2000000 in
/-- Before layer 0: the layer's running variance, as a row. -/
theorem hostOps0_row4 : StableHlo.after (hostOps0 (F := Ideal)) U (Proc.devRef .tc main_v26)
    = asRow (row0 (U (Proc.devRef .tc main_arg9))) := by
  after_results; rfl

set_option maxHeartbeats 2000000 in
/-- Before layer 1: the aggregated features. -/
theorem hostOps1_agg : StableHlo.after (hostOps1 (F := Ideal)) U (Proc.devRef .tc main_v37)
    = agg (U (Proc.devRef .tc main_v27)) (U (Proc.devRef .tc main_arg1)) (U (Proc.devRef .tc main_arg2)) := by
  after_results; rfl
set_option maxHeartbeats 2000000 in
/-- Before layer 1: the layer's weight matrix. -/
theorem hostOps1_mat : StableHlo.after (hostOps1 (F := Ideal)) U (Proc.devRef .tc main_v39)
    = mat1 (U (Proc.devRef .tc main_arg4)) := by
  after_results; rfl
set_option maxHeartbeats 2000000 in
/-- Before layer 1: the layer's bias, as a row. -/
theorem hostOps1_row0 : StableHlo.after (hostOps1 (F := Ideal)) U (Proc.devRef .tc main_v50)
    = asRow (row1 (U (Proc.devRef .tc main_arg5))) := by
  after_results; rfl
set_option maxHeartbeats 2000000 in
/-- Before layer 1: the layer's batch-norm scale, as a row. -/
theorem hostOps1_row1 : StableHlo.after (hostOps1 (F := Ideal)) U (Proc.devRef .tc main_v51)
    = asRow (row1 (U (Proc.devRef .tc main_arg6))) := by
  after_results; rfl
set_option maxHeartbeats 2000000 in
/-- Before layer 1: the layer's batch-norm shift, as a row. -/
theorem hostOps1_row2 : StableHlo.after (hostOps1 (F := Ideal)) U (Proc.devRef .tc main_v52)
    = asRow (row1 (U (Proc.devRef .tc main_arg7))) := by
  after_results; rfl
set_option maxHeartbeats 2000000 in
/-- Before layer 1: the layer's running mean, as a row. -/
theorem hostOps1_row3 : StableHlo.after (hostOps1 (F := Ideal)) U (Proc.devRef .tc main_v53)
    = asRow (row1 (U (Proc.devRef .tc main_arg8))) := by
  after_results; rfl
set_option maxHeartbeats 2000000 in
/-- Before layer 1: the layer's running variance, as a row. -/
theorem hostOps1_row4 : StableHlo.after (hostOps1 (F := Ideal)) U (Proc.devRef .tc main_v54)
    = asRow (row1 (U (Proc.devRef .tc main_arg9))) := by
  after_results; rfl

set_option maxHeartbeats 2000000 in
/-- Before layer 2: the aggregated features. -/
theorem hostOps2_agg : StableHlo.after (hostOps2 (F := Ideal)) U (Proc.devRef .tc main_v65)
    = agg (U (Proc.devRef .tc main_v55)) (U (Proc.devRef .tc main_arg1)) (U (Proc.devRef .tc main_arg2)) := by
  after_results; rfl
set_option maxHeartbeats 2000000 in
/-- Before layer 2: the layer's weight matrix. -/
theorem hostOps2_mat : StableHlo.after (hostOps2 (F := Ideal)) U (Proc.devRef .tc main_v67)
    = mat2 (U (Proc.devRef .tc main_arg4)) := by
  after_results; rfl
set_option maxHeartbeats 2000000 in
/-- Before layer 2: the layer's bias, as a row. -/
theorem hostOps2_row0 : StableHlo.after (hostOps2 (F := Ideal)) U (Proc.devRef .tc main_v78)
    = asRow (row2 (U (Proc.devRef .tc main_arg5))) := by
  after_results; rfl
set_option maxHeartbeats 2000000 in
/-- Before layer 2: the layer's batch-norm scale, as a row. -/
theorem hostOps2_row1 : StableHlo.after (hostOps2 (F := Ideal)) U (Proc.devRef .tc main_v79)
    = asRow (row2 (U (Proc.devRef .tc main_arg6))) := by
  after_results; rfl
set_option maxHeartbeats 2000000 in
/-- Before layer 2: the layer's batch-norm shift, as a row. -/
theorem hostOps2_row2 : StableHlo.after (hostOps2 (F := Ideal)) U (Proc.devRef .tc main_v80)
    = asRow (row2 (U (Proc.devRef .tc main_arg7))) := by
  after_results; rfl
set_option maxHeartbeats 2000000 in
/-- Before layer 2: the layer's running mean, as a row. -/
theorem hostOps2_row3 : StableHlo.after (hostOps2 (F := Ideal)) U (Proc.devRef .tc main_v81)
    = asRow (row2 (U (Proc.devRef .tc main_arg8))) := by
  after_results; rfl
set_option maxHeartbeats 2000000 in
/-- Before layer 2: the layer's running variance, as a row. -/
theorem hostOps2_row4 : StableHlo.after (hostOps2 (F := Ideal)) U (Proc.devRef .tc main_v82)
    = asRow (row2 (U (Proc.devRef .tc main_arg9))) := by
  after_results; rfl

set_option maxHeartbeats 2000000 in
/-- After the last layer: the class logits of every node. -/
theorem hostOps3_logits : StableHlo.after (hostOps3 (F := Ideal)) U (Proc.devRef .tc main_v87)
    = logits (U (Proc.devRef .tc main_v83)) (U (Proc.devRef .tc main_arg10)) (U (Proc.devRef .tc main_arg11)) := by
  after_results; rfl

set_option maxHeartbeats 2000000 in
/-- The row-wise log-softmax of the logits. Its operations carry the type of the value each holds, and move contents
    between that type and the buffer's own along the equation of the two: the identity, both ways. -/
theorem hostOps3_1_logSoftmax : StableHlo.after (hostOps3_1 (F := Ideal)) U (Proc.devRef .tc main_v88)
    = logSoftmax (U (Proc.devRef .tc main_v87)) := by
  have e87 : ∀ (h : (main_v87 : Ref sig .tc).ty.Contents (Elt Ideal) = (⟨S100000x10, .f32⟩ : BufTy).Contents (Elt Ideal)),
      cast h (U (Proc.devRef .tc main_v87)) = U (Proc.devRef .tc main_v87) := fun h => rfl
  have e88 : ∀ (h : (⟨S100000x10, .f32⟩ : BufTy).Contents (Elt Ideal) = (main_v88 : Ref sig .tc).ty.Contents (Elt Ideal))
      (X : (⟨S100000x10, .f32⟩ : BufTy).Contents (Elt Ideal)), cast h X = X := fun h X => rfl
  after_results_simp
  simp only [cast_cast_id, e87, e88]
  rfl

set_option maxHeartbeats 2000000 in
/-- The entropy-weighted, per-graph pooled classification of the last features. -/
theorem hostOps3_2_pooled : StableHlo.after (hostOps3_2 (F := Ideal)) U (Proc.devRef .tc main_v107)
    = pooled (weights (entropy (U (Proc.devRef .tc main_v88)))) (U (Proc.devRef .tc main_v83)) (U (Proc.devRef .tc main_arg3)) (U (Proc.devRef .tc main_arg10)) (U (Proc.devRef .tc main_arg11)) := by
  after_results_simp; rfl

end Stretches

/-! ## No stretch and no kernel writes an argument array -/

/-- No operation of a stretch writes the given buffer: each operation's one result buffer is another reference. -/
macro "unwritten" : tactic => `(tactic| (
  refine List.forall_iff_forall_mem.mp ?_
  simp only [hostOps0, hostOps1, hostOps2, hostOps3, hostOps3_1, hostOps3_2, List.flatten_cons, List.flatten_nil, List.append_nil,
    List.cons_append, List.nil_append, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

section Run

variable (m : (ℓ : Loc nD τ sig) → Buf (Elt Ideal) ℓ) (ρ : Dev nD → PrngReg) (c : Dev nD)
theorem W1_arg1 : W1 (F := Ideal) m ρ c (Proc.devRef .tc main_arg1) = m ((c.tc : Thread nD τ).loc main_arg1) := by
  refine (StableHlo.after_of_forall_not_mem (b := (Proc.devRef .tc main_arg1)) _ _ ?_).trans rfl
  unwritten
theorem W2_arg1 : W2 (F := Ideal) m ρ c (Proc.devRef .tc main_arg1) = m ((c.tc : Thread nD τ).loc main_arg1) :=
  (W2_of_ne m ρ c main_arg1 (by decide)).trans (W1_arg1 m ρ c)
theorem W3_arg1 : W3 (F := Ideal) m ρ c (Proc.devRef .tc main_arg1) = m ((c.tc : Thread nD τ).loc main_arg1) := by
  refine (StableHlo.after_of_forall_not_mem (b := (Proc.devRef .tc main_arg1)) _ _ ?_).trans (W2_arg1 m ρ c)
  unwritten
theorem W4_arg1 : W4 (F := Ideal) m ρ c (Proc.devRef .tc main_arg1) = m ((c.tc : Thread nD τ).loc main_arg1) :=
  (W4_of_ne m ρ c main_arg1 (by decide)).trans (W3_arg1 m ρ c)
theorem W1_arg2 : W1 (F := Ideal) m ρ c (Proc.devRef .tc main_arg2) = m ((c.tc : Thread nD τ).loc main_arg2) := by
  refine (StableHlo.after_of_forall_not_mem (b := (Proc.devRef .tc main_arg2)) _ _ ?_).trans rfl
  unwritten
theorem W2_arg2 : W2 (F := Ideal) m ρ c (Proc.devRef .tc main_arg2) = m ((c.tc : Thread nD τ).loc main_arg2) :=
  (W2_of_ne m ρ c main_arg2 (by decide)).trans (W1_arg2 m ρ c)
theorem W3_arg2 : W3 (F := Ideal) m ρ c (Proc.devRef .tc main_arg2) = m ((c.tc : Thread nD τ).loc main_arg2) := by
  refine (StableHlo.after_of_forall_not_mem (b := (Proc.devRef .tc main_arg2)) _ _ ?_).trans (W2_arg2 m ρ c)
  unwritten
theorem W4_arg2 : W4 (F := Ideal) m ρ c (Proc.devRef .tc main_arg2) = m ((c.tc : Thread nD τ).loc main_arg2) :=
  (W4_of_ne m ρ c main_arg2 (by decide)).trans (W3_arg2 m ρ c)
theorem W1_arg4 : W1 (F := Ideal) m ρ c (Proc.devRef .tc main_arg4) = m ((c.tc : Thread nD τ).loc main_arg4) := by
  refine (StableHlo.after_of_forall_not_mem (b := (Proc.devRef .tc main_arg4)) _ _ ?_).trans rfl
  unwritten
theorem W2_arg4 : W2 (F := Ideal) m ρ c (Proc.devRef .tc main_arg4) = m ((c.tc : Thread nD τ).loc main_arg4) :=
  (W2_of_ne m ρ c main_arg4 (by decide)).trans (W1_arg4 m ρ c)
theorem W3_arg4 : W3 (F := Ideal) m ρ c (Proc.devRef .tc main_arg4) = m ((c.tc : Thread nD τ).loc main_arg4) := by
  refine (StableHlo.after_of_forall_not_mem (b := (Proc.devRef .tc main_arg4)) _ _ ?_).trans (W2_arg4 m ρ c)
  unwritten
theorem W4_arg4 : W4 (F := Ideal) m ρ c (Proc.devRef .tc main_arg4) = m ((c.tc : Thread nD τ).loc main_arg4) :=
  (W4_of_ne m ρ c main_arg4 (by decide)).trans (W3_arg4 m ρ c)
theorem W1_arg5 : W1 (F := Ideal) m ρ c (Proc.devRef .tc main_arg5) = m ((c.tc : Thread nD τ).loc main_arg5) := by
  refine (StableHlo.after_of_forall_not_mem (b := (Proc.devRef .tc main_arg5)) _ _ ?_).trans rfl
  unwritten
theorem W2_arg5 : W2 (F := Ideal) m ρ c (Proc.devRef .tc main_arg5) = m ((c.tc : Thread nD τ).loc main_arg5) :=
  (W2_of_ne m ρ c main_arg5 (by decide)).trans (W1_arg5 m ρ c)
theorem W3_arg5 : W3 (F := Ideal) m ρ c (Proc.devRef .tc main_arg5) = m ((c.tc : Thread nD τ).loc main_arg5) := by
  refine (StableHlo.after_of_forall_not_mem (b := (Proc.devRef .tc main_arg5)) _ _ ?_).trans (W2_arg5 m ρ c)
  unwritten
theorem W4_arg5 : W4 (F := Ideal) m ρ c (Proc.devRef .tc main_arg5) = m ((c.tc : Thread nD τ).loc main_arg5) :=
  (W4_of_ne m ρ c main_arg5 (by decide)).trans (W3_arg5 m ρ c)
theorem W1_arg6 : W1 (F := Ideal) m ρ c (Proc.devRef .tc main_arg6) = m ((c.tc : Thread nD τ).loc main_arg6) := by
  refine (StableHlo.after_of_forall_not_mem (b := (Proc.devRef .tc main_arg6)) _ _ ?_).trans rfl
  unwritten
theorem W2_arg6 : W2 (F := Ideal) m ρ c (Proc.devRef .tc main_arg6) = m ((c.tc : Thread nD τ).loc main_arg6) :=
  (W2_of_ne m ρ c main_arg6 (by decide)).trans (W1_arg6 m ρ c)
theorem W3_arg6 : W3 (F := Ideal) m ρ c (Proc.devRef .tc main_arg6) = m ((c.tc : Thread nD τ).loc main_arg6) := by
  refine (StableHlo.after_of_forall_not_mem (b := (Proc.devRef .tc main_arg6)) _ _ ?_).trans (W2_arg6 m ρ c)
  unwritten
theorem W4_arg6 : W4 (F := Ideal) m ρ c (Proc.devRef .tc main_arg6) = m ((c.tc : Thread nD τ).loc main_arg6) :=
  (W4_of_ne m ρ c main_arg6 (by decide)).trans (W3_arg6 m ρ c)
theorem W1_arg7 : W1 (F := Ideal) m ρ c (Proc.devRef .tc main_arg7) = m ((c.tc : Thread nD τ).loc main_arg7) := by
  refine (StableHlo.after_of_forall_not_mem (b := (Proc.devRef .tc main_arg7)) _ _ ?_).trans rfl
  unwritten
theorem W2_arg7 : W2 (F := Ideal) m ρ c (Proc.devRef .tc main_arg7) = m ((c.tc : Thread nD τ).loc main_arg7) :=
  (W2_of_ne m ρ c main_arg7 (by decide)).trans (W1_arg7 m ρ c)
theorem W3_arg7 : W3 (F := Ideal) m ρ c (Proc.devRef .tc main_arg7) = m ((c.tc : Thread nD τ).loc main_arg7) := by
  refine (StableHlo.after_of_forall_not_mem (b := (Proc.devRef .tc main_arg7)) _ _ ?_).trans (W2_arg7 m ρ c)
  unwritten
theorem W4_arg7 : W4 (F := Ideal) m ρ c (Proc.devRef .tc main_arg7) = m ((c.tc : Thread nD τ).loc main_arg7) :=
  (W4_of_ne m ρ c main_arg7 (by decide)).trans (W3_arg7 m ρ c)
theorem W1_arg8 : W1 (F := Ideal) m ρ c (Proc.devRef .tc main_arg8) = m ((c.tc : Thread nD τ).loc main_arg8) := by
  refine (StableHlo.after_of_forall_not_mem (b := (Proc.devRef .tc main_arg8)) _ _ ?_).trans rfl
  unwritten
theorem W2_arg8 : W2 (F := Ideal) m ρ c (Proc.devRef .tc main_arg8) = m ((c.tc : Thread nD τ).loc main_arg8) :=
  (W2_of_ne m ρ c main_arg8 (by decide)).trans (W1_arg8 m ρ c)
theorem W3_arg8 : W3 (F := Ideal) m ρ c (Proc.devRef .tc main_arg8) = m ((c.tc : Thread nD τ).loc main_arg8) := by
  refine (StableHlo.after_of_forall_not_mem (b := (Proc.devRef .tc main_arg8)) _ _ ?_).trans (W2_arg8 m ρ c)
  unwritten
theorem W4_arg8 : W4 (F := Ideal) m ρ c (Proc.devRef .tc main_arg8) = m ((c.tc : Thread nD τ).loc main_arg8) :=
  (W4_of_ne m ρ c main_arg8 (by decide)).trans (W3_arg8 m ρ c)
theorem W1_arg9 : W1 (F := Ideal) m ρ c (Proc.devRef .tc main_arg9) = m ((c.tc : Thread nD τ).loc main_arg9) := by
  refine (StableHlo.after_of_forall_not_mem (b := (Proc.devRef .tc main_arg9)) _ _ ?_).trans rfl
  unwritten
theorem W2_arg9 : W2 (F := Ideal) m ρ c (Proc.devRef .tc main_arg9) = m ((c.tc : Thread nD τ).loc main_arg9) :=
  (W2_of_ne m ρ c main_arg9 (by decide)).trans (W1_arg9 m ρ c)
theorem W3_arg9 : W3 (F := Ideal) m ρ c (Proc.devRef .tc main_arg9) = m ((c.tc : Thread nD τ).loc main_arg9) := by
  refine (StableHlo.after_of_forall_not_mem (b := (Proc.devRef .tc main_arg9)) _ _ ?_).trans (W2_arg9 m ρ c)
  unwritten
theorem W4_arg9 : W4 (F := Ideal) m ρ c (Proc.devRef .tc main_arg9) = m ((c.tc : Thread nD τ).loc main_arg9) :=
  (W4_of_ne m ρ c main_arg9 (by decide)).trans (W3_arg9 m ρ c)
theorem W1_arg10 : W1 (F := Ideal) m ρ c (Proc.devRef .tc main_arg10) = m ((c.tc : Thread nD τ).loc main_arg10) := by
  refine (StableHlo.after_of_forall_not_mem (b := (Proc.devRef .tc main_arg10)) _ _ ?_).trans rfl
  unwritten
theorem W2_arg10 : W2 (F := Ideal) m ρ c (Proc.devRef .tc main_arg10) = m ((c.tc : Thread nD τ).loc main_arg10) :=
  (W2_of_ne m ρ c main_arg10 (by decide)).trans (W1_arg10 m ρ c)
theorem W3_arg10 : W3 (F := Ideal) m ρ c (Proc.devRef .tc main_arg10) = m ((c.tc : Thread nD τ).loc main_arg10) := by
  refine (StableHlo.after_of_forall_not_mem (b := (Proc.devRef .tc main_arg10)) _ _ ?_).trans (W2_arg10 m ρ c)
  unwritten
theorem W4_arg10 : W4 (F := Ideal) m ρ c (Proc.devRef .tc main_arg10) = m ((c.tc : Thread nD τ).loc main_arg10) :=
  (W4_of_ne m ρ c main_arg10 (by decide)).trans (W3_arg10 m ρ c)
theorem W5_arg10 : W5 (F := Ideal) m ρ c (Proc.devRef .tc main_arg10) = m ((c.tc : Thread nD τ).loc main_arg10) := by
  refine (StableHlo.after_of_forall_not_mem (b := (Proc.devRef .tc main_arg10)) _ _ ?_).trans (W4_arg10 m ρ c)
  unwritten
theorem W6_arg10 : W6 (F := Ideal) m ρ c (Proc.devRef .tc main_arg10) = m ((c.tc : Thread nD τ).loc main_arg10) :=
  (W6_of_ne m ρ c main_arg10 (by decide)).trans (W5_arg10 m ρ c)
theorem W7_arg10 : W7 (F := Ideal) m ρ c (Proc.devRef .tc main_arg10) = m ((c.tc : Thread nD τ).loc main_arg10) := by
  refine (StableHlo.after_of_forall_not_mem (b := (Proc.devRef .tc main_arg10)) _ _ ?_).trans (W6_arg10 m ρ c)
  unwritten
theorem W8_arg10 : W8 (F := Ideal) m ρ c (Proc.devRef .tc main_arg10) = m ((c.tc : Thread nD τ).loc main_arg10) := by
  refine (StableHlo.after_of_forall_not_mem (b := (Proc.devRef .tc main_arg10)) _ _ ?_).trans (W7_arg10 m ρ c)
  unwritten
theorem W1_arg11 : W1 (F := Ideal) m ρ c (Proc.devRef .tc main_arg11) = m ((c.tc : Thread nD τ).loc main_arg11) := by
  refine (StableHlo.after_of_forall_not_mem (b := (Proc.devRef .tc main_arg11)) _ _ ?_).trans rfl
  unwritten
theorem W2_arg11 : W2 (F := Ideal) m ρ c (Proc.devRef .tc main_arg11) = m ((c.tc : Thread nD τ).loc main_arg11) :=
  (W2_of_ne m ρ c main_arg11 (by decide)).trans (W1_arg11 m ρ c)
theorem W3_arg11 : W3 (F := Ideal) m ρ c (Proc.devRef .tc main_arg11) = m ((c.tc : Thread nD τ).loc main_arg11) := by
  refine (StableHlo.after_of_forall_not_mem (b := (Proc.devRef .tc main_arg11)) _ _ ?_).trans (W2_arg11 m ρ c)
  unwritten
theorem W4_arg11 : W4 (F := Ideal) m ρ c (Proc.devRef .tc main_arg11) = m ((c.tc : Thread nD τ).loc main_arg11) :=
  (W4_of_ne m ρ c main_arg11 (by decide)).trans (W3_arg11 m ρ c)
theorem W5_arg11 : W5 (F := Ideal) m ρ c (Proc.devRef .tc main_arg11) = m ((c.tc : Thread nD τ).loc main_arg11) := by
  refine (StableHlo.after_of_forall_not_mem (b := (Proc.devRef .tc main_arg11)) _ _ ?_).trans (W4_arg11 m ρ c)
  unwritten
theorem W6_arg11 : W6 (F := Ideal) m ρ c (Proc.devRef .tc main_arg11) = m ((c.tc : Thread nD τ).loc main_arg11) :=
  (W6_of_ne m ρ c main_arg11 (by decide)).trans (W5_arg11 m ρ c)
theorem W7_arg11 : W7 (F := Ideal) m ρ c (Proc.devRef .tc main_arg11) = m ((c.tc : Thread nD τ).loc main_arg11) := by
  refine (StableHlo.after_of_forall_not_mem (b := (Proc.devRef .tc main_arg11)) _ _ ?_).trans (W6_arg11 m ρ c)
  unwritten
theorem W8_arg11 : W8 (F := Ideal) m ρ c (Proc.devRef .tc main_arg11) = m ((c.tc : Thread nD τ).loc main_arg11) := by
  refine (StableHlo.after_of_forall_not_mem (b := (Proc.devRef .tc main_arg11)) _ _ ?_).trans (W7_arg11 m ρ c)
  unwritten
theorem W1_arg3 : W1 (F := Ideal) m ρ c (Proc.devRef .tc main_arg3) = m ((c.tc : Thread nD τ).loc main_arg3) := by
  refine (StableHlo.after_of_forall_not_mem (b := (Proc.devRef .tc main_arg3)) _ _ ?_).trans rfl
  unwritten
theorem W2_arg3 : W2 (F := Ideal) m ρ c (Proc.devRef .tc main_arg3) = m ((c.tc : Thread nD τ).loc main_arg3) :=
  (W2_of_ne m ρ c main_arg3 (by decide)).trans (W1_arg3 m ρ c)
theorem W3_arg3 : W3 (F := Ideal) m ρ c (Proc.devRef .tc main_arg3) = m ((c.tc : Thread nD τ).loc main_arg3) := by
  refine (StableHlo.after_of_forall_not_mem (b := (Proc.devRef .tc main_arg3)) _ _ ?_).trans (W2_arg3 m ρ c)
  unwritten
theorem W4_arg3 : W4 (F := Ideal) m ρ c (Proc.devRef .tc main_arg3) = m ((c.tc : Thread nD τ).loc main_arg3) :=
  (W4_of_ne m ρ c main_arg3 (by decide)).trans (W3_arg3 m ρ c)
theorem W5_arg3 : W5 (F := Ideal) m ρ c (Proc.devRef .tc main_arg3) = m ((c.tc : Thread nD τ).loc main_arg3) := by
  refine (StableHlo.after_of_forall_not_mem (b := (Proc.devRef .tc main_arg3)) _ _ ?_).trans (W4_arg3 m ρ c)
  unwritten
theorem W6_arg3 : W6 (F := Ideal) m ρ c (Proc.devRef .tc main_arg3) = m ((c.tc : Thread nD τ).loc main_arg3) :=
  (W6_of_ne m ρ c main_arg3 (by decide)).trans (W5_arg3 m ρ c)
theorem W7_arg3 : W7 (F := Ideal) m ρ c (Proc.devRef .tc main_arg3) = m ((c.tc : Thread nD τ).loc main_arg3) := by
  refine (StableHlo.after_of_forall_not_mem (b := (Proc.devRef .tc main_arg3)) _ _ ?_).trans (W6_arg3 m ρ c)
  unwritten
theorem W8_arg3 : W8 (F := Ideal) m ρ c (Proc.devRef .tc main_arg3) = m ((c.tc : Thread nD τ).loc main_arg3) := by
  refine (StableHlo.after_of_forall_not_mem (b := (Proc.devRef .tc main_arg3)) _ _ ?_).trans (W7_arg3 m ρ c)
  unwritten

/-! ## The layers' features, and the result -/

/-- The node features after the first layer, at the launch arguments. -/
abbrev feat0 : FVec Ideal S100000x64 .f32 :=
  layer (agg (m ((c.tc : Thread nD τ).loc main_arg0)) (m ((c.tc : Thread nD τ).loc main_arg1)) (m ((c.tc : Thread nD τ).loc main_arg2))) (mat0 (m ((c.tc : Thread nD τ).loc main_arg4)))
    (row0 (m ((c.tc : Thread nD τ).loc main_arg5))) (row0 (m ((c.tc : Thread nD τ).loc main_arg6))) (row0 (m ((c.tc : Thread nD τ).loc main_arg7))) (row0 (m ((c.tc : Thread nD τ).loc main_arg8))) (row0 (m ((c.tc : Thread nD τ).loc main_arg9)))
/-- The node features after the second layer. -/
abbrev feat1 : FVec Ideal S100000x64 .f32 :=
  layer (agg (feat0 m c) (m ((c.tc : Thread nD τ).loc main_arg1)) (m ((c.tc : Thread nD τ).loc main_arg2))) (mat1 (m ((c.tc : Thread nD τ).loc main_arg4)))
    (row1 (m ((c.tc : Thread nD τ).loc main_arg5))) (row1 (m ((c.tc : Thread nD τ).loc main_arg6))) (row1 (m ((c.tc : Thread nD τ).loc main_arg7))) (row1 (m ((c.tc : Thread nD τ).loc main_arg8))) (row1 (m ((c.tc : Thread nD τ).loc main_arg9)))
/-- The node features after the third layer. -/
abbrev feat2 : FVec Ideal S100000x64 .f32 :=
  layer (agg (feat1 m c) (m ((c.tc : Thread nD τ).loc main_arg1)) (m ((c.tc : Thread nD τ).loc main_arg2))) (mat2 (m ((c.tc : Thread nD τ).loc main_arg4)))
    (row2 (m ((c.tc : Thread nD τ).loc main_arg5))) (row2 (m ((c.tc : Thread nD τ).loc main_arg6))) (row2 (m ((c.tc : Thread nD τ).loc main_arg7))) (row2 (m ((c.tc : Thread nD τ).loc main_arg8))) (row2 (m ((c.tc : Thread nD τ).loc main_arg9)))

/-- The first layer's kernel leaves the first layer's features in its output array. -/
theorem W2_out : W2 (F := Ideal) m ρ c (Proc.devRef .tc main_v27) = feat0 m c :=
  (W2_arr m ρ c 7).trans (region0 (V1 m ρ) c _ _ _ _ _ _ _
    (hostOps0_agg (W0 m ρ c)) (hostOps0_mat (W0 m ρ c)) (hostOps0_row0 (W0 m ρ c)) (hostOps0_row1 (W0 m ρ c))
    (hostOps0_row2 (W0 m ρ c)) (hostOps0_row3 (W0 m ρ c)) (hostOps0_row4 (W0 m ρ c)))

/-- What the stretch before layer 1 computes, at the launch arguments. -/
theorem W3_agg : W3 (F := Ideal) m ρ c (Proc.devRef .tc main_v37) = agg (feat0 m c) (m ((c.tc : Thread nD τ).loc main_arg1)) (m ((c.tc : Thread nD τ).loc main_arg2)) :=
  (hostOps1_agg (W2 m ρ c)).trans (by rw [W2_out m ρ c, W2_arg1 m ρ c, W2_arg2 m ρ c])
theorem W3_mat : W3 (F := Ideal) m ρ c (Proc.devRef .tc main_v39) = mat1 (m ((c.tc : Thread nD τ).loc main_arg4)) :=
  (hostOps1_mat (W2 m ρ c)).trans (congrArg mat1 (W2_arg4 m ρ c))
theorem W3_row0 : W3 (F := Ideal) m ρ c (Proc.devRef .tc main_v50) = asRow (row1 (m ((c.tc : Thread nD τ).loc main_arg5))) :=
  (hostOps1_row0 (W2 m ρ c)).trans (congrArg (fun p => asRow (row1 p)) (W2_arg5 m ρ c))
theorem W3_row1 : W3 (F := Ideal) m ρ c (Proc.devRef .tc main_v51) = asRow (row1 (m ((c.tc : Thread nD τ).loc main_arg6))) :=
  (hostOps1_row1 (W2 m ρ c)).trans (congrArg (fun p => asRow (row1 p)) (W2_arg6 m ρ c))
theorem W3_row2 : W3 (F := Ideal) m ρ c (Proc.devRef .tc main_v52) = asRow (row1 (m ((c.tc : Thread nD τ).loc main_arg7))) :=
  (hostOps1_row2 (W2 m ρ c)).trans (congrArg (fun p => asRow (row1 p)) (W2_arg7 m ρ c))
theorem W3_row3 : W3 (F := Ideal) m ρ c (Proc.devRef .tc main_v53) = asRow (row1 (m ((c.tc : Thread nD τ).loc main_arg8))) :=
  (hostOps1_row3 (W2 m ρ c)).trans (congrArg (fun p => asRow (row1 p)) (W2_arg8 m ρ c))
theorem W3_row4 : W3 (F := Ideal) m ρ c (Proc.devRef .tc main_v54) = asRow (row1 (m ((c.tc : Thread nD τ).loc main_arg9))) :=
  (hostOps1_row4 (W2 m ρ c)).trans (congrArg (fun p => asRow (row1 p)) (W2_arg9 m ρ c))
/-- Layer 1's kernel leaves its features in its output array. -/
theorem W4_out : W4 (F := Ideal) m ρ c (Proc.devRef .tc main_v55) = feat1 m c :=
  (W4_arr m ρ c 7).trans (region1 (V3 m ρ) c _ _ _ _ _ _ _
    (W3_agg m ρ c) (W3_mat m ρ c) (W3_row0 m ρ c) (W3_row1 m ρ c) (W3_row2 m ρ c) (W3_row3 m ρ c) (W3_row4 m ρ c))

/-- What the stretch before layer 2 computes, at the launch arguments. -/
theorem W5_agg : W5 (F := Ideal) m ρ c (Proc.devRef .tc main_v65) = agg (feat1 m c) (m ((c.tc : Thread nD τ).loc main_arg1)) (m ((c.tc : Thread nD τ).loc main_arg2)) :=
  (hostOps2_agg (W4 m ρ c)).trans (by rw [W4_out m ρ c, W4_arg1 m ρ c, W4_arg2 m ρ c])
theorem W5_mat : W5 (F := Ideal) m ρ c (Proc.devRef .tc main_v67) = mat2 (m ((c.tc : Thread nD τ).loc main_arg4)) :=
  (hostOps2_mat (W4 m ρ c)).trans (congrArg mat2 (W4_arg4 m ρ c))
theorem W5_row0 : W5 (F := Ideal) m ρ c (Proc.devRef .tc main_v78) = asRow (row2 (m ((c.tc : Thread nD τ).loc main_arg5))) :=
  (hostOps2_row0 (W4 m ρ c)).trans (congrArg (fun p => asRow (row2 p)) (W4_arg5 m ρ c))
theorem W5_row1 : W5 (F := Ideal) m ρ c (Proc.devRef .tc main_v79) = asRow (row2 (m ((c.tc : Thread nD τ).loc main_arg6))) :=
  (hostOps2_row1 (W4 m ρ c)).trans (congrArg (fun p => asRow (row2 p)) (W4_arg6 m ρ c))
theorem W5_row2 : W5 (F := Ideal) m ρ c (Proc.devRef .tc main_v80) = asRow (row2 (m ((c.tc : Thread nD τ).loc main_arg7))) :=
  (hostOps2_row2 (W4 m ρ c)).trans (congrArg (fun p => asRow (row2 p)) (W4_arg7 m ρ c))
theorem W5_row3 : W5 (F := Ideal) m ρ c (Proc.devRef .tc main_v81) = asRow (row2 (m ((c.tc : Thread nD τ).loc main_arg8))) :=
  (hostOps2_row3 (W4 m ρ c)).trans (congrArg (fun p => asRow (row2 p)) (W4_arg8 m ρ c))
theorem W5_row4 : W5 (F := Ideal) m ρ c (Proc.devRef .tc main_v82) = asRow (row2 (m ((c.tc : Thread nD τ).loc main_arg9))) :=
  (hostOps2_row4 (W4 m ρ c)).trans (congrArg (fun p => asRow (row2 p)) (W4_arg9 m ρ c))
/-- Layer 2's kernel leaves its features in its output array. -/
theorem W6_out : W6 (F := Ideal) m ρ c (Proc.devRef .tc main_v83) = feat2 m c :=
  (W6_arr m ρ c 7).trans (region2 (V5 m ρ) c _ _ _ _ _ _ _
    (W5_agg m ρ c) (W5_mat m ρ c) (W5_row0 m ρ c) (W5_row1 m ρ c) (W5_row2 m ρ c) (W5_row3 m ρ c) (W5_row4 m ρ c))

/-- The head's stretches leave the last features where the last kernel wrote them. -/
theorem W7_feat : W7 (F := Ideal) m ρ c (Proc.devRef .tc main_v83) = feat2 m c := by
  refine (StableHlo.after_of_forall_not_mem (b := (Proc.devRef .tc main_v83)) _ _ ?_).trans (W6_out m ρ c)
  unwritten
theorem W8_feat : W8 (F := Ideal) m ρ c (Proc.devRef .tc main_v83) = feat2 m c := by
  refine (StableHlo.after_of_forall_not_mem (b := (Proc.devRef .tc main_v83)) _ _ ?_).trans (W7_feat m ρ c)
  unwritten

/-- The class logits of the last features, and their log-softmax. -/
theorem W7_logits : W7 (F := Ideal) m ρ c (Proc.devRef .tc main_v87) = logits (feat2 m c) (m ((c.tc : Thread nD τ).loc main_arg10)) (m ((c.tc : Thread nD τ).loc main_arg11)) :=
  (hostOps3_logits (W6 m ρ c)).trans (by rw [W6_out m ρ c, W6_arg10 m ρ c, W6_arg11 m ρ c])
theorem W8_logSoftmax : W8 (F := Ideal) m ρ c (Proc.devRef .tc main_v88) = logSoftmax (logits (feat2 m c) (m ((c.tc : Thread nD τ).loc main_arg10)) (m ((c.tc : Thread nD τ).loc main_arg11))) :=
  (hostOps3_1_logSoftmax (W7 m ρ c)).trans (congrArg logSoftmax (W7_logits m ρ c))

/-- The result buffer holds the head of the last features. -/
theorem W9_out : W9 (F := Ideal) m ρ c (Proc.devRef .tc main_v107)
    = pooled (weights (entropy (logSoftmax (logits (feat2 m c) (m ((c.tc : Thread nD τ).loc main_arg10)) (m ((c.tc : Thread nD τ).loc main_arg11)))))) (feat2 m c)
        (m ((c.tc : Thread nD τ).loc main_arg3)) (m ((c.tc : Thread nD τ).loc main_arg10)) (m ((c.tc : Thread nD τ).loc main_arg11)) :=
  (hostOps3_2_pooled (W8 m ρ c)).trans (by
    rw [W8_logSoftmax m ρ c, W8_feat m ρ c, W8_arg3 m ρ c, W8_arg10 m ρ c, W8_arg11 m ρ c])

end Run

/-- The kernel program's result buffer holds the network's value at the launch arguments, each layer the layer
    function of its aggregated input. -/
theorem result_eq (m : (ℓ : Loc nD τ sig) → Buf (Elt Ideal) ℓ) (ρ : Dev nD → PrngReg) (c : Dev nD) :
    W9 (F := Ideal) m ρ c (Proc.devRef .tc main_v107)
      = netWith layer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  unfold netWith head
  exact W9_out m ρ c

end Cert.KernelIdeal.Hand

end
-- ==== Proof.RefOps.lean ====
import proofs.«410813_j45140106281501_4_alg».proof.ReferenceIdeal
import proofs.«410813_j45140106281501_4_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- 58 operations: the first layer: aggregation, linear map, batch normalisation, activation. -/
abbrev layer0 : List (HloOp τ sig (Elt F)) :=
  [ StableHlo.nullary main_c (constantI S_ 32 0#32),
    StableHlo.unary main_c main_v0 (broadcastInDim S800000 ![] bcast_S_S800000 : (⟨S_, .i32⟩ : BufTy).Contents (Elt F) → (⟨S800000, .i32⟩ : BufTy).Contents (Elt F)),
    StableHlo.binary main_arg1 main_v0 main_v1 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 100000#32),
    StableHlo.unary main_c_0 main_v2 (broadcastInDim S800000 ![] bcast_S_S800000 : (⟨S_, .i32⟩ : BufTy).Contents (Elt F) → (⟨S800000, .i32⟩ : BufTy).Contents (Elt F)),
    StableHlo.binary main_arg1 main_v2 main_v3 (addi : (⟨S800000, .i32⟩ : BufTy).Contents (Elt F) → (⟨S800000, .i32⟩ : BufTy).Contents (Elt F) → (⟨S800000, .i32⟩ : BufTy).Contents (Elt F)),
    StableHlo.ternary main_v1 main_v3 main_arg1 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v4 main_v5 (broadcastInDim S800000x1 ![0] bcast_S800000_S800000x1_0 : (⟨S800000, .i32⟩ : BufTy).Contents (Elt F) → (⟨S800000x1, .i32⟩ : BufTy).Contents (Elt F)),
    StableHlo.binary main_arg0 main_v5 main_v6 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.nullary main_cst (constant S_ .f32 0x00000000#32),
    StableHlo.unary main_cst main_v7 (broadcastInDim S100000x64 ![] bcast_S_S100000x64 : (⟨S_, .f32⟩ : BufTy).Contents (Elt F) → (⟨S100000x64, .f32⟩ : BufTy).Contents (Elt F)),
    StableHlo.unary main_arg2 main_v8 (broadcastInDim S800000x1 ![0] bcast_S800000_S800000x1_0 : (⟨S800000, .i32⟩ : BufTy).Contents (Elt F) → (⟨S800000x1, .i32⟩ : BufTy).Contents (Elt F)),
    StableHlo.ternary main_v7 main_v8 main_v6 main_v9 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.unary main_arg4 main_v10 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v10 main_v11 rfl shapeCasts_S1x64x64_S64x64,
    StableHlo.binary main_v9 main_v11 main_v12 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v13 ((extractStridedSlice S1x64 ![0, 0] · slices_S3x64_S1x64_0_0) : (⟨S3x64, .f32⟩ : BufTy).Contents (Elt F) → (⟨S1x64, .f32⟩ : BufTy).Contents (Elt F)),
    StableHlo.reshape main_v13 main_v14 rfl shapeCasts_S1x64_S64,
    StableHlo.unary main_v14 main_v15 (broadcastInDim S1x64 ![1] bcast_S64_S1x64_1 : (⟨S64, .f32⟩ : BufTy).Contents (Elt F) → (⟨S1x64, .f32⟩ : BufTy).Contents (Elt F)),
    StableHlo.unary main_v15 main_v16 (broadcastInDim S100000x64 ![0, 1] bcast_S1x64_S100000x64_0_1 : (⟨S1x64, .f32⟩ : BufTy).Contents (Elt F) → (⟨S100000x64, .f32⟩ : BufTy).Contents (Elt F)),
    StableHlo.binary main_v12 main_v16 main_v17 (addf : (⟨S100000x64, .f32⟩ : BufTy).Contents (Elt F) → (⟨S100000x64, .f32⟩ : BufTy).Contents (Elt F) → (⟨S100000x64, .f32⟩ : BufTy).Contents (Elt F)),
    StableHlo.unary main_arg8 main_v18 ((extractStridedSlice S1x64 ![0, 0] · slices_S3x64_S1x64_0_0) : (⟨S3x64, .f32⟩ : BufTy).Contents (Elt F) → (⟨S1x64, .f32⟩ : BufTy).Contents (Elt F)),
    StableHlo.reshape main_v18 main_v19 rfl shapeCasts_S1x64_S64,
    StableHlo.unary main_v19 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S100000x64 ![0, 1] bcast_S1x64_S100000x64_0_1 : (⟨S1x64, .f32⟩ : BufTy).Contents (Elt F) → (⟨S100000x64, .f32⟩ : BufTy).Contents (Elt F)),
    StableHlo.binary main_v17 main_v21 main_v22 (subf : (⟨S100000x64, .f32⟩ : BufTy).Contents (Elt F) → (⟨S100000x64, .f32⟩ : BufTy).Contents (Elt F) → (⟨S100000x64, .f32⟩ : BufTy).Contents (Elt F)),
    StableHlo.unary main_arg6 main_v23 ((extractStridedSlice S1x64 ![0, 0] · slices_S3x64_S1x64_0_0) : (⟨S3x64, .f32⟩ : BufTy).Contents (Elt F) → (⟨S1x64, .f32⟩ : BufTy).Contents (Elt F)),
    StableHlo.reshape main_v23 main_v24 rfl shapeCasts_S1x64_S64,
    StableHlo.unary main_arg9 main_v25 ((extractStridedSlice S1x64 ![0, 0] · slices_S3x64_S1x64_0_0) : (⟨S3x64, .f32⟩ : BufTy).Contents (Elt F) → (⟨S1x64, .f32⟩ : BufTy).Contents (Elt F)),
    StableHlo.reshape main_v25 main_v26 rfl shapeCasts_S1x64_S64,
    StableHlo.nullary main_cst_1 (constant S_ .f32 0x3727C5AC#32),
    StableHlo.unary main_cst_1 main_v27 (broadcastInDim S64 ![] bcast_S_S64 : (⟨S_, .f32⟩ : BufTy).Contents (Elt F) → (⟨S64, .f32⟩ : BufTy).Contents (Elt F)),
    StableHlo.binary main_v26 main_v27 main_v28 (addf : (⟨S64, .f32⟩ : BufTy).Contents (Elt F) → (⟨S64, .f32⟩ : BufTy).Contents (Elt F) → (⟨S64, .f32⟩ : BufTy).Contents (Elt F)),
    StableHlo.unary main_v28 main_v29 (Host.sqrt : (⟨S64, .f32⟩ : BufTy).Contents (Elt F) → (⟨S64, .f32⟩ : BufTy).Contents (Elt F)),
    StableHlo.binary main_v24 main_v29 main_v30 (Host.divf : (⟨S64, .f32⟩ : BufTy).Contents (Elt F) → (⟨S64, .f32⟩ : BufTy).Contents (Elt F) → (⟨S64, .f32⟩ : BufTy).Contents (Elt F)),
    StableHlo.unary main_v30 main_v31 (broadcastInDim S1x64 ![1] bcast_S64_S1x64_1 : (⟨S64, .f32⟩ : BufTy).Contents (Elt F) → (⟨S1x64, .f32⟩ : BufTy).Contents (Elt F)),
    StableHlo.unary main_v31 main_v32 (broadcastInDim S100000x64 ![0, 1] bcast_S1x64_S100000x64_0_1 : (⟨S1x64, .f32⟩ : BufTy).Contents (Elt F) → (⟨S100000x64, .f32⟩ : BufTy).Contents (Elt F)),
    StableHlo.binary main_v22 main_v32 main_v33 (mulf : (⟨S100000x64, .f32⟩ : BufTy).Contents (Elt F) → (⟨S100000x64, .f32⟩ : BufTy).Contents (Elt F) → (⟨S100000x64, .f32⟩ : BufTy).Contents (Elt F)),
    StableHlo.unary main_arg7 main_v34 ((extractStridedSlice S1x64 ![0, 0] · slices_S3x64_S1x64_0_0) : (⟨S3x64, .f32⟩ : BufTy).Contents (Elt F) → (⟨S1x64, .f32⟩ : BufTy).Contents (Elt F)),
    StableHlo.reshape main_v34 main_v35 rfl shapeCasts_S1x64_S64,
    StableHlo.unary main_v35 main_v36 (broadcastInDim S1x64 ![1] bcast_S64_S1x64_1 : (⟨S64, .f32⟩ : BufTy).Contents (Elt F) → (⟨S1x64, .f32⟩ : BufTy).Contents (Elt F)),
    StableHlo.unary main_v36 main_v37 (broadcastInDim S100000x64 ![0, 1] bcast_S1x64_S100000x64_0_1 : (⟨S1x64, .f32⟩ : BufTy).Contents (Elt F) → (⟨S100000x64, .f32⟩ : BufTy).Contents (Elt F)),
    StableHlo.binary main_v33 main_v37 main_v38 (addf : (⟨S100000x64, .f32⟩ : BufTy).Contents (Elt F) → (⟨S100000x64, .f32⟩ : BufTy).Contents (Elt F) → (⟨S100000x64, .f32⟩ : BufTy).Contents (Elt F)),
    StableHlo.TRef.nullary main_call0.cst (constant S_ .f32 0x00000000#32),
    StableHlo.TRef.unary main_call0.cst main_call0.v0 (broadcastInDim S100000x64 ![] bcast_S_S100000x64),
    StableHlo.TRef.binary (.of main_v38 : StableHlo.TRef sig ⟨S100000x64, .f32⟩) main_call0.v0 main_call0.v1 (cmpf .ogt),
    StableHlo.TRef.nullary main_call0.cst_0 (constant S_ .f32 0x00000000#32),
    StableHlo.TRef.unary main_call0.cst_0 main_call0.v2 (broadcastInDim S100000x64 ![] bcast_S_S100000x64),
    StableHlo.TRef.binary (.of main_v38 : StableHlo.TRef sig ⟨S100000x64, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S100000x64 ![] bcast_S_S100000x64),
    StableHlo.TRef.ternary main_call0.v3 main_call0.call0.v1 (.of main_v38 : StableHlo.TRef sig ⟨S100000x64, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S100000x64 ![] bcast_S_S100000x64),
    StableHlo.TRef.binary main_call0.v6 main_call0.v5 main_call0.v7 mulf,
    StableHlo.TRef.ternary main_call0.v1 (.of main_v38 : StableHlo.TRef sig ⟨S100000x64, .f32⟩) main_call0.v7 main_call0.call1.v0 select ]
theorem layer0_sub : (layer0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- 58 operations: the second layer. -/
abbrev layer1 : List (HloOp τ sig (Elt F)) :=
  [ StableHlo.nullary main_c_2 (constantI S_ 32 0#32),
    StableHlo.unary main_c_2 main_v40 (broadcastInDim S800000 ![] bcast_S_S800000 : (⟨S_, .i32⟩ : BufTy).Contents (Elt F) → (⟨S800000, .i32⟩ : BufTy).Contents (Elt F)),
    StableHlo.binary main_arg1 main_v40 main_v41 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 100000#32),
    StableHlo.unary main_c_3 main_v42 (broadcastInDim S800000 ![] bcast_S_S800000 : (⟨S_, .i32⟩ : BufTy).Contents (Elt F) → (⟨S800000, .i32⟩ : BufTy).Contents (Elt F)),
    StableHlo.binary main_arg1 main_v42 main_v43 (addi : (⟨S800000, .i32⟩ : BufTy).Contents (Elt F) → (⟨S800000, .i32⟩ : BufTy).Contents (Elt F) → (⟨S800000, .i32⟩ : BufTy).Contents (Elt F)),
    StableHlo.ternary main_v41 main_v43 main_arg1 main_v44 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v44 main_v45 (broadcastInDim S800000x1 ![0] bcast_S800000_S800000x1_0 : (⟨S800000, .i32⟩ : BufTy).Contents (Elt F) → (⟨S800000x1, .i32⟩ : BufTy).Contents (Elt F)),
    StableHlo.binary main_v39 main_v45 main_v46 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.nullary main_cst_4 (constant S_ .f32 0x00000000#32),
    StableHlo.unary main_cst_4 main_v47 (broadcastInDim S100000x64 ![] bcast_S_S100000x64 : (⟨S_, .f32⟩ : BufTy).Contents (Elt F) → (⟨S100000x64, .f32⟩ : BufTy).Contents (Elt F)),
    StableHlo.unary main_arg2 main_v48 (broadcastInDim S800000x1 ![0] bcast_S800000_S800000x1_0 : (⟨S800000, .i32⟩ : BufTy).Contents (Elt F) → (⟨S800000x1, .i32⟩ : BufTy).Contents (Elt F)),
    StableHlo.ternary main_v47 main_v48 main_v46 main_v49 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.unary main_arg4 main_v50 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v50 main_v51 rfl shapeCasts_S1x64x64_S64x64,
    StableHlo.binary main_v49 main_v51 main_v52 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v53 ((extractStridedSlice S1x64 ![1, 0] · slices_S3x64_S1x64_1_0) : (⟨S3x64, .f32⟩ : BufTy).Contents (Elt F) → (⟨S1x64, .f32⟩ : BufTy).Contents (Elt F)),
    StableHlo.reshape main_v53 main_v54 rfl shapeCasts_S1x64_S64,
    StableHlo.unary main_v54 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S100000x64 ![0, 1] bcast_S1x64_S100000x64_0_1 : (⟨S1x64, .f32⟩ : BufTy).Contents (Elt F) → (⟨S100000x64, .f32⟩ : BufTy).Contents (Elt F)),
    StableHlo.binary main_v52 main_v56 main_v57 (addf : (⟨S100000x64, .f32⟩ : BufTy).Contents (Elt F) → (⟨S100000x64, .f32⟩ : BufTy).Contents (Elt F) → (⟨S100000x64, .f32⟩ : BufTy).Contents (Elt F)),
    StableHlo.unary main_arg8 main_v58 ((extractStridedSlice S1x64 ![1, 0] · slices_S3x64_S1x64_1_0) : (⟨S3x64, .f32⟩ : BufTy).Contents (Elt F) → (⟨S1x64, .f32⟩ : BufTy).Contents (Elt F)),
    StableHlo.reshape main_v58 main_v59 rfl shapeCasts_S1x64_S64,
    StableHlo.unary main_v59 main_v60 (broadcastInDim S1x64 ![1] bcast_S64_S1x64_1 : (⟨S64, .f32⟩ : BufTy).Contents (Elt F) → (⟨S1x64, .f32⟩ : BufTy).Contents (Elt F)),
    StableHlo.unary main_v60 main_v61 (broadcastInDim S100000x64 ![0, 1] bcast_S1x64_S100000x64_0_1 : (⟨S1x64, .f32⟩ : BufTy).Contents (Elt F) → (⟨S100000x64, .f32⟩ : BufTy).Contents (Elt F)),
    StableHlo.binary main_v57 main_v61 main_v62 (subf : (⟨S100000x64, .f32⟩ : BufTy).Contents (Elt F) → (⟨S100000x64, .f32⟩ : BufTy).Contents (Elt F) → (⟨S100000x64, .f32⟩ : BufTy).Contents (Elt F)),
    StableHlo.unary main_arg6 main_v63 ((extractStridedSlice S1x64 ![1, 0] · slices_S3x64_S1x64_1_0) : (⟨S3x64, .f32⟩ : BufTy).Contents (Elt F) → (⟨S1x64, .f32⟩ : BufTy).Contents (Elt F)),
    StableHlo.reshape main_v63 main_v64 rfl shapeCasts_S1x64_S64,
    StableHlo.unary main_arg9 main_v65 ((extractStridedSlice S1x64 ![1, 0] · slices_S3x64_S1x64_1_0) : (⟨S3x64, .f32⟩ : BufTy).Contents (Elt F) → (⟨S1x64, .f32⟩ : BufTy).Contents (Elt F)),
    StableHlo.reshape main_v65 main_v66 rfl shapeCasts_S1x64_S64,
    StableHlo.nullary main_cst_5 (constant S_ .f32 0x3727C5AC#32),
    StableHlo.unary main_cst_5 main_v67 (broadcastInDim S64 ![] bcast_S_S64 : (⟨S_, .f32⟩ : BufTy).Contents (Elt F) → (⟨S64, .f32⟩ : BufTy).Contents (Elt F)),
    StableHlo.binary main_v66 main_v67 main_v68 (addf : (⟨S64, .f32⟩ : BufTy).Contents (Elt F) → (⟨S64, .f32⟩ : BufTy).Contents (Elt F) → (⟨S64, .f32⟩ : BufTy).Contents (Elt F)),
    StableHlo.unary main_v68 main_v69 (Host.sqrt : (⟨S64, .f32⟩ : BufTy).Contents (Elt F) → (⟨S64, .f32⟩ : BufTy).Contents (Elt F)),
    StableHlo.binary main_v64 main_v69 main_v70 (Host.divf : (⟨S64, .f32⟩ : BufTy).Contents (Elt F) → (⟨S64, .f32⟩ : BufTy).Contents (Elt F) → (⟨S64, .f32⟩ : BufTy).Contents (Elt F)),
    StableHlo.unary main_v70 main_v71 (broadcastInDim S1x64 ![1] bcast_S64_S1x64_1 : (⟨S64, .f32⟩ : BufTy).Contents (Elt F) → (⟨S1x64, .f32⟩ : BufTy).Contents (Elt F)),
    StableHlo.unary main_v71 main_v72 (broadcastInDim S100000x64 ![0, 1] bcast_S1x64_S100000x64_0_1 : (⟨S1x64, .f32⟩ : BufTy).Contents (Elt F) → (⟨S100000x64, .f32⟩ : BufTy).Contents (Elt F)),
    StableHlo.binary main_v62 main_v72 main_v73 (mulf : (⟨S100000x64, .f32⟩ : BufTy).Contents (Elt F) → (⟨S100000x64, .f32⟩ : BufTy).Contents (Elt F) → (⟨S100000x64, .f32⟩ : BufTy).Contents (Elt F)),
    StableHlo.unary main_arg7 main_v74 ((extractStridedSlice S1x64 ![1, 0] · slices_S3x64_S1x64_1_0) : (⟨S3x64, .f32⟩ : BufTy).Contents (Elt F) → (⟨S1x64, .f32⟩ : BufTy).Contents (Elt F)),
    StableHlo.reshape main_v74 main_v75 rfl shapeCasts_S1x64_S64,
    StableHlo.unary main_v75 main_v76 (broadcastInDim S1x64 ![1] bcast_S64_S1x64_1 : (⟨S64, .f32⟩ : BufTy).Contents (Elt F) → (⟨S1x64, .f32⟩ : BufTy).Contents (Elt F)),
    StableHlo.unary main_v76 main_v77 (broadcastInDim S100000x64 ![0, 1] bcast_S1x64_S100000x64_0_1 : (⟨S1x64, .f32⟩ : BufTy).Contents (Elt F) → (⟨S100000x64, .f32⟩ : BufTy).Contents (Elt F)),
    StableHlo.binary main_v73 main_v77 main_v78 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v78 : StableHlo.TRef sig ⟨S100000x64, .f32⟩) main_call1.v0 main_call1.v1 (cmpf .ogt),
    StableHlo.TRef.nullary main_call1.cst_0 (constant S_ .f32 0x00000000#32),
    StableHlo.TRef.unary main_call1.cst_0 main_call1.v2 (broadcastInDim S100000x64 ![] bcast_S_S100000x64),
    StableHlo.TRef.binary (.of main_v78 : StableHlo.TRef sig ⟨S100000x64, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x64 ![] bcast_S_S100000x64),
    StableHlo.TRef.ternary main_call1.v3 main_call1.call0.v1 (.of main_v78 : StableHlo.TRef sig ⟨S100000x64, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x64 ![] bcast_S_S100000x64),
    StableHlo.TRef.binary main_call1.v6 main_call1.v5 main_call1.v7 mulf,
    StableHlo.TRef.ternary main_call1.v1 (.of main_v78 : StableHlo.TRef sig ⟨S100000x64, .f32⟩) main_call1.v7 main_call1.call1.v0 select ]
theorem layer1_sub : (layer1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- 58 operations: the third layer. -/
abbrev layer2 : List (HloOp τ sig (Elt F)) :=
  [ StableHlo.nullary main_c_6 (constantI S_ 32 0#32),
    StableHlo.unary main_c_6 main_v80 (broadcastInDim S800000 ![] bcast_S_S800000 : (⟨S_, .i32⟩ : BufTy).Contents (Elt F) → (⟨S800000, .i32⟩ : BufTy).Contents (Elt F)),
    StableHlo.binary main_arg1 main_v80 main_v81 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 100000#32),
    StableHlo.unary main_c_7 main_v82 (broadcastInDim S800000 ![] bcast_S_S800000 : (⟨S_, .i32⟩ : BufTy).Contents (Elt F) → (⟨S800000, .i32⟩ : BufTy).Contents (Elt F)),
    StableHlo.binary main_arg1 main_v82 main_v83 (addi : (⟨S800000, .i32⟩ : BufTy).Contents (Elt F) → (⟨S800000, .i32⟩ : BufTy).Contents (Elt F) → (⟨S800000, .i32⟩ : BufTy).Contents (Elt F)),
    StableHlo.ternary main_v81 main_v83 main_arg1 main_v84 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v84 main_v85 (broadcastInDim S800000x1 ![0] bcast_S800000_S800000x1_0 : (⟨S800000, .i32⟩ : BufTy).Contents (Elt F) → (⟨S800000x1, .i32⟩ : BufTy).Contents (Elt F)),
    StableHlo.binary main_v79 main_v85 main_v86 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.nullary main_cst_8 (constant S_ .f32 0x00000000#32),
    StableHlo.unary main_cst_8 main_v87 (broadcastInDim S100000x64 ![] bcast_S_S100000x64 : (⟨S_, .f32⟩ : BufTy).Contents (Elt F) → (⟨S100000x64, .f32⟩ : BufTy).Contents (Elt F)),
    StableHlo.unary main_arg2 main_v88 (broadcastInDim S800000x1 ![0] bcast_S800000_S800000x1_0 : (⟨S800000, .i32⟩ : BufTy).Contents (Elt F) → (⟨S800000x1, .i32⟩ : BufTy).Contents (Elt F)),
    StableHlo.ternary main_v87 main_v88 main_v86 main_v89 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.unary main_arg4 main_v90 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v90 main_v91 rfl shapeCasts_S1x64x64_S64x64,
    StableHlo.binary main_v89 main_v91 main_v92 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v93 ((extractStridedSlice S1x64 ![2, 0] · slices_S3x64_S1x64_2_0) : (⟨S3x64, .f32⟩ : BufTy).Contents (Elt F) → (⟨S1x64, .f32⟩ : BufTy).Contents (Elt F)),
    StableHlo.reshape main_v93 main_v94 rfl shapeCasts_S1x64_S64,
    StableHlo.unary main_v94 main_v95 (broadcastInDim S1x64 ![1] bcast_S64_S1x64_1 : (⟨S64, .f32⟩ : BufTy).Contents (Elt F) → (⟨S1x64, .f32⟩ : BufTy).Contents (Elt F)),
    StableHlo.unary main_v95 main_v96 (broadcastInDim S100000x64 ![0, 1] bcast_S1x64_S100000x64_0_1 : (⟨S1x64, .f32⟩ : BufTy).Contents (Elt F) → (⟨S100000x64, .f32⟩ : BufTy).Contents (Elt F)),
    StableHlo.binary main_v92 main_v96 main_v97 (addf : (⟨S100000x64, .f32⟩ : BufTy).Contents (Elt F) → (⟨S100000x64, .f32⟩ : BufTy).Contents (Elt F) → (⟨S100000x64, .f32⟩ : BufTy).Contents (Elt F)),
    StableHlo.unary main_arg8 main_v98 ((extractStridedSlice S1x64 ![2, 0] · slices_S3x64_S1x64_2_0) : (⟨S3x64, .f32⟩ : BufTy).Contents (Elt F) → (⟨S1x64, .f32⟩ : BufTy).Contents (Elt F)),
    StableHlo.reshape main_v98 main_v99 rfl shapeCasts_S1x64_S64,
    StableHlo.unary main_v99 main_v100 (broadcastInDim S1x64 ![1] bcast_S64_S1x64_1 : (⟨S64, .f32⟩ : BufTy).Contents (Elt F) → (⟨S1x64, .f32⟩ : BufTy).Contents (Elt F)),
    StableHlo.unary main_v100 main_v101 (broadcastInDim S100000x64 ![0, 1] bcast_S1x64_S100000x64_0_1 : (⟨S1x64, .f32⟩ : BufTy).Contents (Elt F) → (⟨S100000x64, .f32⟩ : BufTy).Contents (Elt F)),
    StableHlo.binary main_v97 main_v101 main_v102 (subf : (⟨S100000x64, .f32⟩ : BufTy).Contents (Elt F) → (⟨S100000x64, .f32⟩ : BufTy).Contents (Elt F) → (⟨S100000x64, .f32⟩ : BufTy).Contents (Elt F)),
    StableHlo.unary main_arg6 main_v103 ((extractStridedSlice S1x64 ![2, 0] · slices_S3x64_S1x64_2_0) : (⟨S3x64, .f32⟩ : BufTy).Contents (Elt F) → (⟨S1x64, .f32⟩ : BufTy).Contents (Elt F)),
    StableHlo.reshape main_v103 main_v104 rfl shapeCasts_S1x64_S64,
    StableHlo.unary main_arg9 main_v105 ((extractStridedSlice S1x64 ![2, 0] · slices_S3x64_S1x64_2_0) : (⟨S3x64, .f32⟩ : BufTy).Contents (Elt F) → (⟨S1x64, .f32⟩ : BufTy).Contents (Elt F)),
    StableHlo.reshape main_v105 main_v106 rfl shapeCasts_S1x64_S64,
    StableHlo.nullary main_cst_9 (constant S_ .f32 0x3727C5AC#32),
    StableHlo.unary main_cst_9 main_v107 (broadcastInDim S64 ![] bcast_S_S64 : (⟨S_, .f32⟩ : BufTy).Contents (Elt F) → (⟨S64, .f32⟩ : BufTy).Contents (Elt F)),
    StableHlo.binary main_v106 main_v107 main_v108 (addf : (⟨S64, .f32⟩ : BufTy).Contents (Elt F) → (⟨S64, .f32⟩ : BufTy).Contents (Elt F) → (⟨S64, .f32⟩ : BufTy).Contents (Elt F)),
    StableHlo.unary main_v108 main_v109 (Host.sqrt : (⟨S64, .f32⟩ : BufTy).Contents (Elt F) → (⟨S64, .f32⟩ : BufTy).Contents (Elt F)),
    StableHlo.binary main_v104 main_v109 main_v110 (Host.divf : (⟨S64, .f32⟩ : BufTy).Contents (Elt F) → (⟨S64, .f32⟩ : BufTy).Contents (Elt F) → (⟨S64, .f32⟩ : BufTy).Contents (Elt F)),
    StableHlo.unary main_v110 main_v111 (broadcastInDim S1x64 ![1] bcast_S64_S1x64_1 : (⟨S64, .f32⟩ : BufTy).Contents (Elt F) → (⟨S1x64, .f32⟩ : BufTy).Contents (Elt F)),
    StableHlo.unary main_v111 main_v112 (broadcastInDim S100000x64 ![0, 1] bcast_S1x64_S100000x64_0_1 : (⟨S1x64, .f32⟩ : BufTy).Contents (Elt F) → (⟨S100000x64, .f32⟩ : BufTy).Contents (Elt F)),
    StableHlo.binary main_v102 main_v112 main_v113 (mulf : (⟨S100000x64, .f32⟩ : BufTy).Contents (Elt F) → (⟨S100000x64, .f32⟩ : BufTy).Contents (Elt F) → (⟨S100000x64, .f32⟩ : BufTy).Contents (Elt F)),
    StableHlo.unary main_arg7 main_v114 ((extractStridedSlice S1x64 ![2, 0] · slices_S3x64_S1x64_2_0) : (⟨S3x64, .f32⟩ : BufTy).Contents (Elt F) → (⟨S1x64, .f32⟩ : BufTy).Contents (Elt F)),
    StableHlo.reshape main_v114 main_v115 rfl shapeCasts_S1x64_S64,
    StableHlo.unary main_v115 main_v116 (broadcastInDim S1x64 ![1] bcast_S64_S1x64_1 : (⟨S64, .f32⟩ : BufTy).Contents (Elt F) → (⟨S1x64, .f32⟩ : BufTy).Contents (Elt F)),
    StableHlo.unary main_v116 main_v117 (broadcastInDim S100000x64 ![0, 1] bcast_S1x64_S100000x64_0_1 : (⟨S1x64, .f32⟩ : BufTy).Contents (Elt F) → (⟨S100000x64, .f32⟩ : BufTy).Contents (Elt F)),
    StableHlo.binary main_v113 main_v117 main_v118 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S100000x64 ![] bcast_S_S100000x64),
    StableHlo.TRef.binary (.of main_v118 : StableHlo.TRef sig ⟨S100000x64, .f32⟩) main_call2.v0 main_call2.v1 (cmpf .ogt),
    StableHlo.TRef.nullary main_call2.cst_0 (constant S_ .f32 0x00000000#32),
    StableHlo.TRef.unary main_call2.cst_0 main_call2.v2 (broadcastInDim S100000x64 ![] bcast_S_S100000x64),
    StableHlo.TRef.binary (.of main_v118 : StableHlo.TRef sig ⟨S100000x64, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x64 ![] bcast_S_S100000x64),
    StableHlo.TRef.ternary main_call2.v3 main_call2.call0.v1 (.of main_v118 : StableHlo.TRef sig ⟨S100000x64, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x64 ![] bcast_S_S100000x64),
    StableHlo.TRef.binary main_call2.v6 main_call2.v5 main_call2.v7 mulf,
    StableHlo.TRef.ternary main_call2.v1 (.of main_v118 : StableHlo.TRef sig ⟨S100000x64, .f32⟩) main_call2.v7 main_call2.call1.v0 select ]
theorem layer2_sub : (layer2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- 42 operations: the head: logits, log-softmax, entropy weights, pooling per graph, classification. -/
abbrev headOps : List (HloOp τ sig (Elt F)) :=
  [ StableHlo.binary main_v119 main_arg10 main_v120 ((fun l r => Host.dotGeneral dot_S100000x64_S64x10_S100000x10_1_0_0_1_n_n none l r) : (⟨S100000x64, .f32⟩ : BufTy).Contents (Elt F) → (⟨S64x10, .f32⟩ : BufTy).Contents (Elt F) → (⟨S100000x10, .f32⟩ : BufTy).Contents (Elt F)),
    StableHlo.unary main_arg11 main_v121 (broadcastInDim S1x10 ![1] bcast_S10_S1x10_1 : (⟨S10, .f32⟩ : BufTy).Contents (Elt F) → (⟨S1x10, .f32⟩ : BufTy).Contents (Elt F)),
    StableHlo.unary main_v121 main_v122 (broadcastInDim S100000x10 ![0, 1] bcast_S1x10_S100000x10_0_1 : (⟨S1x10, .f32⟩ : BufTy).Contents (Elt F) → (⟨S100000x10, .f32⟩ : BufTy).Contents (Elt F)),
    StableHlo.binary main_v120 main_v122 main_v123 (addf : (⟨S100000x10, .f32⟩ : BufTy).Contents (Elt F) → (⟨S100000x10, .f32⟩ : BufTy).Contents (Elt F) → (⟨S100000x10, .f32⟩ : BufTy).Contents (Elt F)),
    StableHlo.TRef.nullary main_call3.cst (constant S_ .f32 0xFF800000#32),
    StableHlo.TRef.binary (.of main_v123 : StableHlo.TRef sig ⟨S100000x10, .f32⟩) main_call3.cst main_call3.v0 (fun x v => Host.reduce FloatOps.maximumf x v reducesTo_S100000x10_S100000_d1 h_S_),
    StableHlo.TRef.nullary main_call3.cst_0 (constant S_ .f32 0xFF800000#32),
    StableHlo.TRef.unary main_call3.cst_0 main_call3.v1 (broadcastInDim S100000 ![] bcast_S_S100000),
    StableHlo.TRef.binary main_call3.v1 main_call3.v0 main_call3.v2 maximumf,
    StableHlo.TRef.unary main_call3.v2 main_call3.v3 (broadcastInDim S100000x1 ![0] bcast_S100000_S100000x1_0),
    StableHlo.TRef.unary main_call3.v3 main_call3.v4 (broadcastInDim S100000x10 ![0, 1] bcast_S100000x1_S100000x10_0_1),
    StableHlo.TRef.binary (.of main_v123 : StableHlo.TRef sig ⟨S100000x10, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S100000x10_S100000_d1 h_S_),
    StableHlo.TRef.unary main_call3.v7 main_call3.v8 (broadcastInDim S100000x1 ![0] bcast_S100000_S100000x1_0),
    StableHlo.TRef.unary main_call3.v8 main_call3.v9 Host.log,
    StableHlo.TRef.unary main_call3.v9 main_call3.v10 (broadcastInDim S100000x10 ![0, 1] bcast_S100000x1_S100000x10_0_1),
    StableHlo.TRef.binary main_call3.v5 main_call3.v10 main_call3.v11 subf,
    StableHlo.unary main_v124 main_v125 (Host.exp : (⟨S100000x10, .f32⟩ : BufTy).Contents (Elt F) → (⟨S100000x10, .f32⟩ : BufTy).Contents (Elt F)),
    StableHlo.binary main_v125 main_v124 main_v126 (mulf : (⟨S100000x10, .f32⟩ : BufTy).Contents (Elt F) → (⟨S100000x10, .f32⟩ : BufTy).Contents (Elt F) → (⟨S100000x10, .f32⟩ : BufTy).Contents (Elt F)),
    StableHlo.nullary main_cst_10 (constant S_ .f32 0x00000000#32),
    StableHlo.binary main_v126 main_cst_10 main_v127 ((fun x v => Host.reduceAdd x v reducesTo_S100000x10_S100000_d1 h_S_) : (⟨S100000x10, .f32⟩ : BufTy).Contents (Elt F) → (⟨S_, .f32⟩ : BufTy).Contents (Elt F) → (⟨S100000, .f32⟩ : BufTy).Contents (Elt F)),
    StableHlo.unary main_v127 main_v128 (Host.negf : (⟨S100000, .f32⟩ : BufTy).Contents (Elt F) → (⟨S100000, .f32⟩ : BufTy).Contents (Elt F)),
    StableHlo.nullary main_cst_11 (constant S_ .f32 0xFF800000#32),
    StableHlo.binary main_v128 main_cst_11 main_v129 ((fun x v => Host.reduce FloatOps.maximumf x v reducesTo_S100000_S_d0 h_S_) : (⟨S100000, .f32⟩ : BufTy).Contents (Elt F) → (⟨S_, .f32⟩ : BufTy).Contents (Elt F) → (⟨S_, .f32⟩ : BufTy).Contents (Elt F)),
    StableHlo.unary main_v129 main_v130 (broadcastInDim S100000 ![] bcast_S_S100000 : (⟨S_, .f32⟩ : BufTy).Contents (Elt F) → (⟨S100000, .f32⟩ : BufTy).Contents (Elt F)),
    StableHlo.binary main_v128 main_v130 main_v131 (Host.divf : (⟨S100000, .f32⟩ : BufTy).Contents (Elt F) → (⟨S100000, .f32⟩ : BufTy).Contents (Elt F) → (⟨S100000, .f32⟩ : BufTy).Contents (Elt F)),
    StableHlo.nullary main_cst_12 (constant S_ .f32 0x3F800000#32),
    StableHlo.unary main_cst_12 main_v132 (broadcastInDim S100000 ![] bcast_S_S100000 : (⟨S_, .f32⟩ : BufTy).Contents (Elt F) → (⟨S100000, .f32⟩ : BufTy).Contents (Elt F)),
    StableHlo.binary main_v132 main_v131 main_v133 (subf : (⟨S100000, .f32⟩ : BufTy).Contents (Elt F) → (⟨S100000, .f32⟩ : BufTy).Contents (Elt F) → (⟨S100000, .f32⟩ : BufTy).Contents (Elt F)),
    StableHlo.unary main_v133 main_v134 (broadcastInDim S100000x1 ![0] bcast_S100000_S100000x1_0 : (⟨S100000, .f32⟩ : BufTy).Contents (Elt F) → (⟨S100000x1, .f32⟩ : BufTy).Contents (Elt F)),
    StableHlo.unary main_v134 main_v135 (broadcastInDim S100000x64 ![0, 1] bcast_S100000x1_S100000x64_0_1 : (⟨S100000x1, .f32⟩ : BufTy).Contents (Elt F) → (⟨S100000x64, .f32⟩ : BufTy).Contents (Elt F)),
    StableHlo.binary main_v135 main_v119 main_v136 (mulf : (⟨S100000x64, .f32⟩ : BufTy).Contents (Elt F) → (⟨S100000x64, .f32⟩ : BufTy).Contents (Elt F) → (⟨S100000x64, .f32⟩ : BufTy).Contents (Elt F)),
    StableHlo.nullary main_cst_13 (constant S_ .f32 0x00000000#32),
    StableHlo.unary main_cst_13 main_v137 (broadcastInDim S500x64 ![] bcast_S_S500x64 : (⟨S_, .f32⟩ : BufTy).Contents (Elt F) → (⟨S500x64, .f32⟩ : BufTy).Contents (Elt F)),
    StableHlo.unary main_arg3 main_v138 (broadcastInDim S100000x1 ![0] bcast_S100000_S100000x1_0 : (⟨S100000, .i32⟩ : BufTy).Contents (Elt F) → (⟨S100000x1, .i32⟩ : BufTy).Contents (Elt F)),
    StableHlo.ternary main_v137 main_v138 main_v136 main_v139 ((fun x i u => Host.scatterAdd scatter_S500x64_S100000x1_S100000x64_1_0_0_1 x i u) : (⟨S500x64, .f32⟩ : BufTy).Contents (Elt F) → (⟨S100000x1, .i32⟩ : BufTy).Contents (Elt F) → (⟨S100000x64, .f32⟩ : BufTy).Contents (Elt F) → (⟨S500x64, .f32⟩ : BufTy).Contents (Elt F)),
    StableHlo.binary main_v139 main_arg10 main_v140 ((fun l r => Host.dotGeneral dot_S500x64_S64x10_S500x10_1_0_0_1_n_n none l r) : (⟨S500x64, .f32⟩ : BufTy).Contents (Elt F) → (⟨S64x10, .f32⟩ : BufTy).Contents (Elt F) → (⟨S500x10, .f32⟩ : BufTy).Contents (Elt F)),
    StableHlo.unary main_arg11 main_v141 (broadcastInDim S1x10 ![1] bcast_S10_S1x10_1 : (⟨S10, .f32⟩ : BufTy).Contents (Elt F) → (⟨S1x10, .f32⟩ : BufTy).Contents (Elt F)),
    StableHlo.unary main_v141 main_v142 (broadcastInDim S500x10 ![0, 1] bcast_S1x10_S500x10_0_1 : (⟨S1x10, .f32⟩ : BufTy).Contents (Elt F) → (⟨S500x10, .f32⟩ : BufTy).Contents (Elt F)),
    StableHlo.binary main_v140 main_v142 main_v143 (addf : (⟨S500x10, .f32⟩ : BufTy).Contents (Elt F) → (⟨S500x10, .f32⟩ : BufTy).Contents (Elt F) → (⟨S500x10, .f32⟩ : BufTy).Contents (Elt F)) ]
theorem headOps_sub : (headOps : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., binary_bufs_sub .., nullary_bufs_sub .., binary_bufs_sub .., unary_bufs_sub .., nullary_bufs_sub .., binary_bufs_sub .., unary_bufs_sub .., binary_bufs_sub .., nullary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub ..⟩

end Cert.ReferenceIdeal.Ops

end
-- ==== Proof.RefRun.lean ====
/-
  The reference program runs as the straight line of its host operations: unfolding the three windows of @main and the
  bodies of the functions it calls (`elu`, the two `where`s inside it, `log_softmax`) at their calls leaves one chain of
  host steps, the concatenation of the four lists. Every weakly fair execution therefore terminates with each buffer at
  the fold of the operations over the launch memory, and the fold over a concatenation is the folds one after another.
-/
import proofs.«410813_j45140106281501_4_alg».proof.Proof.RefOps

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- All of @main's operations, in order. -/
abbrev ops : List (HloOp τ sig (Elt F)) := layer0 ++ layer1 ++ layer2 ++ headOps

/-- The fold of a concatenation is the fold of its second part over the fold of its first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem after_ops (V : Valuation τ sig (Elt F)) :
    after ops V = after headOps (after layer2 (after layer1 (after layer0 V))) := by
  simp only [ops, after_append]

set_option maxRecDepth 8192 in
set_option maxHeartbeats 4000000 in
theorem main_eq (c : Dev nD) : main (F := F) c = seq ops := by
  simp only [main, main_part0, main_part1, main_part2, fn_elu.body, fn_where.body, fn_where_0.body, fn_log_softmax.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with ((h | h) | h) | h
    · exact List.forall_iff_forall_mem.mp layer0_sub op h
    · exact List.forall_iff_forall_mem.mp layer1_sub op h
    · exact List.forall_iff_forall_mem.mp layer2_sub op h
    · exact List.forall_iff_forall_mem.mp headOps_sub op h

/-- From any memory with zero counters every weakly fair execution of @main terminates, and every final state has each
    TensorCore buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Ops

end
-- ==== Proof.RefSpec.lean ====
/-
  The reference program's layer, as the host operations it is printed with: the product with the weight matrix by
  `dot_general`, the five per-feature parameters broadcast over the nodes, the scale `γ / sqrt (σ² + ε)` by a square root
  and a quotient, and jax's `elu` (a select between `x` and `1 · expm1 (select (x > 0) 0 x)`).
-/
import proofs.«410813_j45140106281501_4_alg».proof.ReferenceIdeal
import proofs.«410813_j45140106281501_4_alg».proof.Proof.Gen.ReferenceIdeal
import proofs.«410813_j45140106281501_4_alg».proof.Proof.Spec

noncomputable section

namespace Cert.RefBridge

open Idealize.ShloMosaic Idealize.ShloMosaic.ValueIdx Cert.ReferenceIdeal Cert.ReferenceIdeal.Facts₀ Cert.ReferenceIdeal.Facts

/-- A vector of 64 repeated along the 100000 nodes. -/
def overNodes (p : FVec Ideal S64 .f32) : FVec Ideal S100000x64 .f32 :=
  broadcastInDim S100000x64 ![0, 1] bcast_S1x64_S100000x64_0_1 (broadcastInDim S1x64 ![1] bcast_S64_S1x64_1 p)

/-- jax's `elu` as lowered: `select (x > 0) x (1 · expm1 (select (x > 0) 0 x))`. -/
def eluHost (x : FVec Ideal S100000x64 .f32) : FVec Ideal S100000x64 .f32 :=
  select (cmpf .ogt x (broadcastInDim S100000x64 ![] bcast_S_S100000x64 (constant S_ .f32 0x00000000#32))) x
    (mulf (broadcastInDim S100000x64 ![] bcast_S_S100000x64 (constant S_ .f32 0x3F800000#32))
      (Host.expm1 (select (cmpf .ogt x (broadcastInDim S100000x64 ![] bcast_S_S100000x64 (constant S_ .f32 0x00000000#32)))
        (broadcastInDim S100000x64 ![] bcast_S_S100000x64 (id (constant S_ .f32 0x00000000#32))) x)))

/-- The reference's layer after the aggregation. -/
def layerHost (a : FVec Ideal S100000x64 .f32) (W : FVec Ideal S64x64 .f32) (b g be mu var : FVec Ideal S64 .f32) :
    FVec Ideal S100000x64 .f32 :=
  eluHost (addf (mulf (subf (addf (Host.dotGeneral dot_S100000x64_S64x64_S100000x64_1_0_0_1_n_n none a W) (overNodes b)) (overNodes mu))
      (overNodes (Host.divf g (Host.sqrt (addf var (broadcastInDim S64 ![] bcast_S_S64 (constant S_ .f32 0x3727C5AC#32)))))))
    (overNodes be))

end Cert.RefBridge

end
-- ==== Proof.RefValue.lean ====
/-
  What the reference program leaves in its buffers, as pure functions of the launch contents.

  The reference's host operations run as four lists one after another: three layers (the aggregation over the
  edges, the layer's slices of the stacked parameters, the linear map, the batch normalisation, the exponential
  linear unit) and the head (logits, log-softmax, entropy weights, the weighted sum per graph, its classification).
  Each list's result buffer is read off the list as a term over the contents the list starts from: a layer's is
  the reference's layer function at the aggregated features and the layer's parameter slices, the head's is the
  head function. No list writes an argument buffer, so the arguments stay as launched, and the four results chain
  into the network over the reference's layer.
-/
import proofs.«410813_j45140106281501_4_alg».proof.Proof.RefRun
import proofs.«410813_j45140106281501_4_alg».proof.Proof.RefSpec
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Contents moved to a typed reference's buffer type and back are unchanged. -/
theorem ofBuf_toBuf {Val : EltTy → Type} {T : BufTy} (x : TRef sig T) (v : T.Contents Val) : x.ofBuf (x.toBuf v) = v := by
  obtain ⟨r, rfl, h2, h3⟩ := x; rfl

/-! ## The first layer -/

/-- The first layer up to its activation: the aggregation over the edges, the layer's parameter slices, the linear map and the batch normalisation (43 operations). -/
abbrev pre0 : List (HloOp τ sig (Elt F)) :=
  [ StableHlo.nullary main_c (constantI S_ 32 0#32),
    StableHlo.unary main_c main_v0 (broadcastInDim S800000 ![] bcast_S_S800000 : (⟨S_, .i32⟩ : BufTy).Contents (Elt F) → (⟨S800000, .i32⟩ : BufTy).Contents (Elt F)),
    StableHlo.binary main_arg1 main_v0 main_v1 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 100000#32),
    StableHlo.unary main_c_0 main_v2 (broadcastInDim S800000 ![] bcast_S_S800000 : (⟨S_, .i32⟩ : BufTy).Contents (Elt F) → (⟨S800000, .i32⟩ : BufTy).Contents (Elt F)),
    StableHlo.binary main_arg1 main_v2 main_v3 (addi : (⟨S800000, .i32⟩ : BufTy).Contents (Elt F) → (⟨S800000, .i32⟩ : BufTy).Contents (Elt F) → (⟨S800000, .i32⟩ : BufTy).Contents (Elt F)),
    StableHlo.ternary main_v1 main_v3 main_arg1 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v4 main_v5 (broadcastInDim S800000x1 ![0] bcast_S800000_S800000x1_0 : (⟨S800000, .i32⟩ : BufTy).Contents (Elt F) → (⟨S800000x1, .i32⟩ : BufTy).Contents (Elt F)),
    StableHlo.binary main_arg0 main_v5 main_v6 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.nullary main_cst (constant S_ .f32 0x00000000#32),
    StableHlo.unary main_cst main_v7 (broadcastInDim S100000x64 ![] bcast_S_S100000x64 : (⟨S_, .f32⟩ : BufTy).Contents (Elt F) → (⟨S100000x64, .f32⟩ : BufTy).Contents (Elt F)),
    StableHlo.unary main_arg2 main_v8 (broadcastInDim S800000x1 ![0] bcast_S800000_S800000x1_0 : (⟨S800000, .i32⟩ : BufTy).Contents (Elt F) → (⟨S800000x1, .i32⟩ : BufTy).Contents (Elt F)),
    StableHlo.ternary main_v7 main_v8 main_v6 main_v9 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.unary main_arg4 main_v10 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v10 main_v11 rfl shapeCasts_S1x64x64_S64x64,
    StableHlo.binary main_v9 main_v11 main_v12 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v13 ((extractStridedSlice S1x64 ![0, 0] · slices_S3x64_S1x64_0_0) : (⟨S3x64, .f32⟩ : BufTy).Contents (Elt F) → (⟨S1x64, .f32⟩ : BufTy).Contents (Elt F)),
    StableHlo.reshape main_v13 main_v14 rfl shapeCasts_S1x64_S64,
    StableHlo.unary main_v14 main_v15 (broadcastInDim S1x64 ![1] bcast_S64_S1x64_1 : (⟨S64, .f32⟩ : BufTy).Contents (Elt F) → (⟨S1x64, .f32⟩ : BufTy).Contents (Elt F)),
    StableHlo.unary main_v15 main_v16 (broadcastInDim S100000x64 ![0, 1] bcast_S1x64_S100000x64_0_1 : (⟨S1x64, .f32⟩ : BufTy).Contents (Elt F) → (⟨S100000x64, .f32⟩ : BufTy).Contents (Elt F)),
    StableHlo.binary main_v12 main_v16 main_v17 (addf : (⟨S100000x64, .f32⟩ : BufTy).Contents (Elt F) → (⟨S100000x64, .f32⟩ : BufTy).Contents (Elt F) → (⟨S100000x64, .f32⟩ : BufTy).Contents (Elt F)),
    StableHlo.unary main_arg8 main_v18 ((extractStridedSlice S1x64 ![0, 0] · slices_S3x64_S1x64_0_0) : (⟨S3x64, .f32⟩ : BufTy).Contents (Elt F) → (⟨S1x64, .f32⟩ : BufTy).Contents (Elt F)),
    StableHlo.reshape main_v18 main_v19 rfl shapeCasts_S1x64_S64,
    StableHlo.unary main_v19 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S100000x64 ![0, 1] bcast_S1x64_S100000x64_0_1 : (⟨S1x64, .f32⟩ : BufTy).Contents (Elt F) → (⟨S100000x64, .f32⟩ : BufTy).Contents (Elt F)),
    StableHlo.binary main_v17 main_v21 main_v22 (subf : (⟨S100000x64, .f32⟩ : BufTy).Contents (Elt F) → (⟨S100000x64, .f32⟩ : BufTy).Contents (Elt F) → (⟨S100000x64, .f32⟩ : BufTy).Contents (Elt F)),
    StableHlo.unary main_arg6 main_v23 ((extractStridedSlice S1x64 ![0, 0] · slices_S3x64_S1x64_0_0) : (⟨S3x64, .f32⟩ : BufTy).Contents (Elt F) → (⟨S1x64, .f32⟩ : BufTy).Contents (Elt F)),
    StableHlo.reshape main_v23 main_v24 rfl shapeCasts_S1x64_S64,
    StableHlo.unary main_arg9 main_v25 ((extractStridedSlice S1x64 ![0, 0] · slices_S3x64_S1x64_0_0) : (⟨S3x64, .f32⟩ : BufTy).Contents (Elt F) → (⟨S1x64, .f32⟩ : BufTy).Contents (Elt F)),
    StableHlo.reshape main_v25 main_v26 rfl shapeCasts_S1x64_S64,
    StableHlo.nullary main_cst_1 (constant S_ .f32 0x3727C5AC#32),
    StableHlo.unary main_cst_1 main_v27 (broadcastInDim S64 ![] bcast_S_S64 : (⟨S_, .f32⟩ : BufTy).Contents (Elt F) → (⟨S64, .f32⟩ : BufTy).Contents (Elt F)),
    StableHlo.binary main_v26 main_v27 main_v28 (addf : (⟨S64, .f32⟩ : BufTy).Contents (Elt F) → (⟨S64, .f32⟩ : BufTy).Contents (Elt F) → (⟨S64, .f32⟩ : BufTy).Contents (Elt F)),
    StableHlo.unary main_v28 main_v29 (Host.sqrt : (⟨S64, .f32⟩ : BufTy).Contents (Elt F) → (⟨S64, .f32⟩ : BufTy).Contents (Elt F)),
    StableHlo.binary main_v24 main_v29 main_v30 (Host.divf : (⟨S64, .f32⟩ : BufTy).Contents (Elt F) → (⟨S64, .f32⟩ : BufTy).Contents (Elt F) → (⟨S64, .f32⟩ : BufTy).Contents (Elt F)),
    StableHlo.unary main_v30 main_v31 (broadcastInDim S1x64 ![1] bcast_S64_S1x64_1 : (⟨S64, .f32⟩ : BufTy).Contents (Elt F) → (⟨S1x64, .f32⟩ : BufTy).Contents (Elt F)),
    StableHlo.unary main_v31 main_v32 (broadcastInDim S100000x64 ![0, 1] bcast_S1x64_S100000x64_0_1 : (⟨S1x64, .f32⟩ : BufTy).Contents (Elt F) → (⟨S100000x64, .f32⟩ : BufTy).Contents (Elt F)),
    StableHlo.binary main_v22 main_v32 main_v33 (mulf : (⟨S100000x64, .f32⟩ : BufTy).Contents (Elt F) → (⟨S100000x64, .f32⟩ : BufTy).Contents (Elt F) → (⟨S100000x64, .f32⟩ : BufTy).Contents (Elt F)),
    StableHlo.unary main_arg7 main_v34 ((extractStridedSlice S1x64 ![0, 0] · slices_S3x64_S1x64_0_0) : (⟨S3x64, .f32⟩ : BufTy).Contents (Elt F) → (⟨S1x64, .f32⟩ : BufTy).Contents (Elt F)),
    StableHlo.reshape main_v34 main_v35 rfl shapeCasts_S1x64_S64,
    StableHlo.unary main_v35 main_v36 (broadcastInDim S1x64 ![1] bcast_S64_S1x64_1 : (⟨S64, .f32⟩ : BufTy).Contents (Elt F) → (⟨S1x64, .f32⟩ : BufTy).Contents (Elt F)),
    StableHlo.unary main_v36 main_v37 (broadcastInDim S100000x64 ![0, 1] bcast_S1x64_S100000x64_0_1 : (⟨S1x64, .f32⟩ : BufTy).Contents (Elt F) → (⟨S100000x64, .f32⟩ : BufTy).Contents (Elt F)),
    StableHlo.binary main_v33 main_v37 main_v38 (addf : (⟨S100000x64, .f32⟩ : BufTy).Contents (Elt F) → (⟨S100000x64, .f32⟩ : BufTy).Contents (Elt F) → (⟨S100000x64, .f32⟩ : BufTy).Contents (Elt F)) ]

/-- The first layer's activation (15 operations). -/
abbrev act0 : List (HloOp τ sig (Elt F)) :=
  [ StableHlo.TRef.nullary main_call0.cst (constant S_ .f32 0x00000000#32),
    StableHlo.TRef.unary main_call0.cst main_call0.v0 (broadcastInDim S100000x64 ![] bcast_S_S100000x64),
    StableHlo.TRef.binary (.of main_v38 : StableHlo.TRef sig ⟨S100000x64, .f32⟩) main_call0.v0 main_call0.v1 (cmpf .ogt),
    StableHlo.TRef.nullary main_call0.cst_0 (constant S_ .f32 0x00000000#32),
    StableHlo.TRef.unary main_call0.cst_0 main_call0.v2 (broadcastInDim S100000x64 ![] bcast_S_S100000x64),
    StableHlo.TRef.binary (.of main_v38 : StableHlo.TRef sig ⟨S100000x64, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S100000x64 ![] bcast_S_S100000x64),
    StableHlo.TRef.ternary main_call0.v3 main_call0.call0.v1 (.of main_v38 : StableHlo.TRef sig ⟨S100000x64, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S100000x64 ![] bcast_S_S100000x64),
    StableHlo.TRef.binary main_call0.v6 main_call0.v5 main_call0.v7 mulf,
    StableHlo.TRef.ternary main_call0.v1 (.of main_v38 : StableHlo.TRef sig ⟨S100000x64, .f32⟩) main_call0.v7 main_call0.call1.v0 select ]

theorem layer0_split : (layer0 : List (HloOp τ sig (Elt F))) = pre0 ++ act0 := rfl

attribute [local irreducible] Host.gather Host.scatterAdd in
set_option maxRecDepth 8192 in
set_option maxHeartbeats 1000000 in
/-- What the first layer feeds its activation, over the contents the layer starts from. -/
theorem pre0_eq (U : Valuation τ sig (Elt Ideal)) :
    after (pre0 (F := Ideal)) U (main_v38 : DevRef τ sig)
      = addf (mulf (subf (addf (Host.dotGeneral dot_S100000x64_S64x64_S100000x64_1_0_0_1_n_n none
            (Cert.Bridge.agg (U (main_arg0 : DevRef τ sig)) (U (main_arg1 : DevRef τ sig)) (U (main_arg2 : DevRef τ sig)))
            (Cert.Bridge.mat0 (U (main_arg4 : DevRef τ sig))))
          (Cert.RefBridge.overNodes (Cert.Bridge.row0 (U (main_arg5 : DevRef τ sig)))))
          (Cert.RefBridge.overNodes (Cert.Bridge.row0 (U (main_arg8 : DevRef τ sig)))))
          (Cert.RefBridge.overNodes (Host.divf (Cert.Bridge.row0 (U (main_arg6 : DevRef τ sig)))
            (Host.sqrt (addf (Cert.Bridge.row0 (U (main_arg9 : DevRef τ sig))) (broadcastInDim S64 ![] bcast_S_S64 (constant S_ .f32 0x3727C5AC#32)))))))
          (Cert.RefBridge.overNodes (Cert.Bridge.row0 (U (main_arg7 : DevRef τ sig)))) := by
  after_results_simp
  unfold Cert.RefBridge.overNodes Cert.Bridge.agg Cert.Bridge.mat0 Cert.Bridge.row0
  rfl

set_option maxRecDepth 8192 in
set_option maxHeartbeats 1000000 in
/-- The first layer's activation is the exponential linear unit of what it is fed. -/
theorem act0_eq (U : Valuation τ sig (Elt Ideal)) :
    after (act0 (F := Ideal)) U (main_v39 : DevRef τ sig) = Cert.RefBridge.eluHost (U (main_v38 : DevRef τ sig)) := by
  after_results_simp
  simp only [ofBuf_toBuf]
  unfold Cert.RefBridge.eluHost
  rfl

/-- The first layer's result over the contents it starts from. -/
theorem layer0_eq (U : Valuation τ sig (Elt Ideal)) :
    after (layer0 (F := Ideal)) U (main_v39 : DevRef τ sig)
      = Cert.RefBridge.layerHost (Cert.Bridge.agg (U (main_arg0 : DevRef τ sig)) (U (main_arg1 : DevRef τ sig)) (U (main_arg2 : DevRef τ sig)))
          (Cert.Bridge.mat0 (U (main_arg4 : DevRef τ sig))) (Cert.Bridge.row0 (U (main_arg5 : DevRef τ sig))) (Cert.Bridge.row0 (U (main_arg6 : DevRef τ sig)))
          (Cert.Bridge.row0 (U (main_arg7 : DevRef τ sig))) (Cert.Bridge.row0 (U (main_arg8 : DevRef τ sig))) (Cert.Bridge.row0 (U (main_arg9 : DevRef τ sig))) := by
  rw [layer0_split, after_append, act0_eq, pre0_eq]
  rfl

/-- The references `layer0` writes. -/
abbrev layer0_W : List (Ref sig .tc) :=
  [main_c, main_v0, main_v1, main_c_0, main_v2, main_v3, main_v4, main_v5, main_v6, main_cst, main_v7, main_v8, main_v9, main_v10, main_v11, main_v12, main_v13, main_v14, main_v15, main_v16, main_v17, main_v18, main_v19, main_v20, main_v21, main_v22, main_v23, main_v24, main_v25, main_v26, main_cst_1, main_v27, main_v28, main_v29, main_v30, main_v31, main_v32, main_v33, main_v34, main_v35, main_v36, main_v37, main_v38, main_call0.cst.ref, main_call0.v0.ref, main_call0.v1.ref, main_call0.cst_0.ref, main_call0.v2.ref, main_call0.v3.ref, main_call0.cst_1.ref, main_call0.call0.v0.ref, main_call0.call0.v1.ref, main_call0.call0.v2.ref, main_call0.v5.ref, main_call0.cst_2.ref, main_call0.v6.ref, main_call0.v7.ref, main_call0.call1.v0.ref]
theorem layer0_writes : (layer0 : List (HloOp τ sig (Elt F))).Forall fun op => op.writes ⊆ (layer0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference that `layer0` does not write keeps its contents. -/
theorem layer0_keeps (U : Valuation τ sig (Elt F)) (r : Ref sig .tc) (h : r ∉ layer0_W) :
    after layer0 U (Proc.devRef .tc r) = U (Proc.devRef .tc r) :=
  after_of_writes_sub layer0 U layer0_writes h

/-! ## The second layer -/

/-- The second layer up to its activation: the aggregation over the edges, the layer's parameter slices, the linear map and the batch normalisation (43 operations). -/
abbrev pre1 : List (HloOp τ sig (Elt F)) :=
  [ StableHlo.nullary main_c_2 (constantI S_ 32 0#32),
    StableHlo.unary main_c_2 main_v40 (broadcastInDim S800000 ![] bcast_S_S800000 : (⟨S_, .i32⟩ : BufTy).Contents (Elt F) → (⟨S800000, .i32⟩ : BufTy).Contents (Elt F)),
    StableHlo.binary main_arg1 main_v40 main_v41 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 100000#32),
    StableHlo.unary main_c_3 main_v42 (broadcastInDim S800000 ![] bcast_S_S800000 : (⟨S_, .i32⟩ : BufTy).Contents (Elt F) → (⟨S800000, .i32⟩ : BufTy).Contents (Elt F)),
    StableHlo.binary main_arg1 main_v42 main_v43 (addi : (⟨S800000, .i32⟩ : BufTy).Contents (Elt F) → (⟨S800000, .i32⟩ : BufTy).Contents (Elt F) → (⟨S800000, .i32⟩ : BufTy).Contents (Elt F)),
    StableHlo.ternary main_v41 main_v43 main_arg1 main_v44 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v44 main_v45 (broadcastInDim S800000x1 ![0] bcast_S800000_S800000x1_0 : (⟨S800000, .i32⟩ : BufTy).Contents (Elt F) → (⟨S800000x1, .i32⟩ : BufTy).Contents (Elt F)),
    StableHlo.binary main_v39 main_v45 main_v46 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.nullary main_cst_4 (constant S_ .f32 0x00000000#32),
    StableHlo.unary main_cst_4 main_v47 (broadcastInDim S100000x64 ![] bcast_S_S100000x64 : (⟨S_, .f32⟩ : BufTy).Contents (Elt F) → (⟨S100000x64, .f32⟩ : BufTy).Contents (Elt F)),
    StableHlo.unary main_arg2 main_v48 (broadcastInDim S800000x1 ![0] bcast_S800000_S800000x1_0 : (⟨S800000, .i32⟩ : BufTy).Contents (Elt F) → (⟨S800000x1, .i32⟩ : BufTy).Contents (Elt F)),
    StableHlo.ternary main_v47 main_v48 main_v46 main_v49 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.unary main_arg4 main_v50 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v50 main_v51 rfl shapeCasts_S1x64x64_S64x64,
    StableHlo.binary main_v49 main_v51 main_v52 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v53 ((extractStridedSlice S1x64 ![1, 0] · slices_S3x64_S1x64_1_0) : (⟨S3x64, .f32⟩ : BufTy).Contents (Elt F) → (⟨S1x64, .f32⟩ : BufTy).Contents (Elt F)),
    StableHlo.reshape main_v53 main_v54 rfl shapeCasts_S1x64_S64,
    StableHlo.unary main_v54 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S100000x64 ![0, 1] bcast_S1x64_S100000x64_0_1 : (⟨S1x64, .f32⟩ : BufTy).Contents (Elt F) → (⟨S100000x64, .f32⟩ : BufTy).Contents (Elt F)),
    StableHlo.binary main_v52 main_v56 main_v57 (addf : (⟨S100000x64, .f32⟩ : BufTy).Contents (Elt F) → (⟨S100000x64, .f32⟩ : BufTy).Contents (Elt F) → (⟨S100000x64, .f32⟩ : BufTy).Contents (Elt F)),
    StableHlo.unary main_arg8 main_v58 ((extractStridedSlice S1x64 ![1, 0] · slices_S3x64_S1x64_1_0) : (⟨S3x64, .f32⟩ : BufTy).Contents (Elt F) → (⟨S1x64, .f32⟩ : BufTy).Contents (Elt F)),
    StableHlo.reshape main_v58 main_v59 rfl shapeCasts_S1x64_S64,
    StableHlo.unary main_v59 main_v60 (broadcastInDim S1x64 ![1] bcast_S64_S1x64_1 : (⟨S64, .f32⟩ : BufTy).Contents (Elt F) → (⟨S1x64, .f32⟩ : BufTy).Contents (Elt F)),
    StableHlo.unary main_v60 main_v61 (broadcastInDim S100000x64 ![0, 1] bcast_S1x64_S100000x64_0_1 : (⟨S1x64, .f32⟩ : BufTy).Contents (Elt F) → (⟨S100000x64, .f32⟩ : BufTy).Contents (Elt F)),
    StableHlo.binary main_v57 main_v61 main_v62 (subf : (⟨S100000x64, .f32⟩ : BufTy).Contents (Elt F) → (⟨S100000x64, .f32⟩ : BufTy).Contents (Elt F) → (⟨S100000x64, .f32⟩ : BufTy).Contents (Elt F)),
    StableHlo.unary main_arg6 main_v63 ((extractStridedSlice S1x64 ![1, 0] · slices_S3x64_S1x64_1_0) : (⟨S3x64, .f32⟩ : BufTy).Contents (Elt F) → (⟨S1x64, .f32⟩ : BufTy).Contents (Elt F)),
    StableHlo.reshape main_v63 main_v64 rfl shapeCasts_S1x64_S64,
    StableHlo.unary main_arg9 main_v65 ((extractStridedSlice S1x64 ![1, 0] · slices_S3x64_S1x64_1_0) : (⟨S3x64, .f32⟩ : BufTy).Contents (Elt F) → (⟨S1x64, .f32⟩ : BufTy).Contents (Elt F)),
    StableHlo.reshape main_v65 main_v66 rfl shapeCasts_S1x64_S64,
    StableHlo.nullary main_cst_5 (constant S_ .f32 0x3727C5AC#32),
    StableHlo.unary main_cst_5 main_v67 (broadcastInDim S64 ![] bcast_S_S64 : (⟨S_, .f32⟩ : BufTy).Contents (Elt F) → (⟨S64, .f32⟩ : BufTy).Contents (Elt F)),
    StableHlo.binary main_v66 main_v67 main_v68 (addf : (⟨S64, .f32⟩ : BufTy).Contents (Elt F) → (⟨S64, .f32⟩ : BufTy).Contents (Elt F) → (⟨S64, .f32⟩ : BufTy).Contents (Elt F)),
    StableHlo.unary main_v68 main_v69 (Host.sqrt : (⟨S64, .f32⟩ : BufTy).Contents (Elt F) → (⟨S64, .f32⟩ : BufTy).Contents (Elt F)),
    StableHlo.binary main_v64 main_v69 main_v70 (Host.divf : (⟨S64, .f32⟩ : BufTy).Contents (Elt F) → (⟨S64, .f32⟩ : BufTy).Contents (Elt F) → (⟨S64, .f32⟩ : BufTy).Contents (Elt F)),
    StableHlo.unary main_v70 main_v71 (broadcastInDim S1x64 ![1] bcast_S64_S1x64_1 : (⟨S64, .f32⟩ : BufTy).Contents (Elt F) → (⟨S1x64, .f32⟩ : BufTy).Contents (Elt F)),
    StableHlo.unary main_v71 main_v72 (broadcastInDim S100000x64 ![0, 1] bcast_S1x64_S100000x64_0_1 : (⟨S1x64, .f32⟩ : BufTy).Contents (Elt F) → (⟨S100000x64, .f32⟩ : BufTy).Contents (Elt F)),
    StableHlo.binary main_v62 main_v72 main_v73 (mulf : (⟨S100000x64, .f32⟩ : BufTy).Contents (Elt F) → (⟨S100000x64, .f32⟩ : BufTy).Contents (Elt F) → (⟨S100000x64, .f32⟩ : BufTy).Contents (Elt F)),
    StableHlo.unary main_arg7 main_v74 ((extractStridedSlice S1x64 ![1, 0] · slices_S3x64_S1x64_1_0) : (⟨S3x64, .f32⟩ : BufTy).Contents (Elt F) → (⟨S1x64, .f32⟩ : BufTy).Contents (Elt F)),
    StableHlo.reshape main_v74 main_v75 rfl shapeCasts_S1x64_S64,
    StableHlo.unary main_v75 main_v76 (broadcastInDim S1x64 ![1] bcast_S64_S1x64_1 : (⟨S64, .f32⟩ : BufTy).Contents (Elt F) → (⟨S1x64, .f32⟩ : BufTy).Contents (Elt F)),
    StableHlo.unary main_v76 main_v77 (broadcastInDim S100000x64 ![0, 1] bcast_S1x64_S100000x64_0_1 : (⟨S1x64, .f32⟩ : BufTy).Contents (Elt F) → (⟨S100000x64, .f32⟩ : BufTy).Contents (Elt F)),
    StableHlo.binary main_v73 main_v77 main_v78 (addf : (⟨S100000x64, .f32⟩ : BufTy).Contents (Elt F) → (⟨S100000x64, .f32⟩ : BufTy).Contents (Elt F) → (⟨S100000x64, .f32⟩ : BufTy).Contents (Elt F)) ]

/-- The second layer's activation (15 operations). -/
abbrev act1 : List (HloOp τ sig (Elt F)) :=
  [ StableHlo.TRef.nullary main_call1.cst (constant S_ .f32 0x00000000#32),
    StableHlo.TRef.unary main_call1.cst main_call1.v0 (broadcastInDim S100000x64 ![] bcast_S_S100000x64),
    StableHlo.TRef.binary (.of main_v78 : StableHlo.TRef sig ⟨S100000x64, .f32⟩) main_call1.v0 main_call1.v1 (cmpf .ogt),
    StableHlo.TRef.nullary main_call1.cst_0 (constant S_ .f32 0x00000000#32),
    StableHlo.TRef.unary main_call1.cst_0 main_call1.v2 (broadcastInDim S100000x64 ![] bcast_S_S100000x64),
    StableHlo.TRef.binary (.of main_v78 : StableHlo.TRef sig ⟨S100000x64, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x64 ![] bcast_S_S100000x64),
    StableHlo.TRef.ternary main_call1.v3 main_call1.call0.v1 (.of main_v78 : StableHlo.TRef sig ⟨S100000x64, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x64 ![] bcast_S_S100000x64),
    StableHlo.TRef.binary main_call1.v6 main_call1.v5 main_call1.v7 mulf,
    StableHlo.TRef.ternary main_call1.v1 (.of main_v78 : StableHlo.TRef sig ⟨S100000x64, .f32⟩) main_call1.v7 main_call1.call1.v0 select ]

theorem layer1_split : (layer1 : List (HloOp τ sig (Elt F))) = pre1 ++ act1 := rfl

attribute [local irreducible] Host.gather Host.scatterAdd in
set_option maxRecDepth 8192 in
set_option maxHeartbeats 1000000 in
/-- What the second layer feeds its activation, over the contents the layer starts from. -/
theorem pre1_eq (U : Valuation τ sig (Elt Ideal)) :
    after (pre1 (F := Ideal)) U (main_v78 : DevRef τ sig)
      = addf (mulf (subf (addf (Host.dotGeneral dot_S100000x64_S64x64_S100000x64_1_0_0_1_n_n none
            (Cert.Bridge.agg (U (main_v39 : DevRef τ sig)) (U (main_arg1 : DevRef τ sig)) (U (main_arg2 : DevRef τ sig)))
            (Cert.Bridge.mat1 (U (main_arg4 : DevRef τ sig))))
          (Cert.RefBridge.overNodes (Cert.Bridge.row1 (U (main_arg5 : DevRef τ sig)))))
          (Cert.RefBridge.overNodes (Cert.Bridge.row1 (U (main_arg8 : DevRef τ sig)))))
          (Cert.RefBridge.overNodes (Host.divf (Cert.Bridge.row1 (U (main_arg6 : DevRef τ sig)))
            (Host.sqrt (addf (Cert.Bridge.row1 (U (main_arg9 : DevRef τ sig))) (broadcastInDim S64 ![] bcast_S_S64 (constant S_ .f32 0x3727C5AC#32)))))))
          (Cert.RefBridge.overNodes (Cert.Bridge.row1 (U (main_arg7 : DevRef τ sig)))) := by
  after_results_simp
  unfold Cert.RefBridge.overNodes Cert.Bridge.agg Cert.Bridge.mat1 Cert.Bridge.row1
  rfl

set_option maxRecDepth 8192 in
set_option maxHeartbeats 1000000 in
/-- The second layer's activation is the exponential linear unit of what it is fed. -/
theorem act1_eq (U : Valuation τ sig (Elt Ideal)) :
    after (act1 (F := Ideal)) U (main_v79 : DevRef τ sig) = Cert.RefBridge.eluHost (U (main_v78 : DevRef τ sig)) := by
  after_results_simp
  simp only [ofBuf_toBuf]
  unfold Cert.RefBridge.eluHost
  rfl

/-- The second layer's result over the contents it starts from. -/
theorem layer1_eq (U : Valuation τ sig (Elt Ideal)) :
    after (layer1 (F := Ideal)) U (main_v79 : DevRef τ sig)
      = Cert.RefBridge.layerHost (Cert.Bridge.agg (U (main_v39 : DevRef τ sig)) (U (main_arg1 : DevRef τ sig)) (U (main_arg2 : DevRef τ sig)))
          (Cert.Bridge.mat1 (U (main_arg4 : DevRef τ sig))) (Cert.Bridge.row1 (U (main_arg5 : DevRef τ sig))) (Cert.Bridge.row1 (U (main_arg6 : DevRef τ sig)))
          (Cert.Bridge.row1 (U (main_arg7 : DevRef τ sig))) (Cert.Bridge.row1 (U (main_arg8 : DevRef τ sig))) (Cert.Bridge.row1 (U (main_arg9 : DevRef τ sig))) := by
  rw [layer1_split, after_append, act1_eq, pre1_eq]
  rfl

/-- The references `layer1` writes. -/
abbrev layer1_W : List (Ref sig .tc) :=
  [main_c_2, main_v40, main_v41, main_c_3, main_v42, main_v43, main_v44, main_v45, main_v46, main_cst_4, main_v47, main_v48, main_v49, main_v50, main_v51, main_v52, main_v53, main_v54, main_v55, main_v56, main_v57, main_v58, main_v59, main_v60, main_v61, main_v62, main_v63, main_v64, main_v65, main_v66, main_cst_5, main_v67, main_v68, main_v69, main_v70, main_v71, main_v72, main_v73, main_v74, main_v75, main_v76, main_v77, main_v78, main_call1.cst.ref, main_call1.v0.ref, main_call1.v1.ref, main_call1.cst_0.ref, main_call1.v2.ref, main_call1.v3.ref, main_call1.cst_1.ref, main_call1.call0.v0.ref, main_call1.call0.v1.ref, main_call1.call0.v2.ref, main_call1.v5.ref, main_call1.cst_2.ref, main_call1.v6.ref, main_call1.v7.ref, main_call1.call1.v0.ref]
theorem layer1_writes : (layer1 : List (HloOp τ sig (Elt F))).Forall fun op => op.writes ⊆ (layer1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference that `layer1` does not write keeps its contents. -/
theorem layer1_keeps (U : Valuation τ sig (Elt F)) (r : Ref sig .tc) (h : r ∉ layer1_W) :
    after layer1 U (Proc.devRef .tc r) = U (Proc.devRef .tc r) :=
  after_of_writes_sub layer1 U layer1_writes h

/-! ## The third layer -/

/-- The third layer up to its activation: the aggregation over the edges, the layer's parameter slices, the linear map and the batch normalisation (43 operations). -/
abbrev pre2 : List (HloOp τ sig (Elt F)) :=
  [ StableHlo.nullary main_c_6 (constantI S_ 32 0#32),
    StableHlo.unary main_c_6 main_v80 (broadcastInDim S800000 ![] bcast_S_S800000 : (⟨S_, .i32⟩ : BufTy).Contents (Elt F) → (⟨S800000, .i32⟩ : BufTy).Contents (Elt F)),
    StableHlo.binary main_arg1 main_v80 main_v81 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 100000#32),
    StableHlo.unary main_c_7 main_v82 (broadcastInDim S800000 ![] bcast_S_S800000 : (⟨S_, .i32⟩ : BufTy).Contents (Elt F) → (⟨S800000, .i32⟩ : BufTy).Contents (Elt F)),
    StableHlo.binary main_arg1 main_v82 main_v83 (addi : (⟨S800000, .i32⟩ : BufTy).Contents (Elt F) → (⟨S800000, .i32⟩ : BufTy).Contents (Elt F) → (⟨S800000, .i32⟩ : BufTy).Contents (Elt F)),
    StableHlo.ternary main_v81 main_v83 main_arg1 main_v84 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v84 main_v85 (broadcastInDim S800000x1 ![0] bcast_S800000_S800000x1_0 : (⟨S800000, .i32⟩ : BufTy).Contents (Elt F) → (⟨S800000x1, .i32⟩ : BufTy).Contents (Elt F)),
    StableHlo.binary main_v79 main_v85 main_v86 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.nullary main_cst_8 (constant S_ .f32 0x00000000#32),
    StableHlo.unary main_cst_8 main_v87 (broadcastInDim S100000x64 ![] bcast_S_S100000x64 : (⟨S_, .f32⟩ : BufTy).Contents (Elt F) → (⟨S100000x64, .f32⟩ : BufTy).Contents (Elt F)),
    StableHlo.unary main_arg2 main_v88 (broadcastInDim S800000x1 ![0] bcast_S800000_S800000x1_0 : (⟨S800000, .i32⟩ : BufTy).Contents (Elt F) → (⟨S800000x1, .i32⟩ : BufTy).Contents (Elt F)),
    StableHlo.ternary main_v87 main_v88 main_v86 main_v89 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.unary main_arg4 main_v90 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v90 main_v91 rfl shapeCasts_S1x64x64_S64x64,
    StableHlo.binary main_v89 main_v91 main_v92 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v93 ((extractStridedSlice S1x64 ![2, 0] · slices_S3x64_S1x64_2_0) : (⟨S3x64, .f32⟩ : BufTy).Contents (Elt F) → (⟨S1x64, .f32⟩ : BufTy).Contents (Elt F)),
    StableHlo.reshape main_v93 main_v94 rfl shapeCasts_S1x64_S64,
    StableHlo.unary main_v94 main_v95 (broadcastInDim S1x64 ![1] bcast_S64_S1x64_1 : (⟨S64, .f32⟩ : BufTy).Contents (Elt F) → (⟨S1x64, .f32⟩ : BufTy).Contents (Elt F)),
    StableHlo.unary main_v95 main_v96 (broadcastInDim S100000x64 ![0, 1] bcast_S1x64_S100000x64_0_1 : (⟨S1x64, .f32⟩ : BufTy).Contents (Elt F) → (⟨S100000x64, .f32⟩ : BufTy).Contents (Elt F)),
    StableHlo.binary main_v92 main_v96 main_v97 (addf : (⟨S100000x64, .f32⟩ : BufTy).Contents (Elt F) → (⟨S100000x64, .f32⟩ : BufTy).Contents (Elt F) → (⟨S100000x64, .f32⟩ : BufTy).Contents (Elt F)),
    StableHlo.unary main_arg8 main_v98 ((extractStridedSlice S1x64 ![2, 0] · slices_S3x64_S1x64_2_0) : (⟨S3x64, .f32⟩ : BufTy).Contents (Elt F) → (⟨S1x64, .f32⟩ : BufTy).Contents (Elt F)),
    StableHlo.reshape main_v98 main_v99 rfl shapeCasts_S1x64_S64,
    StableHlo.unary main_v99 main_v100 (broadcastInDim S1x64 ![1] bcast_S64_S1x64_1 : (⟨S64, .f32⟩ : BufTy).Contents (Elt F) → (⟨S1x64, .f32⟩ : BufTy).Contents (Elt F)),
    StableHlo.unary main_v100 main_v101 (broadcastInDim S100000x64 ![0, 1] bcast_S1x64_S100000x64_0_1 : (⟨S1x64, .f32⟩ : BufTy).Contents (Elt F) → (⟨S100000x64, .f32⟩ : BufTy).Contents (Elt F)),
    StableHlo.binary main_v97 main_v101 main_v102 (subf : (⟨S100000x64, .f32⟩ : BufTy).Contents (Elt F) → (⟨S100000x64, .f32⟩ : BufTy).Contents (Elt F) → (⟨S100000x64, .f32⟩ : BufTy).Contents (Elt F)),
    StableHlo.unary main_arg6 main_v103 ((extractStridedSlice S1x64 ![2, 0] · slices_S3x64_S1x64_2_0) : (⟨S3x64, .f32⟩ : BufTy).Contents (Elt F) → (⟨S1x64, .f32⟩ : BufTy).Contents (Elt F)),
    StableHlo.reshape main_v103 main_v104 rfl shapeCasts_S1x64_S64,
    StableHlo.unary main_arg9 main_v105 ((extractStridedSlice S1x64 ![2, 0] · slices_S3x64_S1x64_2_0) : (⟨S3x64, .f32⟩ : BufTy).Contents (Elt F) → (⟨S1x64, .f32⟩ : BufTy).Contents (Elt F)),
    StableHlo.reshape main_v105 main_v106 rfl shapeCasts_S1x64_S64,
    StableHlo.nullary main_cst_9 (constant S_ .f32 0x3727C5AC#32),
    StableHlo.unary main_cst_9 main_v107 (broadcastInDim S64 ![] bcast_S_S64 : (⟨S_, .f32⟩ : BufTy).Contents (Elt F) → (⟨S64, .f32⟩ : BufTy).Contents (Elt F)),
    StableHlo.binary main_v106 main_v107 main_v108 (addf : (⟨S64, .f32⟩ : BufTy).Contents (Elt F) → (⟨S64, .f32⟩ : BufTy).Contents (Elt F) → (⟨S64, .f32⟩ : BufTy).Contents (Elt F)),
    StableHlo.unary main_v108 main_v109 (Host.sqrt : (⟨S64, .f32⟩ : BufTy).Contents (Elt F) → (⟨S64, .f32⟩ : BufTy).Contents (Elt F)),
    StableHlo.binary main_v104 main_v109 main_v110 (Host.divf : (⟨S64, .f32⟩ : BufTy).Contents (Elt F) → (⟨S64, .f32⟩ : BufTy).Contents (Elt F) → (⟨S64, .f32⟩ : BufTy).Contents (Elt F)),
    StableHlo.unary main_v110 main_v111 (broadcastInDim S1x64 ![1] bcast_S64_S1x64_1 : (⟨S64, .f32⟩ : BufTy).Contents (Elt F) → (⟨S1x64, .f32⟩ : BufTy).Contents (Elt F)),
    StableHlo.unary main_v111 main_v112 (broadcastInDim S100000x64 ![0, 1] bcast_S1x64_S100000x64_0_1 : (⟨S1x64, .f32⟩ : BufTy).Contents (Elt F) → (⟨S100000x64, .f32⟩ : BufTy).Contents (Elt F)),
    StableHlo.binary main_v102 main_v112 main_v113 (mulf : (⟨S100000x64, .f32⟩ : BufTy).Contents (Elt F) → (⟨S100000x64, .f32⟩ : BufTy).Contents (Elt F) → (⟨S100000x64, .f32⟩ : BufTy).Contents (Elt F)),
    StableHlo.unary main_arg7 main_v114 ((extractStridedSlice S1x64 ![2, 0] · slices_S3x64_S1x64_2_0) : (⟨S3x64, .f32⟩ : BufTy).Contents (Elt F) → (⟨S1x64, .f32⟩ : BufTy).Contents (Elt F)),
    StableHlo.reshape main_v114 main_v115 rfl shapeCasts_S1x64_S64,
    StableHlo.unary main_v115 main_v116 (broadcastInDim S1x64 ![1] bcast_S64_S1x64_1 : (⟨S64, .f32⟩ : BufTy).Contents (Elt F) → (⟨S1x64, .f32⟩ : BufTy).Contents (Elt F)),
    StableHlo.unary main_v116 main_v117 (broadcastInDim S100000x64 ![0, 1] bcast_S1x64_S100000x64_0_1 : (⟨S1x64, .f32⟩ : BufTy).Contents (Elt F) → (⟨S100000x64, .f32⟩ : BufTy).Contents (Elt F)),
    StableHlo.binary main_v113 main_v117 main_v118 (addf : (⟨S100000x64, .f32⟩ : BufTy).Contents (Elt F) → (⟨S100000x64, .f32⟩ : BufTy).Contents (Elt F) → (⟨S100000x64, .f32⟩ : BufTy).Contents (Elt F)) ]

/-- The third layer's activation (15 operations). -/
abbrev act2 : List (HloOp τ sig (Elt F)) :=
  [ StableHlo.TRef.nullary main_call2.cst (constant S_ .f32 0x00000000#32),
    StableHlo.TRef.unary main_call2.cst main_call2.v0 (broadcastInDim S100000x64 ![] bcast_S_S100000x64),
    StableHlo.TRef.binary (.of main_v118 : StableHlo.TRef sig ⟨S100000x64, .f32⟩) main_call2.v0 main_call2.v1 (cmpf .ogt),
    StableHlo.TRef.nullary main_call2.cst_0 (constant S_ .f32 0x00000000#32),
    StableHlo.TRef.unary main_call2.cst_0 main_call2.v2 (broadcastInDim S100000x64 ![] bcast_S_S100000x64),
    StableHlo.TRef.binary (.of main_v118 : StableHlo.TRef sig ⟨S100000x64, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x64 ![] bcast_S_S100000x64),
    StableHlo.TRef.ternary main_call2.v3 main_call2.call0.v1 (.of main_v118 : StableHlo.TRef sig ⟨S100000x64, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x64 ![] bcast_S_S100000x64),
    StableHlo.TRef.binary main_call2.v6 main_call2.v5 main_call2.v7 mulf,
    StableHlo.TRef.ternary main_call2.v1 (.of main_v118 : StableHlo.TRef sig ⟨S100000x64, .f32⟩) main_call2.v7 main_call2.call1.v0 select ]

theorem layer2_split : (layer2 : List (HloOp τ sig (Elt F))) = pre2 ++ act2 := rfl

attribute [local irreducible] Host.gather Host.scatterAdd in
set_option maxRecDepth 8192 in
set_option maxHeartbeats 1000000 in
/-- What the third layer feeds its activation, over the contents the layer starts from. -/
theorem pre2_eq (U : Valuation τ sig (Elt Ideal)) :
    after (pre2 (F := Ideal)) U (main_v118 : DevRef τ sig)
      = addf (mulf (subf (addf (Host.dotGeneral dot_S100000x64_S64x64_S100000x64_1_0_0_1_n_n none
            (Cert.Bridge.agg (U (main_v79 : DevRef τ sig)) (U (main_arg1 : DevRef τ sig)) (U (main_arg2 : DevRef τ sig)))
            (Cert.Bridge.mat2 (U (main_arg4 : DevRef τ sig))))
          (Cert.RefBridge.overNodes (Cert.Bridge.row2 (U (main_arg5 : DevRef τ sig)))))
          (Cert.RefBridge.overNodes (Cert.Bridge.row2 (U (main_arg8 : DevRef τ sig)))))
          (Cert.RefBridge.overNodes (Host.divf (Cert.Bridge.row2 (U (main_arg6 : DevRef τ sig)))
            (Host.sqrt (addf (Cert.Bridge.row2 (U (main_arg9 : DevRef τ sig))) (broadcastInDim S64 ![] bcast_S_S64 (constant S_ .f32 0x3727C5AC#32)))))))
          (Cert.RefBridge.overNodes (Cert.Bridge.row2 (U (main_arg7 : DevRef τ sig)))) := by
  after_results_simp
  unfold Cert.RefBridge.overNodes Cert.Bridge.agg Cert.Bridge.mat2 Cert.Bridge.row2
  rfl

set_option maxRecDepth 8192 in
set_option maxHeartbeats 1000000 in
/-- The third layer's activation is the exponential linear unit of what it is fed. -/
theorem act2_eq (U : Valuation τ sig (Elt Ideal)) :
    after (act2 (F := Ideal)) U (main_v119 : DevRef τ sig) = Cert.RefBridge.eluHost (U (main_v118 : DevRef τ sig)) := by
  after_results_simp
  simp only [ofBuf_toBuf]
  unfold Cert.RefBridge.eluHost
  rfl

/-- The third layer's result over the contents it starts from. -/
theorem layer2_eq (U : Valuation τ sig (Elt Ideal)) :
    after (layer2 (F := Ideal)) U (main_v119 : DevRef τ sig)
      = Cert.RefBridge.layerHost (Cert.Bridge.agg (U (main_v79 : DevRef τ sig)) (U (main_arg1 : DevRef τ sig)) (U (main_arg2 : DevRef τ sig)))
          (Cert.Bridge.mat2 (U (main_arg4 : DevRef τ sig))) (Cert.Bridge.row2 (U (main_arg5 : DevRef τ sig))) (Cert.Bridge.row2 (U (main_arg6 : DevRef τ sig)))
          (Cert.Bridge.row2 (U (main_arg7 : DevRef τ sig))) (Cert.Bridge.row2 (U (main_arg8 : DevRef τ sig))) (Cert.Bridge.row2 (U (main_arg9 : DevRef τ sig))) := by
  rw [layer2_split, after_append, act2_eq, pre2_eq]
  rfl

/-- The references `layer2` writes. -/
abbrev layer2_W : List (Ref sig .tc) :=
  [main_c_6, main_v80, main_v81, main_c_7, main_v82, main_v83, main_v84, main_v85, main_v86, main_cst_8, main_v87, main_v88, main_v89, main_v90, main_v91, main_v92, main_v93, main_v94, main_v95, main_v96, main_v97, main_v98, main_v99, main_v100, main_v101, main_v102, main_v103, main_v104, main_v105, main_v106, main_cst_9, main_v107, main_v108, main_v109, main_v110, main_v111, main_v112, main_v113, main_v114, main_v115, main_v116, main_v117, main_v118, main_call2.cst.ref, main_call2.v0.ref, main_call2.v1.ref, main_call2.cst_0.ref, main_call2.v2.ref, main_call2.v3.ref, main_call2.cst_1.ref, main_call2.call0.v0.ref, main_call2.call0.v1.ref, main_call2.call0.v2.ref, main_call2.v5.ref, main_call2.cst_2.ref, main_call2.v6.ref, main_call2.v7.ref, main_call2.call1.v0.ref]
theorem layer2_writes : (layer2 : List (HloOp τ sig (Elt F))).Forall fun op => op.writes ⊆ (layer2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference that `layer2` does not write keeps its contents. -/
theorem layer2_keeps (U : Valuation τ sig (Elt F)) (r : Ref sig .tc) (h : r ∉ layer2_W) :
    after layer2 U (Proc.devRef .tc r) = U (Proc.devRef .tc r) :=
  after_of_writes_sub layer2 U layer2_writes h

/-! ## The head -/

/-- The class logits of every node (4 operations). -/
abbrev hd1 : List (HloOp τ sig (Elt F)) :=
  [ StableHlo.binary main_v119 main_arg10 main_v120 ((fun l r => Host.dotGeneral dot_S100000x64_S64x10_S100000x10_1_0_0_1_n_n none l r) : (⟨S100000x64, .f32⟩ : BufTy).Contents (Elt F) → (⟨S64x10, .f32⟩ : BufTy).Contents (Elt F) → (⟨S100000x10, .f32⟩ : BufTy).Contents (Elt F)),
    StableHlo.unary main_arg11 main_v121 (broadcastInDim S1x10 ![1] bcast_S10_S1x10_1 : (⟨S10, .f32⟩ : BufTy).Contents (Elt F) → (⟨S1x10, .f32⟩ : BufTy).Contents (Elt F)),
    StableHlo.unary main_v121 main_v122 (broadcastInDim S100000x10 ![0, 1] bcast_S1x10_S100000x10_0_1 : (⟨S1x10, .f32⟩ : BufTy).Contents (Elt F) → (⟨S100000x10, .f32⟩ : BufTy).Contents (Elt F)),
    StableHlo.binary main_v120 main_v122 main_v123 (addf : (⟨S100000x10, .f32⟩ : BufTy).Contents (Elt F) → (⟨S100000x10, .f32⟩ : BufTy).Contents (Elt F) → (⟨S100000x10, .f32⟩ : BufTy).Contents (Elt F)) ]

/-- The row-wise log-softmax of the logits (15 operations). -/
abbrev hd2 : List (HloOp τ sig (Elt F)) :=
  [ StableHlo.TRef.nullary main_call3.cst (constant S_ .f32 0xFF800000#32),
    StableHlo.TRef.binary (.of main_v123 : StableHlo.TRef sig ⟨S100000x10, .f32⟩) main_call3.cst main_call3.v0 (fun x v => Host.reduce FloatOps.maximumf x v reducesTo_S100000x10_S100000_d1 h_S_),
    StableHlo.TRef.nullary main_call3.cst_0 (constant S_ .f32 0xFF800000#32),
    StableHlo.TRef.unary main_call3.cst_0 main_call3.v1 (broadcastInDim S100000 ![] bcast_S_S100000),
    StableHlo.TRef.binary main_call3.v1 main_call3.v0 main_call3.v2 maximumf,
    StableHlo.TRef.unary main_call3.v2 main_call3.v3 (broadcastInDim S100000x1 ![0] bcast_S100000_S100000x1_0),
    StableHlo.TRef.unary main_call3.v3 main_call3.v4 (broadcastInDim S100000x10 ![0, 1] bcast_S100000x1_S100000x10_0_1),
    StableHlo.TRef.binary (.of main_v123 : StableHlo.TRef sig ⟨S100000x10, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S100000x10_S100000_d1 h_S_),
    StableHlo.TRef.unary main_call3.v7 main_call3.v8 (broadcastInDim S100000x1 ![0] bcast_S100000_S100000x1_0),
    StableHlo.TRef.unary main_call3.v8 main_call3.v9 Host.log,
    StableHlo.TRef.unary main_call3.v9 main_call3.v10 (broadcastInDim S100000x10 ![0, 1] bcast_S100000x1_S100000x10_0_1),
    StableHlo.TRef.binary main_call3.v5 main_call3.v10 main_call3.v11 subf ]

/-- The entropy weights, the weighted sum per graph and its classification (23 operations). -/
abbrev hd3 : List (HloOp τ sig (Elt F)) :=
  [ StableHlo.unary main_v124 main_v125 (Host.exp : (⟨S100000x10, .f32⟩ : BufTy).Contents (Elt F) → (⟨S100000x10, .f32⟩ : BufTy).Contents (Elt F)),
    StableHlo.binary main_v125 main_v124 main_v126 (mulf : (⟨S100000x10, .f32⟩ : BufTy).Contents (Elt F) → (⟨S100000x10, .f32⟩ : BufTy).Contents (Elt F) → (⟨S100000x10, .f32⟩ : BufTy).Contents (Elt F)),
    StableHlo.nullary main_cst_10 (constant S_ .f32 0x00000000#32),
    StableHlo.binary main_v126 main_cst_10 main_v127 ((fun x v => Host.reduceAdd x v reducesTo_S100000x10_S100000_d1 h_S_) : (⟨S100000x10, .f32⟩ : BufTy).Contents (Elt F) → (⟨S_, .f32⟩ : BufTy).Contents (Elt F) → (⟨S100000, .f32⟩ : BufTy).Contents (Elt F)),
    StableHlo.unary main_v127 main_v128 (Host.negf : (⟨S100000, .f32⟩ : BufTy).Contents (Elt F) → (⟨S100000, .f32⟩ : BufTy).Contents (Elt F)),
    StableHlo.nullary main_cst_11 (constant S_ .f32 0xFF800000#32),
    StableHlo.binary main_v128 main_cst_11 main_v129 ((fun x v => Host.reduce FloatOps.maximumf x v reducesTo_S100000_S_d0 h_S_) : (⟨S100000, .f32⟩ : BufTy).Contents (Elt F) → (⟨S_, .f32⟩ : BufTy).Contents (Elt F) → (⟨S_, .f32⟩ : BufTy).Contents (Elt F)),
    StableHlo.unary main_v129 main_v130 (broadcastInDim S100000 ![] bcast_S_S100000 : (⟨S_, .f32⟩ : BufTy).Contents (Elt F) → (⟨S100000, .f32⟩ : BufTy).Contents (Elt F)),
    StableHlo.binary main_v128 main_v130 main_v131 (Host.divf : (⟨S100000, .f32⟩ : BufTy).Contents (Elt F) → (⟨S100000, .f32⟩ : BufTy).Contents (Elt F) → (⟨S100000, .f32⟩ : BufTy).Contents (Elt F)),
    StableHlo.nullary main_cst_12 (constant S_ .f32 0x3F800000#32),
    StableHlo.unary main_cst_12 main_v132 (broadcastInDim S100000 ![] bcast_S_S100000 : (⟨S_, .f32⟩ : BufTy).Contents (Elt F) → (⟨S100000, .f32⟩ : BufTy).Contents (Elt F)),
    StableHlo.binary main_v132 main_v131 main_v133 (subf : (⟨S100000, .f32⟩ : BufTy).Contents (Elt F) → (⟨S100000, .f32⟩ : BufTy).Contents (Elt F) → (⟨S100000, .f32⟩ : BufTy).Contents (Elt F)),
    StableHlo.unary main_v133 main_v134 (broadcastInDim S100000x1 ![0] bcast_S100000_S100000x1_0 : (⟨S100000, .f32⟩ : BufTy).Contents (Elt F) → (⟨S100000x1, .f32⟩ : BufTy).Contents (Elt F)),
    StableHlo.unary main_v134 main_v135 (broadcastInDim S100000x64 ![0, 1] bcast_S100000x1_S100000x64_0_1 : (⟨S100000x1, .f32⟩ : BufTy).Contents (Elt F) → (⟨S100000x64, .f32⟩ : BufTy).Contents (Elt F)),
    StableHlo.binary main_v135 main_v119 main_v136 (mulf : (⟨S100000x64, .f32⟩ : BufTy).Contents (Elt F) → (⟨S100000x64, .f32⟩ : BufTy).Contents (Elt F) → (⟨S100000x64, .f32⟩ : BufTy).Contents (Elt F)),
    StableHlo.nullary main_cst_13 (constant S_ .f32 0x00000000#32),
    StableHlo.unary main_cst_13 main_v137 (broadcastInDim S500x64 ![] bcast_S_S500x64 : (⟨S_, .f32⟩ : BufTy).Contents (Elt F) → (⟨S500x64, .f32⟩ : BufTy).Contents (Elt F)),
    StableHlo.unary main_arg3 main_v138 (broadcastInDim S100000x1 ![0] bcast_S100000_S100000x1_0 : (⟨S100000, .i32⟩ : BufTy).Contents (Elt F) → (⟨S100000x1, .i32⟩ : BufTy).Contents (Elt F)),
    StableHlo.ternary main_v137 main_v138 main_v136 main_v139 ((fun x i u => Host.scatterAdd scatter_S500x64_S100000x1_S100000x64_1_0_0_1 x i u) : (⟨S500x64, .f32⟩ : BufTy).Contents (Elt F) → (⟨S100000x1, .i32⟩ : BufTy).Contents (Elt F) → (⟨S100000x64, .f32⟩ : BufTy).Contents (Elt F) → (⟨S500x64, .f32⟩ : BufTy).Contents (Elt F)),
    StableHlo.binary main_v139 main_arg10 main_v140 ((fun l r => Host.dotGeneral dot_S500x64_S64x10_S500x10_1_0_0_1_n_n none l r) : (⟨S500x64, .f32⟩ : BufTy).Contents (Elt F) → (⟨S64x10, .f32⟩ : BufTy).Contents (Elt F) → (⟨S500x10, .f32⟩ : BufTy).Contents (Elt F)),
    StableHlo.unary main_arg11 main_v141 (broadcastInDim S1x10 ![1] bcast_S10_S1x10_1 : (⟨S10, .f32⟩ : BufTy).Contents (Elt F) → (⟨S1x10, .f32⟩ : BufTy).Contents (Elt F)),
    StableHlo.unary main_v141 main_v142 (broadcastInDim S500x10 ![0, 1] bcast_S1x10_S500x10_0_1 : (⟨S1x10, .f32⟩ : BufTy).Contents (Elt F) → (⟨S500x10, .f32⟩ : BufTy).Contents (Elt F)),
    StableHlo.binary main_v140 main_v142 main_v143 (addf : (⟨S500x10, .f32⟩ : BufTy).Contents (Elt F) → (⟨S500x10, .f32⟩ : BufTy).Contents (Elt F) → (⟨S500x10, .f32⟩ : BufTy).Contents (Elt F)) ]

theorem headOps_split : (headOps : List (HloOp τ sig (Elt F))) = hd1 ++ hd2 ++ hd3 := rfl

set_option maxRecDepth 8192 in
set_option maxHeartbeats 1000000 in
theorem hd1_eq (U : Valuation τ sig (Elt Ideal)) :
    after (hd1 (F := Ideal)) U (main_v123 : DevRef τ sig)
      = Cert.Bridge.logits (U (main_v119 : DevRef τ sig)) (U (main_arg10 : DevRef τ sig)) (U (main_arg11 : DevRef τ sig)) := by
  after_results_simp
  unfold Cert.Bridge.logits
  rfl

attribute [local irreducible] Host.reduce Host.reduceAdd in
set_option maxRecDepth 8192 in
set_option maxHeartbeats 1000000 in
theorem hd2_eq (U : Valuation τ sig (Elt Ideal)) :
    after (hd2 (F := Ideal)) U (main_v124 : DevRef τ sig) = Cert.Bridge.logSoftmax (U (main_v123 : DevRef τ sig)) := by
  after_results_simp
  simp only [ofBuf_toBuf]
  unfold Cert.Bridge.logSoftmax Cert.Bridge.shifted
  rfl

attribute [local irreducible] Host.reduce Host.reduceAdd Host.scatterAdd in
set_option maxRecDepth 8192 in
set_option maxHeartbeats 1000000 in
theorem hd3_eq (U : Valuation τ sig (Elt Ideal)) :
    after (hd3 (F := Ideal)) U (main_v143 : DevRef τ sig)
      = Cert.Bridge.pooled (Cert.Bridge.weights (Cert.Bridge.entropy (U (main_v124 : DevRef τ sig)))) (U (main_v119 : DevRef τ sig)) (U (main_arg3 : DevRef τ sig))
          (U (main_arg10 : DevRef τ sig)) (U (main_arg11 : DevRef τ sig)) := by
  after_results_simp
  unfold Cert.Bridge.pooled Cert.Bridge.weights Cert.Bridge.entropy
  rfl

/-- The references `hd1` writes. -/
abbrev hd1_W : List (Ref sig .tc) :=
  [main_v120, main_v121, main_v122, main_v123]
theorem hd1_writes : (hd1 : List (HloOp τ sig (Elt F))).Forall fun op => op.writes ⊆ (hd1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference that `hd1` does not write keeps its contents. -/
theorem hd1_keeps (U : Valuation τ sig (Elt F)) (r : Ref sig .tc) (h : r ∉ hd1_W) :
    after hd1 U (Proc.devRef .tc r) = U (Proc.devRef .tc r) :=
  after_of_writes_sub hd1 U hd1_writes h

/-- The references `hd2` writes. -/
abbrev hd2_W : List (Ref sig .tc) :=
  [main_call3.cst.ref, main_call3.v0.ref, main_call3.cst_0.ref, main_call3.v1.ref, main_call3.v2.ref, main_call3.v3.ref, main_call3.v4.ref, main_call3.v5.ref, main_call3.v6.ref, main_call3.cst_1.ref, main_call3.v7.ref, main_call3.v8.ref, main_call3.v9.ref, main_call3.v10.ref, main_call3.v11.ref]
theorem hd2_writes : (hd2 : List (HloOp τ sig (Elt F))).Forall fun op => op.writes ⊆ (hd2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference that `hd2` does not write keeps its contents. -/
theorem hd2_keeps (U : Valuation τ sig (Elt F)) (r : Ref sig .tc) (h : r ∉ hd2_W) :
    after hd2 U (Proc.devRef .tc r) = U (Proc.devRef .tc r) :=
  after_of_writes_sub hd2 U hd2_writes h

/-- The head's result over the contents it starts from. -/
theorem head_eq (U : Valuation τ sig (Elt Ideal)) :
    after (headOps (F := Ideal)) U (main_v143 : DevRef τ sig)
      = Cert.Bridge.head (U (main_v119 : DevRef τ sig)) (U (main_arg3 : DevRef τ sig)) (U (main_arg10 : DevRef τ sig)) (U (main_arg11 : DevRef τ sig)) := by
  rw [headOps_split, after_append, after_append, hd3_eq, hd2_eq, hd1_eq,
    hd2_keeps _ main_v119 (by decide), hd2_keeps _ main_arg3 (by decide), hd2_keeps _ main_arg10 (by decide),
    hd2_keeps _ main_arg11 (by decide),
    hd1_keeps _ main_v119 (by decide), hd1_keeps _ main_arg3 (by decide), hd1_keeps _ main_arg10 (by decide),
    hd1_keeps _ main_arg11 (by decide)]
  rfl

/-- The references `headOps` writes. -/
abbrev headOps_W : List (Ref sig .tc) :=
  [main_v120, main_v121, main_v122, main_v123, main_call3.cst.ref, main_call3.v0.ref, main_call3.cst_0.ref, main_call3.v1.ref, main_call3.v2.ref, main_call3.v3.ref, main_call3.v4.ref, main_call3.v5.ref, main_call3.v6.ref, main_call3.cst_1.ref, main_call3.v7.ref, main_call3.v8.ref, main_call3.v9.ref, main_call3.v10.ref, main_call3.v11.ref, main_v125, main_v126, main_cst_10, main_v127, main_v128, main_cst_11, main_v129, main_v130, main_v131, main_cst_12, main_v132, main_v133, main_v134, main_v135, main_v136, main_cst_13, main_v137, main_v138, main_v139, main_v140, main_v141, main_v142, main_v143]
theorem headOps_writes : (headOps : List (HloOp τ sig (Elt F))).Forall fun op => op.writes ⊆ (headOps_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference that `headOps` does not write keeps its contents. -/
theorem headOps_keeps (U : Valuation τ sig (Elt F)) (r : Ref sig .tc) (h : r ∉ headOps_W) :
    after headOps U (Proc.devRef .tc r) = U (Proc.devRef .tc r) :=
  after_of_writes_sub headOps U headOps_writes h

/-! ## The whole program -/

/-- A reference none of the four lists writes holds at the end what it held at the start. -/
theorem ops_keeps (V : Valuation τ sig (Elt F)) (r : Ref sig .tc) (h0 : r ∉ layer0_W) (h1 : r ∉ layer1_W) (h2 : r ∉ layer2_W)
    (h3 : r ∉ headOps_W) : after ops V (Proc.devRef .tc r) = V (Proc.devRef .tc r) := by
  rw [after_ops, headOps_keeps _ r h3, layer2_keeps _ r h2, layer1_keeps _ r h1, layer0_keeps _ r h0]

/-- The result buffer ends holding the network over the reference's layer, of the twelve arguments as launched. -/
theorem out_eq (V : Valuation τ sig (Elt Ideal)) :
    after (ops (F := Ideal)) V (main_v143 : DevRef τ sig)
      = Cert.Bridge.netWith Cert.RefBridge.layerHost (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [after_ops, head_eq, layer2_eq, layer1_eq, layer0_eq]
  rw [layer2_keeps _ main_arg3 (by decide), layer2_keeps _ main_arg10 (by decide), layer2_keeps _ main_arg11 (by decide),
    layer1_keeps _ main_arg1 (by decide), layer1_keeps _ main_arg2 (by decide), layer1_keeps _ main_arg3 (by decide),
    layer1_keeps _ main_arg4 (by decide), layer1_keeps _ main_arg5 (by decide), layer1_keeps _ main_arg6 (by decide),
    layer1_keeps _ main_arg7 (by decide), layer1_keeps _ main_arg8 (by decide), layer1_keeps _ main_arg9 (by decide),
    layer1_keeps _ main_arg10 (by decide), layer1_keeps _ main_arg11 (by decide),
    layer0_keeps _ main_arg1 (by decide), layer0_keeps _ main_arg2 (by decide), layer0_keeps _ main_arg3 (by decide),
    layer0_keeps _ main_arg4 (by decide), layer0_keeps _ main_arg5 (by decide), layer0_keeps _ main_arg6 (by decide),
    layer0_keeps _ main_arg7 (by decide), layer0_keeps _ main_arg8 (by decide), layer0_keeps _ main_arg9 (by decide),
    layer0_keeps _ main_arg10 (by decide), layer0_keeps _ main_arg11 (by decide)]
  rfl

/-- The twelve argument buffers end as launched. -/
theorem args_eq (V : Valuation τ sig (Elt Ideal)) :
    after (ops (F := Ideal)) V (main_arg0 : DevRef τ sig) = V (main_arg0 : DevRef τ sig)
    ∧ after (ops (F := Ideal)) V (main_arg1 : DevRef τ sig) = V (main_arg1 : DevRef τ sig)
    ∧ after (ops (F := Ideal)) V (main_arg2 : DevRef τ sig) = V (main_arg2 : DevRef τ sig)
    ∧ after (ops (F := Ideal)) V (main_arg3 : DevRef τ sig) = V (main_arg3 : DevRef τ sig)
    ∧ after (ops (F := Ideal)) V (main_arg4 : DevRef τ sig) = V (main_arg4 : DevRef τ sig)
    ∧ after (ops (F := Ideal)) V (main_arg5 : DevRef τ sig) = V (main_arg5 : DevRef τ sig)
    ∧ after (ops (F := Ideal)) V (main_arg6 : DevRef τ sig) = V (main_arg6 : DevRef τ sig)
    ∧ after (ops (F := Ideal)) V (main_arg7 : DevRef τ sig) = V (main_arg7 : DevRef τ sig)
    ∧ after (ops (F := Ideal)) V (main_arg8 : DevRef τ sig) = V (main_arg8 : DevRef τ sig)
    ∧ after (ops (F := Ideal)) V (main_arg9 : DevRef τ sig) = V (main_arg9 : DevRef τ sig)
    ∧ after (ops (F := Ideal)) V (main_arg10 : DevRef τ sig) = V (main_arg10 : DevRef τ sig)
    ∧ after (ops (F := Ideal)) V (main_arg11 : DevRef τ sig) = V (main_arg11 : DevRef τ sig) :=
  ⟨ops_keeps V main_arg0 (by decide) (by decide) (by decide) (by decide),
   ops_keeps V main_arg1 (by decide) (by decide) (by decide) (by decide),
   ops_keeps V main_arg2 (by decide) (by decide) (by decide) (by decide),
   ops_keeps V main_arg3 (by decide) (by decide) (by decide) (by decide),
   ops_keeps V main_arg4 (by decide) (by decide) (by decide) (by decide),
   ops_keeps V main_arg5 (by decide) (by decide) (by decide) (by decide),
   ops_keeps V main_arg6 (by decide) (by decide) (by decide) (by decide),
   ops_keeps V main_arg7 (by decide) (by decide) (by decide) (by decide),
   ops_keeps V main_arg8 (by decide) (by decide) (by decide) (by decide),
   ops_keeps V main_arg9 (by decide) (by decide) (by decide) (by decide),
   ops_keeps V main_arg10 (by decide) (by decide) (by decide) (by decide),
   ops_keeps V main_arg11 (by decide) (by decide) (by decide) (by decide)⟩

end Cert.ReferenceIdeal.Ops

end
-- ==== Proof.LayerAlgebra.lean ====
/-
  The reference's layer is the layer of the shared definitions.

  Read at node `r` and feature `q`, the reference computes
  `elu' (((Σ_k a[r,k] · W[k,q]) + b q − μ q) · (γ q / sqrt (σ² q + ε)) + β q)`, where `elu' x` selects `x` above zero
  and `1 · (e^x' − 1)` otherwise, `x'` being `x` with the positive values replaced by zero. The shared layer is
  `elu (… · (γ q · rsqrt (σ² q + ε)) + β q)`. Two things differ. A quotient by a square root against a product with a
  reciprocal square root: on the extended reals `γ / sqrt w = γ · rsqrt w` for every `w > 0`, `w = ⊤` included (both
  sides are `γ · 0` there), and `σ² q + ε > 0` because `σ² q ≥ 0` and `ε > 0`. And the spelling of the activation:
  below or at zero the inner select returns `x`, and `1 · (e^x − 1) = e^x − 1`; above zero the outer select returns `x`.
-/
import proofs.«410813_j45140106281501_4_alg».proof.Proof.RefSpec
import Idealize.ShloMosaic.PureOps.Ideal.Laws
import Idealize.ShloMosaic.Lib.ValueIdx
import Idealize.ShloMosaic.Lib.IdealHost
import Idealize.ShloMosaic.Lib.KernelVsHost
import Idealize.ShloMosaic.Lib.Pipeline.Value

noncomputable section

namespace Cert.RefBridge

open Idealize.ShloMosaic Idealize.ShloMosaic.ValueIdx Cert.ReferenceIdeal Cert.ReferenceIdeal.Facts₀ Cert.ReferenceIdeal.Facts
open scoped BigOperators

/-! ## Scalars: extended reals only -/

/-- The batch-norm epsilon, `10995116 · 2⁻⁴⁰`, is positive. -/
theorem eps_pos : 0 < Cert.Bridge.eps := by
  unfold Cert.Bridge.eps
  simp [Ideal.ofBits, Ideal.ieee, -EReal.coe_mul]

/-- For `w > 0` the quotient by `sqrt w` is the product with `rsqrt w`: at a positive real `sqrt w` is a real that is
    not zero and `rsqrt w` its inverse; at `⊤` the quotient is `g · ⊤⁻¹ = g · 0` and `rsqrt ⊤ = 0`. -/
theorem div_sqrt_eq_mul_rsqrt (g w : EReal) (hw : 0 < w) :
    Ideal.div g (Ideal.sqrt w) = g * Ideal.rsqrt w := by
  induction w using EReal.rec with
  | bot => exact absurd hw (not_lt.mpr bot_le)
  | top => simp [Ideal.div]
  | coe r =>
    have hr : 0 < r := EReal.coe_pos.mp hw
    have hs : Real.sqrt r ≠ 0 := (Real.sqrt_pos.mpr hr).ne'
    rw [Ideal.sqrt_coe, Ideal.rsqrt_coe, if_neg (not_lt.mpr hr.le), if_neg (not_lt.mpr hr.le), if_neg hr.ne',
      Ideal.div_coe hs, one_div]

/-- The lowered activation on one value: `select (x > 0) x (1 · (exp (select (x > 0) 0 x) − 1))` is
    `x` above zero and `e^x − 1` otherwise. -/
theorem elu_scalar (x : EReal) :
    Scalar.select (FloatOps.cmpf (F := Ideal) (φ := .f32) .ogt x (0 : EReal)) x
        ((1 : EReal) * (Ideal.exp (Scalar.select (FloatOps.cmpf (F := Ideal) (φ := .f32) .ogt x (0 : EReal)) (0 : EReal) x) - 1))
      = Cert.Bridge.elu x := by
  unfold Cert.Bridge.elu
  by_cases h : 0 < x
  · simp [Scalar.select, Ideal.cmpf_def, Ideal.cmp, h]
  · simp [Scalar.select, Ideal.cmpf_def, Ideal.cmp, h]

/-! ## The layout operations and the matrix product at an index -/

/-- A per-feature vector repeated along the nodes reads, at node `r` and feature `q`, its entry `q`. -/
theorem overNodes_apply (p : FVec Ideal S64 .f32) (r : Fin 100000) (q : Fin 64) :
    overNodes p (ix2 r q) = p (ix1 q) := by
  unfold overNodes
  rw [broadcastInDim_oneRow_apply]
  refine broadcastInDim_apply ![1] _ p (ix2 (0 : Fin 1) q) (ix1 q) ?_
  intro a
  fin_cases a
  show q.val = if (64 : ℕ) = 1 then 0 else q.val
  simp

/-- The product with the weight matrix at node `r` and feature `q`: the sum over `k` of `a[r,k] · W[k,q]`. -/
theorem dot_apply (a : FVec Ideal S100000x64 .f32) (W : FVec Ideal S64x64 .f32) (r : Fin 100000) (q : Fin 64) :
    Host.dotGeneral dot_S100000x64_S64x64_S100000x64_1_0_0_1_n_n none a W (ix2 r q)
      = ∑ k : Fin 64, a (ix2 r k) * W (ix2 k q) := by
  show FloatOps.dotGeneral _ none _ a W (ix2 r q) = _
  rw [Ideal.dotGeneral_apply,
    ← Equiv.sum_comp (contrEquiv1 dot_S100000x64_S64x64_S100000x64_1_0_0_1_n_n 64 rfl rfl).symm]
  refine Finset.sum_congr rfl fun c _ => ?_
  have c2 := contrEquiv1_symm_val dot_S100000x64_S64x64_S100000x64_1_0_0_1_n_n 64 rfl rfl c
  have l2 : dot_S100000x64_S64x64_S100000x64_1_0_0_1_n_n.lhsIdx (ix2 r q) ((contrEquiv1 _ 64 rfl rfl).symm c) = ix2 r c := by
    funext ax; apply Fin.ext
    match ax with
    | ⟨0, _⟩ => simp [DotDims.lhsIdx, dot_S100000x64_S64x64_S100000x64_1_0_0_1_n_n]; rfl
    | ⟨1, _⟩ => simp [DotDims.lhsIdx, dot_S100000x64_S64x64_S100000x64_1_0_0_1_n_n]; exact c2
  have r2 : dot_S100000x64_S64x64_S100000x64_1_0_0_1_n_n.rhsIdx (ix2 r q) ((contrEquiv1 _ 64 rfl rfl).symm c) = ix2 c q := by
    funext ax; apply Fin.ext
    match ax with
    | ⟨0, _⟩ => simp [DotDims.rhsIdx, dot_S100000x64_S64x64_S100000x64_1_0_0_1_n_n]; exact c2
    | ⟨1, _⟩ => simp [DotDims.rhsIdx, dot_S100000x64_S64x64_S100000x64_1_0_0_1_n_n]; rfl
  rw [l2, r2]

/-- A scalar constant spread over the nodes and features reads the extended real its word denotes. -/
theorem splat_apply (c : BitVec 32) (i : S100000x64.Idx) :
    broadcastInDim S100000x64 ![] bcast_S_S100000x64 (constant (F := Ideal) S_ .f32 c) i = Ideal.ofBits .f32 c := by
  rw [broadcastInDim_scalar_apply, constant_apply]

/-! ## The activation and the layer at an index -/

/-- The lowered activation at an index is `elu` of the element. -/
theorem eluHost_apply (x : FVec Ideal S100000x64 .f32) (i : S100000x64.Idx) :
    eluHost x i = Cert.Bridge.elu (x i) := by
  unfold eluHost
  simp only [select_apply, cmpf_apply, mulf_apply, id, Host.expm1, Ideal.hostUnary_expm1_def]
  rw [splat_apply 0x00000000#32 i, splat_apply 0x3F800000#32 i, Ideal.ofBits_zero_f32, Ideal.ofBits_one_f32]
  exact elu_scalar (x i)

/-- The reference's layer at node `r` and feature `q` is `elu` of the shared pre-activation there. -/
theorem layerHost_apply (a : FVec Ideal S100000x64 .f32) (W : FVec Ideal S64x64 .f32) (b g be mu var : FVec Ideal S64 .f32)
    (hvar : ∀ q : Fin 64, 0 ≤ var (ix1 q)) (r : Fin 100000) (q : Fin 64) :
    layerHost a W b g be mu var (ix2 r q) = Cert.Bridge.elu (Cert.Bridge.preact a W b g be mu var r q) := by
  unfold layerHost
  rw [eluHost_apply]
  congr 1
  rw [addf_apply, mulf_apply, subf_apply, addf_apply, dot_apply, overNodes_apply, overNodes_apply, overNodes_apply,
    overNodes_apply, hostDivf_apply]
  have hs : Host.sqrt (addf var (broadcastInDim S64 ![] bcast_S_S64 (constant S_ .f32 0x3727C5AC#32))) (ix1 q)
      = Ideal.sqrt (var (ix1 q) + Cert.Bridge.eps) := by
    show Ideal.sqrt (var (ix1 q) + broadcastInDim S64 ![] bcast_S_S64 (constant (F := Ideal) S_ .f32 0x3727C5AC#32) (ix1 q)) = _
    rw [broadcastInDim_scalar_apply, constant_apply]
    rfl
  rw [hs, div_sqrt_eq_mul_rsqrt _ _ (lt_of_lt_of_le eps_pos (le_add_of_nonneg_left (hvar q)))]
  rfl

/-- The reference's layer is the shared layer, for running variances that are not negative. -/
theorem layerHost_eq (a : FVec Ideal Cert.ReferenceIdeal.S100000x64 .f32) (W : FVec Ideal Cert.ReferenceIdeal.S64x64 .f32)
    (b g be mu var : FVec Ideal Cert.ReferenceIdeal.S64 .f32)
    (hvar : ∀ q : Fin 64, 0 ≤ var (ix1 q)) :
    Cert.RefBridge.layerHost a W b g be mu var = Cert.Bridge.layer a W b g be mu var := by
  funext i
  obtain ⟨r, q, rfl⟩ : ∃ (r : Fin 100000) (q : Fin 64), i = ix2 r q := ⟨i 0, i 1, eq_ix2 i⟩
  rw [layerHost_apply a W b g be mu var hvar r q]
  rfl

end Cert.RefBridge

end
-- ==== Proof.PreVar.lean ====
/-
  The batch-norm variances are non-negative.

  The precondition is a conjunction of "all entries satisfy …" tests on the argument arrays; its last conjunct says
  that every entry of the stacked `[3, 64]` variance array is at least zero. Row `l` of that array, read at feature
  `q`, is its entry `(l, q)`; so every entry of each of the three rows is non-negative, which is what makes
  `σ² + ε` positive where the layers take its inverse square root.
-/
import proofs.«410813_j45140106281501_4_alg».proof.Defs
import proofs.«410813_j45140106281501_4_alg».proof.Proof.Gen.Pre_finite_inputs
import proofs.«410813_j45140106281501_4_alg».proof.Proof.Gen.KernelIdeal
import proofs.«410813_j45140106281501_4_alg».proof.Proof.Spec
import Idealize.ShloMosaic.Lib.ReduceAll
import Idealize.ShloMosaic.Lib.ValueLayout
import Idealize.ShloMosaic.Lib.IdealHost
import Idealize.ShloMosaic.PureOps.Ideal.Laws

namespace Cert.KernelIdeal.Hand

open Idealize.ShloMosaic Idealize.ShloMosaic.TcCoe Idealize.ShloMosaic.ValueIdx Idealize.SL.Sem Cert.KernelIdeal Cert.Bridge

namespace PreVar

/-- An entry at which the test "`p ≥ 0`" (against the zero word broadcast to the array's shape) came out 1 is a
    non-negative extended real: over the extended reals the comparison is the order, and the zero word is `0`. -/
theorem entry_nonneg (p : FVec Ideal S3x64 .f32) (i : S3x64.Idx)
    (h : cmpf CmpFPredicate.oge p (broadcastInDim Cert.Pre_finite_inputs.S3x64 ![] Cert.Pre_finite_inputs.Facts.bcast_S_S3x64
      (constant Cert.Pre_finite_inputs.S_ .f32 0x00000000#32)) i = 1#1) : 0 ≤ p i := by
  rw [cmpf_apply, broadcastInDim_scalar_apply, constant_apply, Ideal.cmpf_def, Ideal.ofBits_zero_f32] at h
  by_cases hn : 0 ≤ p i
  · exact hn
  · simp [Ideal.cmp, hn] at h

/-- Row 0 of a stacked `[3, 64]` parameter at feature `q` is its entry `(0, q)`. -/
theorem row0_apply (p : FVec Ideal S3x64 .f32) (q : Fin 64) : row0 p (ix1 q) = p (ix2 (0 : Fin 3) q) := by
  unfold row0
  rw [shapeCast_1a_a_apply]
  exact slice2_axis0_apply 0 p _ (0 : Fin 1) q (0 : Fin 3) rfl

/-- Row 1 of a stacked `[3, 64]` parameter at feature `q` is its entry `(1, q)`. -/
theorem row1_apply (p : FVec Ideal S3x64 .f32) (q : Fin 64) : row1 p (ix1 q) = p (ix2 (1 : Fin 3) q) := by
  unfold row1
  rw [shapeCast_1a_a_apply]
  exact slice2_axis0_apply 1 p _ (0 : Fin 1) q (1 : Fin 3) rfl

/-- Row 2 of a stacked `[3, 64]` parameter at feature `q` is its entry `(2, q)`. -/
theorem row2_apply (p : FVec Ideal S3x64 .f32) (q : Fin 64) : row2 p (ix1 q) = p (ix2 (2 : Fin 3) q) := by
  unfold row2
  rw [shapeCast_1a_a_apply]
  exact slice2_axis0_apply 2 p _ (0 : Fin 1) q (2 : Fin 3) rfl

end PreVar

/-- Under the precondition every entry of each layer's variance row is non-negative: the precondition's value at its
    one index is 1, so its last conjunct is 1, so the test `σ² ≥ 0` is 1 at every index of the `[3, 64]` array; a
    row's entry is one of those. -/
theorem var_nonneg (m : (ℓ : Loc nD τ sig) → Buf (Elt Ideal) ℓ) (hpre : Cert.Pre_KernelIdeal m) (c : Dev nD) :
    (∀ q : Fin 64, 0 ≤ row0 (m ((c.tc : Thread nD τ).loc main_arg9)) (ix1 q))
    ∧ (∀ q : Fin 64, 0 ≤ row1 (m ((c.tc : Thread nD τ).loc main_arg9)) (ix1 q))
    ∧ (∀ q : Fin 64, 0 ≤ row2 (m ((c.tc : Thread nD τ).loc main_arg9)) (ix1 q)) := by
  -- a rank-0 array has exactly one index
  haveI : Subsingleton Cert.Pre_finite_inputs.S_.Idx := ⟨fun a b => funext fun d => d.elim0⟩
  have h := congrFun (hpre c) ValueIdx.ix0
  dsimp only [Cert.Pre_finite_inputs.fn, Cert.Pre_finite_inputs.fn_part1, Cert.Pre_finite_inputs.fn_part2] at h
  have h2 := (IntOp.andi_eq_one.1 h).2
  have h3 := fun i => PreVar.entry_nonneg _ i (Host.reduce_andi_all _ _ _ _ _ h2 i)
  refine ⟨fun q => ?_, fun q => ?_, fun q => ?_⟩
  · rw [PreVar.row0_apply]; exact h3 _
  · rw [PreVar.row1_apply]; exact h3 _
  · rw [PreVar.row2_apply]; exact h3 _

end Cert.KernelIdeal.Hand
-- ==== Proof.lean ====
/-
  The certificate. Both idealized programs compute the same network: three graph-convolution layers (neighbour
  aggregation, a linear map, batch normalisation by the running statistics, the exponential linear unit) and a head
  (class logits, entropy weights, a weighted sum per graph, a last classification). The kernel program computes each
  layer's dense part in a blockwise kernel launch and scales by `γ · (σ² + ε)^(-1/2)` through a reciprocal square root;
  the reference computes it with host operations and scales by `γ / sqrt (σ² + ε)`. Under the precondition the
  variances are non-negative, so `σ² + ε > 0` and the two scales are one extended real; everything else is the same
  operations on the same values. The frames of the two kernel programs are the generated ones; the reference's is its
  run as a straight line of host operations.
-/
import proofs.«410813_j45140106281501_4_alg».proof.Defs
import proofs.«410813_j45140106281501_4_alg».proof.Proof.Gen.Kernel
import proofs.«410813_j45140106281501_4_alg».proof.Proof.Gen.Kernel.Frame
import proofs.«410813_j45140106281501_4_alg».proof.Proof.Gen.KernelIdeal
import proofs.«410813_j45140106281501_4_alg».proof.Proof.Gen.KernelIdeal.Frame
import proofs.«410813_j45140106281501_4_alg».proof.Proof.Gen.ReferenceIdeal
import proofs.«410813_j45140106281501_4_alg».proof.Proof.Gen.Pre_finite_inputs
import proofs.«410813_j45140106281501_4_alg».proof.Proof.KernelRun
import proofs.«410813_j45140106281501_4_alg».proof.Proof.KernelValue
import proofs.«410813_j45140106281501_4_alg».proof.Proof.RefRun
import proofs.«410813_j45140106281501_4_alg».proof.Proof.RefValue
import proofs.«410813_j45140106281501_4_alg».proof.Proof.LayerAlgebra
import proofs.«410813_j45140106281501_4_alg».proof.Proof.PreVar
import Idealize.ShloMosaic.Adequacy
import Idealize.ShloMosaic.Init

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run as a line of host operations, none of which writes an argument. -/
theorem frame_referenceIdeal : Cert.frame_ReferenceIdeal := fun m ρ _ =>
  (θ_run Cert.ReferenceIdeal.defs _ _).mono (fun r h c => by
    obtain ⟨a0, a1, a2, a3, a4, a5, a6, a7, a8, a9, a10, a11⟩ := Cert.ReferenceIdeal.Ops.args_eq (launchContents m c)
    exact ⟨(h c Cert.ReferenceIdeal.main_arg0).trans a0, (h c Cert.ReferenceIdeal.main_arg1).trans a1, (h c Cert.ReferenceIdeal.main_arg2).trans a2, (h c Cert.ReferenceIdeal.main_arg3).trans a3, (h c Cert.ReferenceIdeal.main_arg4).trans a4, (h c Cert.ReferenceIdeal.main_arg5).trans a5, (h c Cert.ReferenceIdeal.main_arg6).trans a6, (h c Cert.ReferenceIdeal.main_arg7).trans a7, (h c Cert.ReferenceIdeal.main_arg8).trans a8, (h c Cert.ReferenceIdeal.main_arg9).trans a9, (h c Cert.ReferenceIdeal.main_arg10).trans a10, (h c Cert.ReferenceIdeal.main_arg11).trans a11⟩)
    (Cert.ReferenceIdeal.Ops.run (F := Ideal) m ρ)

/-- Both programs end with the network's value of the (agreeing) arguments: the kernel program's layers are the layer
    function by what each launch leaves in its output array, the reference's are the same function because the
    variances are non-negative. -/
theorem algebraic : Cert.algebraic_KernelIdeal_ReferenceIdeal := by
  intro m ρ m' ρ' hpre hagree
  refine ⟨fun c => Cert.Bridge.netWith Cert.Bridge.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ?_) (Cert.KernelIdeal.Gen.run_result (F := Ideal) m ρ)
    exact ⟨(h c).1.trans (Cert.KernelIdeal.Hand.result_eq m ρ c), (h c).2⟩
  · refine (θ_run Cert.ReferenceIdeal.defs _ _).mono (fun r h c => ?_) (Cert.ReferenceIdeal.Ops.run (F := Ideal) m' ρ')
    obtain ⟨a0, a1, a2, a3, a4, a5, a6, a7, a8, a9, a10, a11⟩ := Cert.ReferenceIdeal.Ops.args_eq (launchContents m' c)
    obtain ⟨hv0, hv1, hv2⟩ := Cert.KernelIdeal.Hand.var_nonneg m hpre c
    refine ⟨?_, (h c Cert.ReferenceIdeal.main_arg0).trans a0, (h c Cert.ReferenceIdeal.main_arg1).trans a1, (h c Cert.ReferenceIdeal.main_arg2).trans a2, (h c Cert.ReferenceIdeal.main_arg3).trans a3, (h c Cert.ReferenceIdeal.main_arg4).trans a4, (h c Cert.ReferenceIdeal.main_arg5).trans a5, (h c Cert.ReferenceIdeal.main_arg6).trans a6, (h c Cert.ReferenceIdeal.main_arg7).trans a7, (h c Cert.ReferenceIdeal.main_arg8).trans a8, (h c Cert.ReferenceIdeal.main_arg9).trans a9, (h c Cert.ReferenceIdeal.main_arg10).trans a10, (h c Cert.ReferenceIdeal.main_arg11).trans a11⟩
    rw [h c Cert.ReferenceIdeal.main_v143, Cert.ReferenceIdeal.Ops.out_eq]
    show Cert.Bridge.netWith Cert.RefBridge.layerHost (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = _
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    unfold Cert.Bridge.netWith
    rw [Cert.RefBridge.layerHost_eq _ _ _ _ _ _ _ hv0, Cert.RefBridge.layerHost_eq _ _ _ _ _ _ _ hv1,
      Cert.RefBridge.layerHost_eq _ _ _ _ _ _ _ hv2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
